-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S2x1200000 : S_.BroadcastsInDim S2x1200000 (![] : Fin 0 → Fin S2x1200000.rank)
  reducesTo_S2x1200000_S_d0_1 : S2x1200000.ReducesTo [0, 1] S_

variable [Facts]

def fn_part2 {F : FTy → Type} [FloatOps F] (main_arg1 : IVec S2x1200000 32) (main_v33 : IVec S_ 1) : IVec S_ 1 :=
  let main_c_12 : IVec S_ 32 := constantI S_ 32 0#32
  let main_v34 : IVec S2x1200000 32 := broadcastInDim S2x1200000 ![] bcast_S_S2x1200000 main_c_12
  let main_v35 : IVec S2x1200000 1 := cmpi .sge main_arg1 main_v34
  let main_c_13 : IVec S_ 32 := constantI S_ 32 100000#32
  let main_v36 : IVec S2x1200000 32 := broadcastInDim S2x1200000 ![] bcast_S_S2x1200000 main_c_13
  let main_v37 : IVec S2x1200000 1 := cmpi .slt main_arg1 main_v36
  let main_v38 : IVec S2x1200000 1 := andi main_v35 main_v37
  let main_c_14 : IVec S_ 1 := constantI S_ 1 1#1
  let main_v39 : IVec S_ 1 := (fun x v => Host.reduce IntOp.andi x v reducesTo_S2x1200000_S_d0_1 h_S_) main_v38 main_c_14
  let main_v40 : IVec S_ 1 := andi main_v33 main_v39
  main_v40

def fn_part1 {F : FTy → Type} [FloatOps F] (main_arg1 : IVec S2x1200000 32) (main_arg5 : FVec F S64 .f32) (main_arg6 : FVec F S64x32 .f32) (main_arg7 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64 .f32) (main_arg6 : FVec F S64x32 .f32) (main_arg7 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x1 : Shape := ⟨2, ![100000, 1]⟩
abbrev S10000x64 : Shape := ⟨2, ![10000, 64]⟩
abbrev S10000x1 : Shape := ⟨2, ![10000, 1]⟩
abbrev S1 : Shape := ⟨1, ![1]⟩
abbrev S1x1 : Shape := ⟨2, ![1, 1]⟩
abbrev S1300000x64 : Shape := ⟨2, ![1300000, 64]⟩
abbrev S1x64 : Shape := ⟨2, ![1, 64]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 113
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S100000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S1x1200000, .i32⟩
  | .hbm, ⟨13, _⟩ => ⟨S1200000, .i32⟩
  | .hbm, ⟨14, _⟩ => ⟨S1300000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S1300000, .i32⟩
  | .hbm, ⟨19, _⟩ => ⟨S1300000, .i1⟩
  | .hbm, ⟨20, _⟩ => ⟨S_, .i32⟩
  | .hbm, ⟨21, _⟩ => ⟨S1300000, .i32⟩
  | .hbm, ⟨22, _⟩ => ⟨S1300000, .i32⟩
  | .hbm, ⟨23, _⟩ => ⟨S1300000, .i32⟩
  | .hbm, ⟨24, _⟩ => ⟨S1300000x1, .i32⟩
  | .hbm, ⟨25, _⟩ => ⟨S_, .f32⟩
  | .hbm, ⟨26, _⟩ => ⟨S1300000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S_, .i32⟩
  | .hbm, ⟨39, _⟩ => ⟨S1300000, .i32⟩
  | .hbm, ⟨40, _⟩ => ⟨S1300000, .i1⟩
  | .hbm, ⟨41, _⟩ => ⟨S_, .i32⟩
  | .hbm, ⟨42, _⟩ => ⟨S1300000, .i32⟩
  | .hbm, ⟨43, _⟩ => ⟨S1300000, .i32⟩
  | .hbm, ⟨44, _⟩ => ⟨S1300000, .i32⟩
  | .hbm, ⟨45, _⟩ => ⟨S1300000x1, .i32⟩
  | .hbm, ⟨46, _⟩ => ⟨S1, .i32⟩
  | .hbm, ⟨47, _⟩ => ⟨S_, .i32⟩
  | .hbm, ⟨48, _⟩ => ⟨S1300000x1, .i32⟩
  | .hbm, ⟨49, _⟩ => ⟨S1300000x1, .i1⟩
  | .hbm, ⟨50, _⟩ => ⟨S1x1, .i32⟩
  | .hbm, ⟨51, _⟩ => ⟨S1300000x1, .i32⟩
  | .hbm, ⟨52, _⟩ => ⟨S1300000x1, .i1⟩
  | .hbm, ⟨53, _⟩ => ⟨S1300000x1, .i1⟩
  | .hbm, ⟨54, _⟩ => ⟨S_, .i1⟩
  | .hbm, ⟨55, _⟩ => ⟨S1300000, .i1⟩
  | .hbm, ⟨56, _⟩ => ⟨S1300000x64, .f32⟩
  | .hbm, ⟨57, _⟩ => ⟨S1300000x64, .i1⟩
  | .hbm, ⟨58, _⟩ => ⟨S_, .f32⟩
  | .hbm, ⟨59, _⟩ => ⟨S1300000x64, .f32⟩
  | .hbm, ⟨60, _⟩ => ⟨S1300000x64, .f32⟩
  | .hbm, ⟨61, _⟩ => ⟨S_, .f32⟩
  | .hbm, ⟨62, _⟩ => ⟨S100000x64, .f32⟩
  | .hbm, ⟨63, _⟩ => ⟨S_, .i32⟩
  | .hbm, ⟨64, _⟩ => ⟨S1300000, .i32⟩
  | .hbm, ⟨65, _⟩ => ⟨S1300000, .i1⟩
  | .hbm, ⟨66, _⟩ => ⟨S_, .i32⟩
  | .hbm, ⟨67, _⟩ => ⟨S1300000, .i32⟩
  | .hbm, ⟨68, _⟩ => ⟨S1300000, .i32⟩
  | .hbm, ⟨69, _⟩ => ⟨S1300000, .i32⟩
  | .hbm, ⟨70, _⟩ => ⟨S1300000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1300000, .i32⟩
  | .hbm, ⟨77, _⟩ => ⟨S1300000, .i1⟩
  | .hbm, ⟨78, _⟩ => ⟨S_, .i32⟩
  | .hbm, ⟨79, _⟩ => ⟨S1300000, .i32⟩
  | .hbm, ⟨80, _⟩ => ⟨S1300000, .i32⟩
  | .hbm, ⟨81, _⟩ => ⟨S1300000, .i32⟩
  | .hbm, ⟨82, _⟩ => ⟨S1300000x1, .i32⟩
  | .hbm, ⟨83, _⟩ => ⟨S1, .i32⟩
  | .hbm, ⟨84, _⟩ => ⟨S_, .i32⟩
  | .hbm, ⟨85, _⟩ => ⟨S1300000x1, .i32⟩
  | .hbm, ⟨86, _⟩ => ⟨S1300000x1, .i1⟩
  | .hbm, ⟨87, _⟩ => ⟨S1x1, .i32⟩
  | .hbm, ⟨88, _⟩ => ⟨S1300000x1, .i32⟩
  | .hbm, ⟨89, _⟩ => ⟨S1300000x1, .i1⟩
  | .hbm, ⟨90, _⟩ => ⟨S1300000x1, .i1⟩
  | .hbm, ⟨91, _⟩ => ⟨S_, .i1⟩
  | .hbm, ⟨92, _⟩ => ⟨S1300000, .i1⟩
  | .hbm, ⟨93, _⟩ => ⟨S1300000x64, .f32⟩
  | .hbm, ⟨94, _⟩ => ⟨S1300000x64, .i1⟩
  | .hbm, ⟨95, _⟩ => ⟨S_, .f32⟩
  | .hbm, ⟨96, _⟩ => ⟨S1300000x64, .f32⟩
  | .hbm, ⟨97, _⟩ => ⟨S1300000x64, .f32⟩
  | .hbm, ⟨98, _⟩ => ⟨S_, .f32⟩
  | .hbm, ⟨99, _⟩ => ⟨S100000x64, .f32⟩
  | .hbm, ⟨100, _⟩ => ⟨S_, .i32⟩
  | .hbm, ⟨101, _⟩ => ⟨S1300000, .i32⟩
  | .hbm, ⟨102, _⟩ => ⟨S1300000, .i1⟩
  | .hbm, ⟨103, _⟩ => ⟨S_, .i32⟩
  | .hbm, ⟨104, _⟩ => ⟨S1300000, .i32⟩
  | .hbm, ⟨105, _⟩ => ⟨S1300000, .i32⟩
  | .hbm, ⟨106, _⟩ => ⟨S1300000, .i32⟩
  | .hbm, ⟨107, _⟩ => ⟨S1300000x1, .i32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S1x32, .f32⟩
  | .hbm, ⟨112, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x1, .f32⟩
  | .local _ .vmem, ⟨18, _⟩ => ⟨S10000x1, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x32, .f32⟩
  | .local _ .vmem, ⟨31, _⟩ => ⟨S1x32, .f32⟩
  | .local _ .vmem, ⟨32, _⟩ => ⟨S10000x32, .f32⟩
  | .local _ .vmem, ⟨33, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v22 : Ref sig .tc := ⟨.hbm, 60, rfl⟩
abbrev main_cst_4 : Ref sig .tc := ⟨.hbm, 61, rfl⟩
abbrev main_v23 : Ref sig .tc := ⟨.hbm, 62, rfl⟩
abbrev main_c_5 : Ref sig .tc := ⟨.hbm, 63, rfl⟩
abbrev main_v24 : Ref sig .tc := ⟨.hbm, 64, rfl⟩
abbrev main_v25 : Ref sig .tc := ⟨.hbm, 65, rfl⟩
abbrev main_c_6 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v34 : Ref sig .tc := ⟨.hbm, 97, rfl⟩
abbrev main_cst_7 : Ref sig .tc := ⟨.hbm, 98, rfl⟩
abbrev main_v35 : Ref sig .tc := ⟨.hbm, 99, rfl⟩
abbrev main_c_8 : Ref sig .tc := ⟨.hbm, 100, rfl⟩
abbrev main_v36 : Ref sig .tc := ⟨.hbm, 101, rfl⟩
abbrev main_v37 : Ref sig .tc := ⟨.hbm, 102, rfl⟩
abbrev main_c_9 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S_S1300000 : S_.BroadcastsInDim S1300000 (![] : Fin 0 → Fin S1300000.rank)
  bcast_S1300000_S1300000x1_0 : S1300000.BroadcastsInDim S1300000x1 (![0] : Fin 1 → Fin S1300000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S1300000x1 : S_.BroadcastsInDim S1300000x1 (![] : Fin 0 → Fin S1300000x1.rank)
  bcast_S1_S1x1_1 : S1.BroadcastsInDim S1x1 (![1] : Fin 1 → Fin S1x1.rank)
  bcast_S1x1_S1300000x1_0_1 : S1x1.BroadcastsInDim S1300000x1 (![0, 1] : Fin 2 → Fin S1300000x1.rank)
  reducesTo_S1300000x1_S1300000_d1 : S1300000x1.ReducesTo [1] S1300000
  h_S_ : 0 < S_.numel
  bcast_S1300000_S1300000x64_0 : S1300000.BroadcastsInDim S1300000x64 (![0] : Fin 1 → Fin S1300000x64.rank)
  bcast_S_S1300000x64 : S_.BroadcastsInDim S1300000x64 (![] : Fin 0 → Fin S1300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  scatter_S100000_S1300000x1_S1300000_n_0_0_1_wf : ScatterDims.WF S100000 S1300000x1 S1300000 [] [0] [0] 1
  dot_S10000x64_S64x64_S10000x64_1_0_0_1_n_n_wf : DotDims.WF S10000x64 S64x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x32.size a ≤ S100000x32.size a
  hwx4_3 : ∀ i : grid4.Coords, EltTy.bits .f32 = 32 ∨ (Rect.block (s := S100000x32) S10000x32.size (cc4_transform_3 i) (hinb4_3 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v44) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v45) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S10000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 148
  | .vmem => 0
  | .smem => 0
  | _ => 0

abbrev hbmTy0_0 (i : Nat) : BufTy := match i % 128 with
  | 0 => ⟨S100000x64, .f32⟩
  | 1 => ⟨S2x1200000, .i32⟩
  | 2 => ⟨S64x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S100000, .i32⟩
  | 9 => ⟨S1x1200000, .i32⟩
  | 10 => ⟨S1200000, .i32⟩
  | 11 => ⟨S1300000, .i32⟩
  | 12 => ⟨S1x1200000, .i32⟩
  | 13 => ⟨S1200000, .i32⟩
  | 14 => ⟨S1300000, .i32⟩
  | 15 => ⟨S_, .f32⟩
  | 16 => ⟨S100000, .f32⟩
  | 17 => ⟨S_, .i32⟩
  | 18 => ⟨S1300000, .i32⟩
  | 19 => ⟨S1300000, .i1⟩
  | 20 => ⟨S_, .i32⟩
  | 21 => ⟨S1300000, .i32⟩
  | 22 => ⟨S1300000, .i32⟩
  | 23 => ⟨S1300000, .i32⟩
  | 24 => ⟨S1300000x1, .i32⟩
  | 25 => ⟨S_, .f32⟩
  | 26 => ⟨S1300000, .f32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1300000, .i32⟩
  | 38 => ⟨S1300000, .i1⟩
  | 39 => ⟨S_, .i32⟩
  | 40 => ⟨S1300000, .i32⟩
  | 41 => ⟨S1300000, .i32⟩
  | 42 => ⟨S1300000, .i32⟩
  | 43 => ⟨S1300000x1, .i32⟩
  | 44 => ⟨S1300000, .f32⟩
  | 45 => ⟨S_, .i32⟩
  | 46 => ⟨S1300000, .i32⟩
  | 47 => ⟨S1300000, .i1⟩
  | 48 => ⟨S_, .i32⟩
  | 49 => ⟨S1300000, .i32⟩
  | 50 => ⟨S1300000, .i32⟩
  | 51 => ⟨S1300000, .i32⟩
  | 52 => ⟨S1300000x1, .i32⟩
  | 53 => ⟨S1300000, .f32⟩
  | 54 => ⟨S1300000, .f32⟩
  | 55 => ⟨S100000x64, .f32⟩
  | 56 => ⟨S_, .i32⟩
  | 57 => ⟨S1300000, .i32⟩
  | 58 => ⟨S1300000, .i1⟩
  | 59 => ⟨S_, .i32⟩
  | 60 => ⟨S1300000, .i32⟩
  | 61 => ⟨S1300000, .i32⟩
  | 62 => ⟨S1300000, .i32⟩
  | 63 => ⟨S1300000x1, .i32⟩
  | 64 => ⟨S1300000x64, .f32⟩
  | 65 => ⟨S1300000x1, .f32⟩
  | 66 => ⟨S1300000x64, .f32⟩
  | 67 => ⟨S1300000x64, .f32⟩
  | 68 => ⟨S_, .f32⟩
  | 69 => ⟨S100000x64, .f32⟩
  | 70 => ⟨S1300000x1, .i32⟩
  | 71 => ⟨S100000x64, .f32⟩
  | 72 => ⟨S1x64, .f32⟩
  | 73 => ⟨S100000x64, .f32⟩
  | 74 => ⟨S100000x64, .f32⟩
  | 75 => ⟨S100000x64, .f32⟩
  | 76 => ⟨S100000, .i32⟩
  | 77 => ⟨S1x1200000, .i32⟩
  | 78 => ⟨S1200000, .i32⟩
  | 79 => ⟨S1300000, .i32⟩
  | 80 => ⟨S1x1200000, .i32⟩
  | 81 => ⟨S1200000, .i32⟩
  | 82 => ⟨S1300000, .i32⟩
  | 83 => ⟨S_, .f32⟩
  | 84 => ⟨S100000, .f32⟩
  | 85 => ⟨S_, .i32⟩
  | 86 => ⟨S1300000, .i32⟩
  | 87 => ⟨S1300000, .i1⟩
  | 88 => ⟨S_, .i32⟩
  | 89 => ⟨S1300000, .i32⟩
  | 90 => ⟨S1300000, .i32⟩
  | 91 => ⟨S1300000, .i32⟩
  | 92 => ⟨S1300000x1, .i32⟩
  | 93 => ⟨S_, .f32⟩
  | 94 => ⟨S1300000, .f32⟩
  | 95 => ⟨S100000, .f32⟩
  | 96 => ⟨S_, .f32⟩
  | 97 => ⟨S100000, .f32⟩
  | 98 => ⟨S100000, .i1⟩
  | 99 => ⟨S100000, .f32⟩
  | 100 => ⟨S_, .f32⟩
  | 101 => ⟨S_, .f32⟩
  | 102 => ⟨S100000, .f32⟩
  | 103 => ⟨S100000, .f32⟩
  | 104 => ⟨S_, .i32⟩
  | 105 => ⟨S1300000, .i32⟩
  | 106 => ⟨S1300000, .i1⟩
  | 107 => ⟨S_, .i32⟩
  | 108 => ⟨S1300000, .i32⟩
  | 109 => ⟨S1300000, .i32⟩
  | 110 => ⟨S1300000, .i32⟩
  | 111 => ⟨S1300000x1, .i32⟩
  | 112 => ⟨S1300000, .f32⟩
  | 113 => ⟨S_, .i32⟩
  | 114 => ⟨S1300000, .i32⟩
  | 115 => ⟨S1300000, .i1⟩
  | 116 => ⟨S_, .i32⟩
  | 117 => ⟨S1300000, .i32⟩
  | 118 => ⟨S1300000, .i32⟩
  | 119 => ⟨S1300000, .i32⟩
  | 120 => ⟨S1300000x1, .i32⟩
  | 121 => ⟨S1300000, .f32⟩
  | 122 => ⟨S1300000, .f32⟩
  | 123 => ⟨S100000x64, .f32⟩
  | 124 => ⟨S_, .i32⟩
  | 125 => ⟨S1300000, .i32⟩
  | 126 => ⟨S1300000, .i1⟩
  | 127 => ⟨S_, .i32⟩
  | _ => ⟨S100000x64, .f32⟩

abbrev hbmTy0_1 (i : Nat) : BufTy := match i % 128 with
  | 0 => ⟨S1300000, .i32⟩
  | 1 => ⟨S1300000, .i32⟩
  | 2 => ⟨S1300000, .i32⟩
  | 3 => ⟨S1300000x1, .i32⟩
  | 4 => ⟨S1300000x64, .f32⟩
  | 5 => ⟨S1300000x1, .f32⟩
  | 6 => ⟨S1300000x64, .f32⟩
  | 7 => ⟨S1300000x64, .f32⟩
  | 8 => ⟨S_, .f32⟩
  | 9 => ⟨S100000x64, .f32⟩
  | 10 => ⟨S1300000x1, .i32⟩
  | 11 => ⟨S100000x64, .f32⟩
  | 12 => ⟨S1x64, .f32⟩
  | 13 => ⟨S100000x64, .f32⟩
  | 14 => ⟨S100000x64, .f32⟩
  | 15 => ⟨S100000x64, .f32⟩
  | 16 => ⟨S100000x32, .f32⟩
  | 17 => ⟨S1x32, .f32⟩
  | 18 => ⟨S100000x32, .f32⟩
  | 19 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_call1_v0 : Ref sig .tc := ⟨.hbm, 101, rfl⟩
abbrev main_call1_v1 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_19 : Ref sig .tc := ⟨.hbm, 113, rfl⟩
abbrev main_v80 : Ref sig .tc := ⟨.hbm, 114, rfl⟩
abbrev main_v81 : Ref sig .tc := ⟨.hbm, 115, rfl⟩
abbrev main_c_20 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_21 : Ref sig .tc := ⟨.hbm, 124, rfl⟩
abbrev main_v89 : Ref sig .tc := ⟨.hbm, 125, rfl⟩
abbrev main_v90 : Ref sig .tc := ⟨.hbm, 126, rfl⟩
abbrev main_c_22 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_23 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S_S1300000 : S_.BroadcastsInDim S1300000 (![] : Fin 0 → Fin S1300000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x32_S100000x32_1_0_0_1_n_n_wf : DotDims.WF S100000x64 S64x32 S100000x32 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.Spec.lean ====
/-
  A two-layer graph convolution over 100000 nodes and 1300000 directed edges (the given edges, then one self loop per
  node), as plain functions of indices over the extended reals.

  Edge e goes from node s e to node t e. The in-degree of node p is the number of edges that end at p, and its
  normaliser is the reciprocal square root of the degree (zero where the degree is zero). One layer multiplies the node
  features by a weight matrix, sends along every edge the source's row scaled by the two endpoints' normalisers, adds
  what arrives at each node, adds a bias and takes the hyperbolic tangent.

  The two programs arrange the scaling differently. One scales each row by its own node's normaliser before the rows
  travel, adds, and scales the sum by the receiving node's normaliser (layerK). The other scales each travelling row by
  the product of the two normalisers and then adds (layerR). Over the extended reals the two agree when the rows and the
  normalisers are real numbers: multiplication by a real distributes over a finite sum of reals (layer_eq). A degree is
  a finite count, so the normalisers are real (dinv_real); a product of real matrices is real, and a hyperbolic tangent
  is real whatever its argument (layerR_real), which carries the hypothesis from one layer to the next.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- an extended real that is a real number -/
def IsReal (x : EReal) : Prop := ∃ r : ℝ, x = (r : EReal)

/-- zero is a real number -/
theorem isReal_zero : IsReal 0 := ⟨0, rfl⟩

/-- a product of two reals is real -/
theorem isReal_mul {a b : EReal} (ha : IsReal a) (hb : IsReal b) : IsReal (a * b) := by
  obtain ⟨r, rfl⟩ := ha
  obtain ⟨q, rfl⟩ := hb
  exact ⟨r * q, (EReal.coe_mul r q).symm⟩

/-- a sum of two reals is real -/
theorem isReal_add {a b : EReal} (ha : IsReal a) (hb : IsReal b) : IsReal (a + b) := by
  obtain ⟨r, rfl⟩ := ha
  obtain ⟨q, rfl⟩ := hb
  exact ⟨r + q, (EReal.coe_add r q).symm⟩

/-- the inclusion of the reals carries a finite sum to the finite sum -/
theorem coe_finsum {ι : Type*} (S : Finset ι) (f : ι → ℝ) :
    ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- a finite sum of reals is real -/
theorem isReal_sum {ι : Type*} (S : Finset ι) (f : ι → EReal) (h : ∀ i, IsReal (f i)) :
    IsReal (∑ i ∈ S, f i) := by
  choose g hg using h
  exact ⟨∑ i ∈ S, g i, by simp only [hg, coe_finsum]⟩

/-- Scaling a finite sum of real products by a real: the factor goes inside every term. Every term is real, so the
    statement is the real one, where multiplication distributes over a finite sum and is associative. -/
theorem scale_sum {ι : Type*} (S : Finset ι) (a d : ι → EReal) (c : EReal)
    (ha : ∀ e, IsReal (a e)) (hd : ∀ e, IsReal (d e)) (hc : IsReal c) :
    (0 + ∑ e ∈ S, a e * d e) * c = 0 + ∑ e ∈ S, a e * (d e * c) := by
  choose a' ha' using ha
  choose d' hd' using hd
  obtain ⟨c', rfl⟩ := hc
  simp only [ha', hd', zero_add, ← EReal.coe_mul, coe_finsum, Finset.sum_mul, mul_assoc]

section Graph
variable (s t : Fin 1300000 → Fin 100000)

/-- the number of edges that end at node p, counted from zero by adding one per edge -/
def deg (p : Fin 100000) : EReal := 0 + ∑ _e ∈ Finset.univ.filter (fun e : Fin 1300000 => t e = p), (1 : EReal)

/-- the normaliser of node p: one over the square root of its degree, zero for a node no edge ends at -/
def dinv (p : Fin 100000) : EReal := if 0 < deg t p then Ideal.rsqrt (deg t p) else 0

/-- row i of x times column j of W -/
def mm {C : Nat} (x : Fin 100000 → Fin 64 → EReal) (W : Fin 64 → Fin C → EReal) (i : Fin 100000) (j : Fin C) : EReal :=
  ∑ k : Fin 64, x i k * W k j

/-- one layer, rows scaled at their source before they travel and the sum scaled at its destination -/
def layerK (x : Fin 100000 → Fin 64 → EReal) (W : Fin 64 → Fin 64 → EReal) (b : Fin 64 → EReal)
    (i : Fin 100000) (j : Fin 64) : EReal :=
  Ideal.tanh ((0 + ∑ e ∈ Finset.univ.filter (fun e : Fin 1300000 => t e = i), mm x W (s e) j * dinv t (s e)) * dinv t i + b j)

/-- one layer, every travelling row scaled by the product of its two endpoints' normalisers -/
def layerR (x : Fin 100000 → Fin 64 → EReal) (W : Fin 64 → Fin 64 → EReal) (b : Fin 64 → EReal)
    (i : Fin 100000) (j : Fin 64) : EReal :=
  Ideal.tanh ((0 + ∑ e ∈ Finset.univ.filter (fun e : Fin 1300000 => t e = i), mm x W (s e) j * (dinv t (s e) * dinv t i)) + b j)

/-- the classifier on top: a matrix product plus a bias -/
def outOf (h : Fin 100000 → Fin 64 → EReal) (Wc : Fin 64 → Fin 32 → EReal) (bc : Fin 32 → EReal)
    (i : Fin 100000) (j : Fin 32) : EReal :=
  mm h Wc i j + bc j

/-- A degree is a natural number. -/
theorem deg_eq_card (p : Fin 100000) :
    deg t p = (((Finset.univ.filter (fun e : Fin 1300000 => t e = p)).card : ℝ) : EReal) := by
  unfold deg
  rw [zero_add, Finset.sum_const, nsmul_one]
  exact EReal.coe_natCast.symm

/-- A normaliser is a real number. -/
theorem dinv_real (p : Fin 100000) : IsReal (dinv t p) := by
  unfold dinv
  rw [deg_eq_card]
  split_ifs with h
  · have hn : (0 : ℝ) < ((Finset.univ.filter (fun e : Fin 1300000 => t e = p)).card : ℝ) := EReal.coe_pos.mp h
    rw [Ideal.rsqrt_coe, if_neg (not_lt.mpr hn.le), if_neg hn.ne']
    exact ⟨_, rfl⟩
  · exact isReal_zero

/-- A product of real matrices is real. -/
theorem mm_real {C : Nat} (x : Fin 100000 → Fin 64 → EReal) (W : Fin 64 → Fin C → EReal)
    (hx : ∀ i k, IsReal (x i k)) (hW : ∀ k j, IsReal (W k j)) (i : Fin 100000) (j : Fin C) : IsReal (mm x W i j) := by
  unfold mm
  exact isReal_sum _ _ fun k => isReal_mul (hx i k) (hW k j)

/-- A hyperbolic tangent is real, whatever its argument. -/
theorem tanh_real (y : EReal) : IsReal (Ideal.tanh y) := by
  induction y using EReal.rec with
  | bot => exact ⟨-1, by rw [Ideal.tanh_bot]; rfl⟩
  | coe r => exact ⟨Real.tanh r, Ideal.tanh_coe r⟩
  | top => exact ⟨1, by rw [Ideal.tanh_top]; rfl⟩

theorem layerR_real (x : Fin 100000 → Fin 64 → EReal) (W : Fin 64 → Fin 64 → EReal) (b : Fin 64 → EReal)
    (i : Fin 100000) (j : Fin 64) : IsReal (layerR s t x W b i j) := tanh_real _

/-- THE LAW: with real rows, weights and normalisers the two arrangements of the scaling give one layer. -/
theorem layer_eq (x : Fin 100000 → Fin 64 → EReal) (W : Fin 64 → Fin 64 → EReal) (b : Fin 64 → EReal)
    (hx : ∀ i k, IsReal (x i k)) (hW : ∀ k j, IsReal (W k j)) :
    layerK s t x W b = layerR s t x W b := by
  funext i j
  exact congrArg (fun z => Ideal.tanh (z + b j))
    (scale_sum (Finset.univ.filter (fun e : Fin 1300000 => t e = i)) (fun e => mm x W (s e) j) (fun e => dinv t (s e))
      (dinv t i) (fun e => mm_real x W hx hW (s e) j) (fun e => dinv_real t (s e)) (dinv_real t i))

/-- Two layers: the arrangements agree, the first layer's output being real for the second. -/
theorem two_layers_eq (x : Fin 100000 → Fin 64 → EReal) (W1 W2 : Fin 64 → Fin 64 → EReal) (b1 b2 : Fin 64 → EReal)
    (hx : ∀ i k, IsReal (x i k)) (hW1 : ∀ k j, IsReal (W1 k j)) (hW2 : ∀ k j, IsReal (W2 k j)) :
    layerK s t (layerK s t x W1 b1) W2 b2 = layerR s t (layerR s t x W1 b1) W2 b2 := by
  rw [layer_eq s t x W1 b1 hx hW1]
  exact layer_eq s t _ W2 b2 (fun i k => layerR_real s t x W1 b1 i k) hW2

end Graph

/-! ## The three dense passes as functions of whole arrays, and the edge ends -/

/-- rows times a weight matrix, each row then scaled by its node's normaliser (kept as a column) -/
def linScale (x : (⟨2, ![100000, 64]⟩ : Shape).Idx → EReal) (W : (⟨2, ![64, 64]⟩ : Shape).Idx → EReal)
    (d : (⟨2, ![100000, 1]⟩ : Shape).Idx → EReal) : (⟨2, ![100000, 64]⟩ : Shape).Idx → EReal :=
  fun i => (∑ k : Fin 64, x (ix2 (i 0) k) * W (ix2 k (i 1))) * d (ix2 (i 0) (0 : Fin 1))

/-- the aggregated rows scaled by the node's normaliser, plus the bias row, through the hyperbolic tangent -/
def biasTanh (a : (⟨2, ![100000, 64]⟩ : Shape).Idx → EReal) (d : (⟨2, ![100000, 1]⟩ : Shape).Idx → EReal)
    (b : (⟨2, ![1, 64]⟩ : Shape).Idx → EReal) : (⟨2, ![100000, 64]⟩ : Shape).Idx → EReal :=
  fun i => Ideal.tanh (a i * d (ix2 (i 0) (0 : Fin 1)) + b (ix2 (0 : Fin 1) (i 1)))

/-- rows times the classifier's weights plus its bias row -/
def linBias (x : (⟨2, ![100000, 64]⟩ : Shape).Idx → EReal) (W : (⟨2, ![64, 32]⟩ : Shape).Idx → EReal)
    (b : (⟨2, ![1, 32]⟩ : Shape).Idx → EReal) : (⟨2, ![100000, 32]⟩ : Shape).Idx → EReal :=
  fun i => (∑ k : Fin 64, x (ix2 (i 0) k) * W (ix2 k (i 1))) + b (ix2 (0 : Fin 1) (i 1))

/-- the word that names edge e's end on row r of the edge array: the array's entry for the first 1200000 edges, and
    node e − 1200000 for the self loop that follows them -/
def endWord (E : (⟨2, ![2, 1200000]⟩ : Shape).Idx → BitVec 32) (r : Fin 2) (e : Fin 1300000) : BitVec 32 :=
  if h : e.val < 1200000 then E (ix2 r ⟨e.val, h⟩) else BitVec.ofNat 32 (e.val - 1200000)

/-- s and t name the edges' two ends as nodes -/
def EndsAre (E : (⟨2, ![2, 1200000]⟩ : Shape).Idx → BitVec 32) (s t : Fin 1300000 → Fin 100000) : Prop :=
  (∀ e, (endWord E 0 e).toInt = ((s e).val : Int)) ∧ (∀ e, (endWord E 1 e).toInt = ((t e).val : Int))

/-! ## Arrays as functions of coordinates, and back -/

/-- a matrix array read by row and column -/
def mat {A B : Nat} (v : (⟨2, ![A, B]⟩ : Shape).Idx → EReal) : Fin A → Fin B → EReal := fun a b => v (ix2 a b)

/-- a vector array read by position -/
def vec {A : Nat} (v : (⟨1, ![A]⟩ : Shape).Idx → EReal) : Fin A → EReal := fun a => v (ix1 a)

/-- a function of row and column as a matrix array -/
def arr2 {A B : Nat} (f : Fin A → Fin B → EReal) : (⟨2, ![A, B]⟩ : Shape).Idx → EReal := fun i => f (i 0) (i 1)

end Cert.Spec

end
-- ==== Proof.PreFacts.lean ====
/-
  What the precondition gives: every entry of the node features and of the two layers' weight matrices is a real number,
  and every entry of the edge array is a node number (read signed, it lies in [0, 100000)). From the second, the edges'
  ends (the array's two rows, each followed by the nodes in order for the self loops) are nodes.
-/
import proofs.«423935_j26499948216429_3_alg».proof.Proof.Gen.Pre_finite_inputs
import proofs.«423935_j26499948216429_3_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Idealize.ShloMosaic.ValueIdx Cert.Pre_finite_inputs

/-- a rank-0 array has one index -/
instance : Subsingleton S_.Idx := ⟨fun a b => funext fun d => d.elim0⟩

/-- the 32-bit pattern 0x7F800000 is +∞ -/
theorem inf_f32 : Ideal.ofBits .f32 0x7F800000#32 = (⊤ : EReal) := by simp [Ideal.ofBits, Ideal.ieee]

/-- An extended real whose absolute value is below +∞ is a real number: −∞ and +∞ both have absolute value +∞. -/
theorem isReal_of_abs_lt (x : EReal)
    (hx : FloatOps.cmpf (F := Ideal) (φ := .f32) .olt (FloatOps.absf (F := Ideal) (φ := .f32) x)
      (FloatOps.ofBits (F := Ideal) .f32 0x7F800000#32) = 1#1) : Cert.Spec.IsReal x := by
  rw [Ideal.ofBits_def, inf_f32, Ideal.cmpf_def, Ideal.absf_def] at hx
  simp only [Ideal.cmp, StableHlo.Predicate.ofBool_eq_one_iff, decide_eq_true_eq] at hx
  induction x using EReal.rec with
  | bot => simp at hx
  | coe r => exact ⟨r, rfl⟩
  | top => simp at hx

/-- One `all(|a| < +∞)` conjunct, read at an entry: where the reduction by "and" of the comparisons is 1, the entry is real. -/
theorem real_of_all {s : Shape} {axes : List (Fin s.rank)} (a : FVec Ideal s .f32) (hb : S_.BroadcastsInDim s (![] : Fin 0 → Fin s.rank))
    (hr : s.ReducesTo axes S_) (h0 : 0 < S_.numel)
    (e : Host.reduce IntOp.andi (cmpf .olt (Host.absf a) (broadcastInDim s ![] hb (constant (F := Ideal) S_ .f32 0x7F800000#32)))
      (constantI S_ 1 1#1) hr h0 ix0 = 1#1) (i : s.Idx) : Cert.Spec.IsReal (a i) :=
  isReal_of_abs_lt (a i) (Host.reduce_andi_all _ _ hr h0 ix0 e i)

/-- The range conjunct, read at an entry: the two signed comparisons against 0 and 100000 that are both 1. -/
theorem range_of_all {s : Shape} {axes : List (Fin s.rank)} (a : IVec s 32) (hb : S_.BroadcastsInDim s (![] : Fin 0 → Fin s.rank))
    (hr : s.ReducesTo axes S_) (h0 : 0 < S_.numel)
    (e : Host.reduce IntOp.andi
      (andi (cmpi .sge a (broadcastInDim s ![] hb (constantI S_ 32 0#32))) (cmpi .slt a (broadcastInDim s ![] hb (constantI S_ 32 100000#32))))
      (constantI S_ 1 1#1) hr h0 ix0 = 1#1) (i : s.Idx) : 0 ≤ (a i).toInt ∧ (a i).toInt < 100000 := by
  obtain ⟨h1, h2⟩ := IntOp.andi_eq_one.1 (Host.reduce_andi_all _ _ hr h0 ix0 e i)
  have g1 : (0#32 : BitVec 32).toInt ≤ (a i).toInt := IntOp.cmpi_sge.1 h1
  have g2 : (a i).toInt < (100000#32 : BitVec 32).toInt := IntOp.cmpi_slt.1 h2
  have c0 : (0#32 : BitVec 32).toInt = 0 := by decide
  have c1 : (100000#32 : BitVec 32).toInt = 100000 := by decide
  rw [c0] at g1
  rw [c1] at g2
  exact ⟨g1, g2⟩

/-- THE PRECONDITION, DECODED: where the printed predicate is all ones, the features and the two weight matrices are
    real-valued and the edge array's entries are node numbers. -/
theorem of_pre (a0 : FVec Ideal S100000x64 .f32) (a1 : IVec S2x1200000 32) (a2 : FVec Ideal S64x64 .f32)
    (a3 : FVec Ideal S64 .f32) (a4 : FVec Ideal S64x64 .f32) (a5 : FVec Ideal S64 .f32) (a6 : FVec Ideal S64x32 .f32)
    (a7 : FVec Ideal S32 .f32)
    (h : Cert.Pre_finite_inputs.fn (F := Ideal) a0 a1 a2 a3 a4 a5 a6 a7 = fun _ => 1#1) :
    (∀ i, Cert.Spec.IsReal (a0 i)) ∧ (∀ i, Cert.Spec.IsReal (a2 i)) ∧ (∀ i, Cert.Spec.IsReal (a4 i))
      ∧ (∀ i, 0 ≤ (a1 i).toInt ∧ (a1 i).toInt < 100000) := by
  have e := congrFun h ix0
  dsimp only [Cert.Pre_finite_inputs.fn, Cert.Pre_finite_inputs.fn_part1, Cert.Pre_finite_inputs.fn_part2] at e
  obtain ⟨e, h1⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, h4⟩ := IntOp.andi_eq_one.1 e
  obtain ⟨e, -⟩ := IntOp.andi_eq_one.1 e
  obtain ⟨h0, h2⟩ := IntOp.andi_eq_one.1 e
  exact ⟨real_of_all a0 _ _ _ h0, real_of_all a2 _ _ _ h2, real_of_all a4 _ _ _ h4, range_of_all a1 _ _ _ h1⟩

/-- With every entry of the edge array a node number, the edges' two ends are nodes. -/
theorem ends_of_range (E : (⟨2, ![2, 1200000]⟩ : Shape).Idx → BitVec 32)
    (hE : ∀ i, 0 ≤ (E i).toInt ∧ (E i).toInt < 100000) :
    ∃ s t : Fin 1300000 → Fin 100000, Cert.Spec.EndsAre E s t := by
  have key : ∀ (r : Fin 2) (e : Fin 1300000),
      0 ≤ (Cert.Spec.endWord E r e).toInt ∧ (Cert.Spec.endWord E r e).toInt < 100000 := by
    intro r e
    have he := e.isLt
    unfold Cert.Spec.endWord
    split_ifs with hlt
    · exact hE _
    · rw [StableHlo.Predicate.toInt_ofNat_small _ (by omega)]
      omega
  refine ⟨fun e => ⟨(Cert.Spec.endWord E 0 e).toInt.toNat, ?_⟩, fun e => ⟨(Cert.Spec.endWord E 1 e).toInt.toNat, ?_⟩, ?_, ?_⟩
  · have := key 0 e; omega
  · have := key 1 e; omega
  · intro e; exact (Int.toNat_of_nonneg (key 0 e).1).symm
  · intro e; exact (Int.toNat_of_nonneg (key 1 e).1).symm

end Cert.PreFacts

end
-- ==== Proof.KTerms.lean ====
/-
  The kernel program's host operations between its regions, as functions: the edges' ends, the wrap of a negative
  index, the degree count and the normalisers (for any reading of the floats), the row gather that fills rows with an undefined value where the index is
  out of range, and the scatter that adds the gathered rows at their destinations.
-/
import proofs.«423935_j26499948216429_3_alg».proof.Proof.Gen.KernelIdeal
import Idealize.ShloMosaic.Lib.StableHlo
import Idealize.ShloMosaic.PureOps.Ideal
import Idealize.ShloMosaic.PureOps.Ideal.Laws

noncomputable section

namespace Cert.KernelIdeal.KT

open Idealize.ShloMosaic Cert.KernelIdeal Cert.KernelIdeal.Gen

variable {F : FTy → Type} [FloatOps F]

/-- the edges' ends on row r of the edge array (r = 0: sources, r = 1: destinations), the nodes appended for the self loops -/
def ends0 (E : IVec S2x1200000 32) : IVec S1300000 32 :=
  concatenate S1300000 0 [⟨S1200000, (shapeCast _ (extractStridedSlice S1x1200000 ![0, 0] E slices_S2x1200000_S1x1200000_0_0) shapeCasts_S1x1200000_S1200000)⟩, ⟨S100000, (iotaInDim S100000 32 0)⟩] concatenates_S1200000_S100000_S1300000_d0
def ends1 (E : IVec S2x1200000 32) : IVec S1300000 32 :=
  concatenate S1300000 0 [⟨S1200000, (shapeCast _ (extractStridedSlice S1x1200000 ![1, 0] E slices_S2x1200000_S1x1200000_1_0) shapeCasts_S1x1200000_S1200000)⟩, ⟨S100000, (iotaInDim S100000 32 0)⟩] concatenates_S1200000_S100000_S1300000_d0

/-- a negative index counts from the end: add the number of nodes to it -/
def wrap (v : IVec S1300000 32) : IVec S1300000 32 :=
  select (cmpi .slt v (broadcastInDim S1300000 ![] bcast_S_S1300000 (constantI S_ 32 0#32)))
    (addi v (broadcastInDim S1300000 ![] bcast_S_S1300000 (constantI S_ 32 100000#32))) v

/-- an index vector as a column of one-component index vectors -/
def col (v : IVec S1300000 32) : IVec S1300000x1 32 := broadcastInDim S1300000x1 ![0] bcast_S1300000_S1300000x1_0 v

/-- the degrees: a one added at every edge's destination -/
def deg (dst : IVec S1300000 32) : FVec F S100000 .f32 :=
  Host.scatterAdd scatter_S100000_S1300000x1_S1300000_n_0_0_1 (broadcastInDim S100000 ![] bcast_S_S100000 (constant S_ .f32 0x00000000#32))
    (col (wrap dst)) (broadcastInDim S1300000 ![] bcast_S_S1300000 (constant S_ .f32 0x3F800000#32))

/-- the normalisers: one over the square root of the degree where it is positive, zero elsewhere -/
def dinv (dst : IVec S1300000 32) : FVec F S100000 .f32 :=
  select (cmpf (F := F) .ogt (deg dst) (broadcastInDim S100000 ![] bcast_S_S100000 (constant S_ .f32 0x00000000#32)))
    (Host.rsqrt (deg dst)) (broadcastInDim S100000 ![] bcast_S_S100000 (id (constant S_ .f32 0x00000000#32)))

/-- the normalisers as a column -/
def dinv2 (dst : IVec S1300000 32) : FVec F S100000x1 .f32 := shapeCast _ (dinv dst) shapeCasts_S100000_S100000x1

/-- the rows of hs at the edges' sources; a row whose index is outside [0, 99999] after the wrap is filled with the
    undefined value -/
def take (hs : FVec F S100000x64 .f32) (src : IVec S1300000 32) : FVec F S1300000x64 .f32 :=
  select
    (broadcastInDim S1300000x64 ![0] bcast_S1300000_S1300000x64_0
      (Host.reduce IntOp.andi
        (andi (cmpi .sge (col (wrap src)) (broadcastInDim S1300000x1 ![] bcast_S_S1300000x1 (constantI S_ 32 0#32)))
          (cmpi .sle (col (wrap src)) (broadcastInDim S1300000x1 ![0, 1] bcast_S1x1_S1300000x1_0_1 (broadcastInDim S1x1 ![1] bcast_S1_S1x1_1 (constantI S1 32 99999#32)))))
        (constantI S_ 1 1#1) reducesTo_S1300000x1_S1300000_d1 h_S_))
    (Host.gather gather_S100000x64_S1300000x1_S1300000x64_1_0_n_n_0_1_164 hs (col (wrap src)))
    (broadcastInDim S1300000x64 ![] bcast_S_S1300000x64 (constant S_ .f32 0x7FC00000#32))

/-- the gathered rows added at the edges' destinations, from zero -/
def agg (hs : FVec F S100000x64 .f32) (src dst : IVec S1300000 32) : FVec F S100000x64 .f32 :=
  Host.scatterAdd scatter_S100000x64_S1300000x1_S1300000x64_1_0_0_1 (broadcastInDim S100000x64 ![] bcast_S_S100000x64 (constant S_ .f32 0x00000000#32))
    (col (wrap dst)) (take hs src)

/-- a bias vector as a one-row matrix -/
def row64 (b : FVec F S64 .f32) : FVec F S1x64 .f32 := shapeCast _ b shapeCasts_S64_S1x64
def row32 (b : FVec F S32 .f32) : FVec F S1x32 .f32 := shapeCast _ b shapeCasts_S32_S1x32

end Cert.KernelIdeal.KT

end
-- ==== Proof.KFoldA.lean ====
/-
  What the buffers of one core hold from the launch up to the end of the first region. Before the first region the host
  part computes, from the edge array E alone, the two vectors of edge ends (sources and destinations, the self loops
  appended) and the column of normalisers 1/√degree; the node features, the weights and the biases are still the
  launch's. The first region then writes its one output array (the scaled product, as the region's proof data name
  it) and leaves every other buffer, its own three input arrays included, as it found it.
-/
import proofs.«423935_j26499948216429_3_alg».proof.Proof.Gen.KernelIdeal.Frame
import proofs.«423935_j26499948216429_3_alg».proof.Proof.KTerms
import Idealize.ShloMosaic.Lib.StableHlo.Run

set_option maxRecDepth 16384

noncomputable section

namespace Cert.KernelIdeal.KFoldA

open Idealize.ShloMosaic Idealize.ShloMosaic.TcCoe Idealize.ShloMosaic.StableHlo Idealize.ShloMosaic.Pipeline
open Cert.KernelIdeal Cert.KernelIdeal.Gen

variable {F : FTy → Type} [FloatOps F]
variable (m : (ℓ : Loc nD τ sig) → Buf (Elt F) ℓ) (ρ : Dev nD → PrngReg)

/-! ## At the first region's entry -/

/-- The column of normalisers, computed on the host from the destinations of the edges. -/
theorem w3_v20 (c : Dev nD) : W3 (F := F) m ρ c (Proc.devRef .tc main_v20) = KT.dinv2 (KT.ends1 (m ((c.tc : Thread nD τ).loc main_arg1))) := by
  generalize hR : KT.dinv2 (F := F) (KT.ends1 (m ((c.tc : Thread nD τ).loc main_arg1))) = R
  unfold W3 W2 W1
  after_results_simp
  subst hR
  rfl

/-- The node features are the launch's: no host operation writes them. -/
theorem w3_arg0 (c : Dev nD) : W3 (F := F) m ρ c (Proc.devRef .tc main_arg0) = m ((c.tc : Thread nD τ).loc main_arg0) := by
  generalize hR : m ((c.tc : Thread nD τ).loc main_arg0) = R
  unfold W3 W2 W1
  after_results_simp
  subst hR
  rfl

/-- The first weight matrix is the launch's. -/
theorem w3_arg2 (c : Dev nD) : W3 (F := F) m ρ c (Proc.devRef .tc main_arg2) = m ((c.tc : Thread nD τ).loc main_arg2) := by
  generalize hR : m ((c.tc : Thread nD τ).loc main_arg2) = R
  unfold W3 W2 W1
  after_results_simp
  subst hR
  rfl

/-! ## At the first region's exit -/

/-- The region's output array is what its proof data say the write-backs of all grid points leave. -/
theorem w4_v21 (c : Dev nD) : W4 (F := F) m ρ c (Proc.devRef .tc main_v21) = (dat0 (V3 m ρ) c).arrAt 3 cfg0.N :=
  W4_arr m ρ c 3

/-- The column of normalisers is one of the region's input arrays: read, never written back, so still the host's. -/
theorem w4_v20 (c : Dev nD) : W4 (F := F) m ρ c (Proc.devRef .tc main_v20) = KT.dinv2 (KT.ends1 (m ((c.tc : Thread nD τ).loc main_arg1))) :=
  ((W4_arr m ρ c 2).trans (((dat0 (V3 m ρ) c).arrAt_in 2 rfl _).trans (A_eq0 (V3 m ρ) c 2))).trans (w3_v20 m ρ c)

/-- The edges' sources (self loops appended) are not among the region's arrays: as the host left them. -/
theorem w4_v3 (c : Dev nD) : W4 (F := F) m ρ c (Proc.devRef .tc main_v3) = KT.ends0 (m ((c.tc : Thread nD τ).loc main_arg1)) := by
  refine (W4_of_ne m ρ c main_v3 (by decide)).trans ?_
  generalize hR : KT.ends0 (m ((c.tc : Thread nD τ).loc main_arg1)) = R
  unfold W3 W2 W1
  after_results_simp
  subst hR
  rfl

/-- The edges' destinations (self loops appended), likewise. -/
theorem w4_v6 (c : Dev nD) : W4 (F := F) m ρ c (Proc.devRef .tc main_v6) = KT.ends1 (m ((c.tc : Thread nD τ).loc main_arg1)) := by
  refine (W4_of_ne m ρ c main_v6 (by decide)).trans ?_
  generalize hR : KT.ends1 (m ((c.tc : Thread nD τ).loc main_arg1)) = R
  unfold W3 W2 W1
  after_results_simp
  subst hR
  rfl

/-- The first bias vector is still the launch's at the first region's exit: neither the host part nor the region writes it. -/
theorem w4_arg3 (c : Dev nD) : W4 (F := F) m ρ c (Proc.devRef .tc main_arg3) = m ((c.tc : Thread nD τ).loc main_arg3) := by
  refine (W4_of_ne m ρ c main_arg3 (by decide)).trans ?_
  generalize hR : m ((c.tc : Thread nD τ).loc main_arg3) = R
  unfold W3 W2 W1
  after_results_simp
  subst hR
  rfl

/-- The second weight matrix is still the launch's at the first region's exit: neither the host part nor the region writes it. -/
theorem w4_arg4 (c : Dev nD) : W4 (F := F) m ρ c (Proc.devRef .tc main_arg4) = m ((c.tc : Thread nD τ).loc main_arg4) := by
  refine (W4_of_ne m ρ c main_arg4 (by decide)).trans ?_
  generalize hR : m ((c.tc : Thread nD τ).loc main_arg4) = R
  unfold W3 W2 W1
  after_results_simp
  subst hR
  rfl

/-- The second bias vector is still the launch's at the first region's exit: neither the host part nor the region writes it. -/
theorem w4_arg5 (c : Dev nD) : W4 (F := F) m ρ c (Proc.devRef .tc main_arg5) = m ((c.tc : Thread nD τ).loc main_arg5) := by
  refine (W4_of_ne m ρ c main_arg5 (by decide)).trans ?_
  generalize hR : m ((c.tc : Thread nD τ).loc main_arg5) = R
  unfold W3 W2 W1
  after_results_simp
  subst hR
  rfl

/-- The classifier's weight matrix is still the launch's at the first region's exit: neither the host part nor the region writes it. -/
theorem w4_arg6 (c : Dev nD) : W4 (F := F) m ρ c (Proc.devRef .tc main_arg6) = m ((c.tc : Thread nD τ).loc main_arg6) := by
  refine (W4_of_ne m ρ c main_arg6 (by decide)).trans ?_
  generalize hR : m ((c.tc : Thread nD τ).loc main_arg6) = R
  unfold W3 W2 W1
  after_results_simp
  subst hR
  rfl

/-- The classifier's bias vector is still the launch's at the first region's exit: neither the host part nor the region writes it. -/
theorem w4_arg7 (c : Dev nD) : W4 (F := F) m ρ c (Proc.devRef .tc main_arg7) = m ((c.tc : Thread nD τ).loc main_arg7) := by
  refine (W4_of_ne m ρ c main_arg7 (by decide)).trans ?_
  generalize hR : m ((c.tc : Thread nD τ).loc main_arg7) = R
  unfold W3 W2 W1
  after_results_simp
  subst hR
  rfl

end Cert.KernelIdeal.KFoldA

end
-- ==== Proof.KFoldB.lean ====
/-
  Between the first dense pass and the second: what each array holds when the first pass ends, when the first
  aggregation has run, and when the tanh pass and the second dense pass end, each stated relative to the stage before.
  The aggregation gathers the scaled rows at the edges' sources and adds them at the edges' destinations; the first
  bias becomes a one-row matrix; the normalisers' column, the edges' ends and the later stages' weights and biases pass
  through every stage unchanged; each pass leaves in its output array what its pipeline's write-backs fold to.
-/
import proofs.«423935_j26499948216429_3_alg».proof.Proof.Gen.KernelIdeal.Frame
import proofs.«423935_j26499948216429_3_alg».proof.Proof.KTerms
import Idealize.ShloMosaic.Lib.StableHlo.Run

set_option maxRecDepth 16384

noncomputable section

namespace Cert.KernelIdeal.KFoldB

open Idealize.ShloMosaic Idealize.ShloMosaic.TcCoe Idealize.ShloMosaic.StableHlo Idealize.ShloMosaic.Pipeline
open Cert.KernelIdeal Cert.KernelIdeal.Gen

variable {F : FTy → Type} [FloatOps F]
variable (m : (ℓ : Loc nD τ sig) → Buf (Elt F) ℓ) (ρ : Dev nD → PrngReg)

/-! ## Contents carried at a value's type

The gather's host operations are written over buffers that carry the type of the value they hold; contents move to the
buffer's own type and back along an equation of types. -/

/-- Contents moved to the buffer's own type and back are the contents. -/
theorem ofBuf_toBuf {Val : EltTy → Type} {T : BufTy} (x : TRef sig T) (v : T.Contents Val) : x.ofBuf (x.toBuf v) = v := by
  obtain ⟨r, h1, h2, h3⟩ := x
  subst h1
  rfl

/-- The gathered rows' buffer has the type of the gathered rows: moving contents to it changes nothing. -/
theorem toBuf_v22 {Val : EltTy → Type} (h1 h2 h3) (v : (⟨S1300000x64, .f32⟩ : BufTy).Contents Val) :
    (TRef.of main_v22 h1 h2 h3 : TRef sig ⟨S1300000x64, .f32⟩).toBuf v = v := rfl

/-! ## From the first dense pass's end to the tanh pass's entry: the first aggregation -/

/-- The aggregated rows: the first pass's scaled rows gathered at the edges' sources and added, from zero, at the
    edges' destinations. -/
theorem w6_v30 (c : Dev nD) : W6 m ρ c (Proc.devRef .tc main_v30) = KT.agg (W4 m ρ c (Proc.devRef .tc main_v21)) (W4 m ρ c (Proc.devRef .tc main_v3)) (W4 m ρ c (Proc.devRef .tc main_v6)) := by
  unfold W6 W5
  generalize W4 m ρ c = G
  generalize hR : KT.agg (F := F) (G (Proc.devRef .tc main_v21)) (G (Proc.devRef .tc main_v3)) (G (Proc.devRef .tc main_v6)) = R
  after_results_simp
  simp only [ofBuf_toBuf, toBuf_v22]
  subst hR
  rfl

/-- The first bias as a one-row matrix. -/
theorem w6_v31 (c : Dev nD) : W6 m ρ c (Proc.devRef .tc main_v31) = KT.row64 (W4 m ρ c (Proc.devRef .tc main_arg3)) := by
  unfold W6 W5
  generalize W4 m ρ c = G
  generalize hR : KT.row64 (F := F) (G (Proc.devRef .tc main_arg3)) = R
  after_results_simp
  subst hR
  rfl

/-- The aggregation leaves the normalisers' column as it was. -/
theorem w6_v20 (c : Dev nD) : W6 m ρ c (Proc.devRef .tc main_v20) = W4 m ρ c (Proc.devRef .tc main_v20) := by
  unfold W6 W5
  generalize W4 m ρ c = G
  after_results_simp

/-- The aggregation reads the edges' sources and leaves them as they were. -/
theorem w6_v3 (c : Dev nD) : W6 m ρ c (Proc.devRef .tc main_v3) = W4 m ρ c (Proc.devRef .tc main_v3) := by
  unfold W6 W5
  generalize W4 m ρ c = G
  after_results_simp

/-- The aggregation reads the edges' destinations and leaves them as they were. -/
theorem w6_v6 (c : Dev nD) : W6 m ρ c (Proc.devRef .tc main_v6) = W4 m ρ c (Proc.devRef .tc main_v6) := by
  unfold W6 W5
  generalize W4 m ρ c = G
  after_results_simp

/-- The second layer's weights are not touched. -/
theorem w6_arg4 (c : Dev nD) : W6 m ρ c (Proc.devRef .tc main_arg4) = W4 m ρ c (Proc.devRef .tc main_arg4) := by
  unfold W6 W5
  generalize W4 m ρ c = G
  after_results_simp

/-- The second layer's bias is not touched. -/
theorem w6_arg5 (c : Dev nD) : W6 m ρ c (Proc.devRef .tc main_arg5) = W4 m ρ c (Proc.devRef .tc main_arg5) := by
  unfold W6 W5
  generalize W4 m ρ c = G
  after_results_simp

/-- The classifier's weights are not touched. -/
theorem w6_arg6 (c : Dev nD) : W6 m ρ c (Proc.devRef .tc main_arg6) = W4 m ρ c (Proc.devRef .tc main_arg6) := by
  unfold W6 W5
  generalize W4 m ρ c = G
  after_results_simp

/-- The classifier's bias is not touched. -/
theorem w6_arg7 (c : Dev nD) : W6 m ρ c (Proc.devRef .tc main_arg7) = W4 m ρ c (Proc.devRef .tc main_arg7) := by
  unfold W6 W5
  generalize W4 m ρ c = G
  after_results_simp

/-! ## Across the tanh pass -/

/-- The tanh pass's output array holds what its pipeline's write-backs fold to, from the contents the pass is entered at. -/
theorem w7_v32 (c : Dev nD) : W7 m ρ c (Proc.devRef .tc main_v32) = (dat1 (V6 m ρ) c).arrAt 3 cfg1.N :=
  W7_arr m ρ c 3

/-- The normalisers' column is an input of the tanh pass: read, never written. -/
theorem w7_v20 (c : Dev nD) : W7 m ρ c (Proc.devRef .tc main_v20) = W6 m ρ c (Proc.devRef .tc main_v20) :=
  (W7_arr m ρ c 1).trans (((dat1 (V6 m ρ) c).arrAt_in 1 rfl _).trans (A_eq1 (V6 m ρ) c 1))

/-- The edges' sources are none of the tanh pass's arrays. -/
theorem w7_v3 (c : Dev nD) : W7 m ρ c (Proc.devRef .tc main_v3) = W6 m ρ c (Proc.devRef .tc main_v3) :=
  W7_of_ne m ρ c main_v3 (by decide)

/-- The edges' destinations are none of the tanh pass's arrays. -/
theorem w7_v6 (c : Dev nD) : W7 m ρ c (Proc.devRef .tc main_v6) = W6 m ρ c (Proc.devRef .tc main_v6) :=
  W7_of_ne m ρ c main_v6 (by decide)

/-- The second layer's weights are none of the tanh pass's arrays. -/
theorem w7_arg4 (c : Dev nD) : W7 m ρ c (Proc.devRef .tc main_arg4) = W6 m ρ c (Proc.devRef .tc main_arg4) :=
  W7_of_ne m ρ c main_arg4 (by decide)

/-- The second layer's bias is none of the tanh pass's arrays. -/
theorem w7_arg5 (c : Dev nD) : W7 m ρ c (Proc.devRef .tc main_arg5) = W6 m ρ c (Proc.devRef .tc main_arg5) :=
  W7_of_ne m ρ c main_arg5 (by decide)

/-- The classifier's weights are none of the tanh pass's arrays. -/
theorem w7_arg6 (c : Dev nD) : W7 m ρ c (Proc.devRef .tc main_arg6) = W6 m ρ c (Proc.devRef .tc main_arg6) :=
  W7_of_ne m ρ c main_arg6 (by decide)

/-- The classifier's bias is none of the tanh pass's arrays. -/
theorem w7_arg7 (c : Dev nD) : W7 m ρ c (Proc.devRef .tc main_arg7) = W6 m ρ c (Proc.devRef .tc main_arg7) :=
  W7_of_ne m ρ c main_arg7 (by decide)

/-! ## Across the second dense pass -/

/-- The second dense pass's output array holds what its pipeline's write-backs fold to, from the contents the pass is entered at. -/
theorem w8_v33 (c : Dev nD) : W8 m ρ c (Proc.devRef .tc main_v33) = (dat2 (V7 m ρ) c).arrAt 3 cfg2.N :=
  W8_arr m ρ c 3

/-- The normalisers' column is an input of the second dense pass: read, never written. -/
theorem w8_v20 (c : Dev nD) : W8 m ρ c (Proc.devRef .tc main_v20) = W7 m ρ c (Proc.devRef .tc main_v20) :=
  (W8_arr m ρ c 2).trans (((dat2 (V7 m ρ) c).arrAt_in 2 rfl _).trans (A_eq2 (V7 m ρ) c 2))

/-- The edges' sources are none of the second dense pass's arrays. -/
theorem w8_v3 (c : Dev nD) : W8 m ρ c (Proc.devRef .tc main_v3) = W7 m ρ c (Proc.devRef .tc main_v3) :=
  W8_of_ne m ρ c main_v3 (by decide)

/-- The edges' destinations are none of the second dense pass's arrays. -/
theorem w8_v6 (c : Dev nD) : W8 m ρ c (Proc.devRef .tc main_v6) = W7 m ρ c (Proc.devRef .tc main_v6) :=
  W8_of_ne m ρ c main_v6 (by decide)

/-- The second layer's bias is none of the second dense pass's arrays. -/
theorem w8_arg5 (c : Dev nD) : W8 m ρ c (Proc.devRef .tc main_arg5) = W7 m ρ c (Proc.devRef .tc main_arg5) :=
  W8_of_ne m ρ c main_arg5 (by decide)

/-- The classifier's weights are none of the second dense pass's arrays. -/
theorem w8_arg6 (c : Dev nD) : W8 m ρ c (Proc.devRef .tc main_arg6) = W7 m ρ c (Proc.devRef .tc main_arg6) :=
  W8_of_ne m ρ c main_arg6 (by decide)

/-- The classifier's bias is none of the second dense pass's arrays. -/
theorem w8_arg7 (c : Dev nD) : W8 m ρ c (Proc.devRef .tc main_arg7) = W7 m ρ c (Proc.devRef .tc main_arg7) :=
  W8_of_ne m ρ c main_arg7 (by decide)

end Cert.KernelIdeal.KFoldB

end
-- ==== Proof.KFoldC.lean ====
/-
  What the kernel program's arrays hold from the exit of its third dense pass to its end, each stage relative to the one
  before. Between the third and the fourth pass the host takes the rows of the third pass's output at the edges' first
  ends and adds them at the second ends (the aggregated rows), and lays the second bias out as a one-row matrix; the
  normalisers and the classifier's weights and bias are untouched. The fourth pass writes its output array and leaves
  the rest; the host lays the classifier's bias out as a one-row matrix; the fifth pass writes the result and leaves its
  input rows as they were.
-/
import proofs.«423935_j26499948216429_3_alg».proof.Proof.Gen.KernelIdeal.Frame
import proofs.«423935_j26499948216429_3_alg».proof.Proof.KTerms
import Idealize.ShloMosaic.Lib.StableHlo.Run

set_option maxRecDepth 16384

noncomputable section

namespace Cert.KernelIdeal.KFoldC

open Idealize.ShloMosaic Idealize.ShloMosaic.TcCoe Idealize.ShloMosaic.StableHlo Idealize.ShloMosaic.Pipeline
open Cert.KernelIdeal Cert.KernelIdeal.Gen

variable {F : FTy → Type} [FloatOps F]
variable (m : (ℓ : Loc nD τ sig) → Buf (Elt F) ℓ) (ρ : Dev nD → PrngReg)

/-! ## From the third pass's exit to the fourth pass's entry -/

/-- a value laid out at a typed reference and read back is itself -/
theorem ofBuf_toBuf {Val : EltTy → Type} {T : BufTy} (x : TRef sig T) (v : T.Contents Val) : x.ofBuf (x.toBuf v) = v := by
  obtain ⟨r, h1, h2, h3⟩ := x
  subst h1
  rfl

/-- the gathered rows' array is its own type's contents -/
theorem toBuf_v34 {Val : EltTy → Type} (h1 h2 h3) (v : (⟨S1300000x64, .f32⟩ : BufTy).Contents Val) :
    (TRef.of main_v34 h1 h2 h3 : TRef sig ⟨S1300000x64, .f32⟩).toBuf v = v := rfl

/-- the aggregated rows: the third pass's output taken at the first ends and added at the second ends -/
theorem w10_v42 (c : Dev nD) :
    W10 (F := F) m ρ c (Proc.devRef .tc main_v42) = KT.agg (W8 m ρ c (Proc.devRef .tc main_v33)) (W8 m ρ c (Proc.devRef .tc main_v3)) (W8 m ρ c (Proc.devRef .tc main_v6)) := by
  unfold W10 W9
  generalize W8 m ρ c = G
  generalize hR : KT.agg (F := F) (G (Proc.devRef .tc main_v33)) (G (Proc.devRef .tc main_v3)) (G (Proc.devRef .tc main_v6)) = R
  after_results_simp
  simp only [ofBuf_toBuf, toBuf_v34]
  subst hR
  rfl

/-- the second bias as a one-row matrix -/
theorem w10_v43 (c : Dev nD) :
    W10 (F := F) m ρ c (Proc.devRef .tc main_v43) = KT.row64 (W8 m ρ c (Proc.devRef .tc main_arg5)) := by
  generalize hR : KT.row64 (F := F) (W8 m ρ c (Proc.devRef .tc main_arg5)) = R
  unfold W10 W9
  after_results_simp
  subst hR
  rfl

/-- the normalisers are untouched -/
theorem w10_v20 (c : Dev nD) :
    W10 (F := F) m ρ c (Proc.devRef .tc main_v20) = W8 m ρ c (Proc.devRef .tc main_v20) := by
  generalize hR : W8 m ρ c (Proc.devRef .tc main_v20) = R
  unfold W10 W9
  after_results_simp
  subst hR
  rfl

/-- the classifier's weights are untouched -/
theorem w10_arg6 (c : Dev nD) :
    W10 (F := F) m ρ c (Proc.devRef .tc main_arg6) = W8 m ρ c (Proc.devRef .tc main_arg6) := by
  generalize hR : W8 m ρ c (Proc.devRef .tc main_arg6) = R
  unfold W10 W9
  after_results_simp
  subst hR
  rfl

/-- the classifier's bias is untouched -/
theorem w10_arg7 (c : Dev nD) :
    W10 (F := F) m ρ c (Proc.devRef .tc main_arg7) = W8 m ρ c (Proc.devRef .tc main_arg7) := by
  generalize hR : W8 m ρ c (Proc.devRef .tc main_arg7) = R
  unfold W10 W9
  after_results_simp
  subst hR
  rfl

/-! ## The fourth pass -/

/-- the fourth pass's output array holds what its pipeline leaves -/
theorem w11_v44 (c : Dev nD) :
    W11 (F := F) m ρ c (Proc.devRef .tc main_v44) = (dat3 (V10 m ρ) c).arrAt 3 cfg3.N :=
  W11_arr m ρ c 3

/-- the fourth pass does not touch the classifier's weights -/
theorem w11_arg6 (c : Dev nD) :
    W11 (F := F) m ρ c (Proc.devRef .tc main_arg6) = W10 m ρ c (Proc.devRef .tc main_arg6) :=
  W11_of_ne m ρ c main_arg6 (by decide)

/-- the fourth pass does not touch the classifier's bias -/
theorem w11_arg7 (c : Dev nD) :
    W11 (F := F) m ρ c (Proc.devRef .tc main_arg7) = W10 m ρ c (Proc.devRef .tc main_arg7) :=
  W11_of_ne m ρ c main_arg7 (by decide)

/-! ## From the fourth pass's exit to the fifth pass's entry -/

/-- the classifier's bias as a one-row matrix -/
theorem w12_v45 (c : Dev nD) :
    W12 (F := F) m ρ c (Proc.devRef .tc main_v45) = KT.row32 (W11 m ρ c (Proc.devRef .tc main_arg7)) := by
  generalize hR : KT.row32 (F := F) (W11 m ρ c (Proc.devRef .tc main_arg7)) = R
  unfold W12
  after_results_simp
  subst hR
  rfl

/-- the fourth pass's output is untouched -/
theorem w12_v44 (c : Dev nD) :
    W12 (F := F) m ρ c (Proc.devRef .tc main_v44) = W11 m ρ c (Proc.devRef .tc main_v44) := by
  generalize hR : W11 m ρ c (Proc.devRef .tc main_v44) = R
  unfold W12
  after_results_simp
  subst hR
  rfl

/-- the classifier's weights are untouched -/
theorem w12_arg6 (c : Dev nD) :
    W12 (F := F) m ρ c (Proc.devRef .tc main_arg6) = W11 m ρ c (Proc.devRef .tc main_arg6) := by
  generalize hR : W11 m ρ c (Proc.devRef .tc main_arg6) = R
  unfold W12
  after_results_simp
  subst hR
  rfl

/-! ## The fifth pass -/

/-- the fifth pass's output array holds what its pipeline leaves -/
theorem w13_v46 (c : Dev nD) :
    W13 (F := F) m ρ c (Proc.devRef .tc main_v46) = (dat4 (V12 m ρ) c).arrAt 3 cfg4.N :=
  W13_arr m ρ c 3

/-- the fifth pass leaves its input rows as they were -/
theorem w13_v44 (c : Dev nD) :
    W13 (F := F) m ρ c (Proc.devRef .tc main_v44) = W12 m ρ c (Proc.devRef .tc main_v44) :=
  (W13_arr m ρ c 0).trans (((dat4 (V12 m ρ) c).arrAt_in 0 rfl _).trans (A_eq4 (V12 m ρ) c 0))

end Cert.KernelIdeal.KFoldC

end
-- ==== Proof.Region0.lean ====
/-
  Region 0 of the program (node rows times the first weight matrix, each row scaled by its node's normaliser): what its output array holds when the region ends, as one function of the three
  arrays the region reads, whatever those arrays hold when the region is entered.
-/
import proofs.«423935_j26499948216429_3_alg».proof.Proof.Gen.KernelIdeal.Frame
import proofs.«423935_j26499948216429_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.ShloMosaic.Pipeline
open Cert.KernelIdeal Cert.KernelIdeal.Gen

variable (V : (c : Dev nD) → (b : Ref sig .tc) → Buf (Elt Ideal) ((c : Thread nD τ).loc b))

/-! ## The pieces of the argument

The region's body computes, on one block of 10000 rows, the rows times the 64 by 64 weight matrix and scales row p by the
p-th entry of the normaliser's block. Below: that payload read at one entry (a sum over the contracted axis times one
scalar); where each window's block sits in its array; what one grid point writes back; and that the ten blocks of rows
tile the 100000 rows, so that the output array is the same formula read at every entry. -/

/-- The zero offsets of a whole-block access, as the constant function. -/
theorem hz : (![0, 0] : Fin 2 → Nat) = fun _ => 0 := funext fun a => by
  match a with
  | ⟨0, _⟩ => rfl
  | ⟨1, _⟩ => rfl

/-! ### The contraction: which entries of the two operands meet at output entry (p, q) and contraction index k

The left operand is read at (p, k) and the right one at (k, q): the output's row is the left operand's free axis, the
output's column the right operand's free axis, and the one contracted axis is axis 1 on the left and axis 0 on the right. -/

/-- The left operand's row is the output's row. -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column is the contraction index. -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row is the contraction index. -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- The right operand's column is the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The matrix product into a zero accumulator, at entry (p, q) over the extended reals: the sum over k of a(p, k) · b(k, q).
    The sum over the one-axis contraction index set is re-indexed by its single coordinate. -/
theorem matmul_at (a : FVec Ideal S10000x64 .bf16) (b : FVec Ideal S64x64 .bf16) (p : Fin 10000) (q : Fin 64) :
    matmul (F := Ideal) dot_S10000x64_S64x64_S10000x64_1_0_0_1_n_n none a b (constant (F := Ideal) S10000x64 .f32 0x00000000#32) (ix2 p q)
      = ∑ k : Fin 64, a (ix2 p k) * b (ix2 k q) := by
  refine (Ideal.matmul_constant_zero_apply dot_S10000x64_S64x64_S10000x64_1_0_0_1_n_n none a b (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- A one-column array [a, 1] broadcast along its unit axis to [a, b] reads, at (p, c), the column's entry of row p
    (also when a = 1, where the row coordinate can only be 0). -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE BODY'S RESULT AT ONE ENTRY: at (p, q) of the block it is (∑ₖ x(p, k) · w(k, q)) · d(p, 0). Over the extended reals the
    two narrowings of the operands change nothing, the product accumulates from zero, the cast of the normaliser's block to its
    own shape is the identity, and its one column is repeated along the 64 columns. -/
theorem pay_apply (x0 : Vec Ideal S10000x64 .f32) (x1 : Vec Ideal S64x64 .f32) (x2 : Vec Ideal S10000x1 .f32) (p : Fin 10000) (q : Fin 64) :
    k0_pay1 x0 x1 x2 (ix2 p q) = (∑ k : Fin 64, x0 (ix2 p k) * x1 (ix2 k q)) * x2 (ix2 p (0 : Fin 1)) := by
  unfold k0_pay1
  refine (mulf_apply _ _ (ix2 p q)).trans ?_
  refine congrArg₂ (· * ·) ((matmul_at _ _ p q).trans rfl) ?_
  rw [shapeCast_self]
  exact broadcastTo_a1_ab_apply x2 _ p q

/-- WHERE THE BLOCKS SIT, point by point of the ten-point grid: the block of rows of the node array and the block of the
    normaliser move with the output's block of rows (block row t at point t, block column 0), and the weight matrix is its
    one whole block at every point. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) = t.val
    ∧ win0_3.index t (1 : Fin 2) = 0 :=
  (by decide +kernel : ∀ t : Fin grid0.N, _)

/-- WHAT POINT t WRITES BACK is block t of the closed form of the three arrays as the region finds them: entry (p, q) of
    the block is the body's result there, whose operands' entries (p, k), (k, q), (p, 0) of the three input blocks are the
    arrays' entries (10000·t + p, k), (k, q), (10000·t + p, 0) — a block's entry sits in its array at block index × block
    size + the entry's own coordinate, axis by axis. -/
theorem flushed_eq (c : Dev nD) (t : Fin cfg0.N) :
    (dat0 (F := Ideal) V c).flushed 3 t = ((cfg0.win 3).blk t).view.read (Elt Ideal) (Cert.Spec.linScale (V c main_arg0) (V c main_arg2) (V c main_v20)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S10000x1) hz]
  obtain ⟨e0, e1, e2, e3, e4, e5, e6, e7⟩ := idx_facts t
  funext j
  have hp : (j 0).val < 10000 := (j 0).isLt
  have hq : (j 1).val < 64 := (j 1).isLt
  show k0_pay1 (iblk0 V c 0 t) (iblk0 V c 1 t) (iblk0 V c 2 t) ((win0 3).xinj (grid0.coords t) j) = Cert.Spec.linScale (V c main_arg0) (V c main_arg2) (V c main_v20) (((cfg0.win 3).blk t).view.emb j)
  -- the block's entry by its two coordinates
  have hj : (win0 3).xinj (grid0.coords t) j = ix2 (⟨(j 0).val, hp⟩ : Fin 10000) (⟨(j 1).val, hq⟩ : Fin 64) := by
    funext a
    match a with
    | ⟨0, _⟩ => rfl
    | ⟨1, _⟩ => rfl
  refine (congrArg (k0_pay1 (iblk0 V c 0 t) (iblk0 V c 1 t) (iblk0 V c 2 t)) hj).trans ?_
  refine (pay_apply (iblk0 V c 0 t) (iblk0 V c 1 t) (iblk0 V c 2 t) ⟨(j 0).val, hp⟩ ⟨(j 1).val, hq⟩).trans ?_
  unfold Cert.Spec.linScale
  refine congrArg₂ (· * ·) (Finset.sum_congr rfl fun k _ => congrArg₂ (· * ·) ?_ ?_) ?_
  · -- the node rows' block at (p, k) is the array at (10000·t + p, k)
    show V c main_arg0 (((cfg0.win 0).blk t).view.emb (ix2 (⟨(j 0).val, hp⟩ : Fin 10000) k)) = _
    refine congrArg (V c main_arg0) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 64 + 1 * k.val = k.val; omega
  · -- the weights' block is the whole matrix
    show V c main_arg2 (((cfg0.win 1).blk t).view.emb (ix2 k (⟨(j 1).val, hq⟩ : Fin 64))) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  · -- the normaliser's block at (p, 0) is the array at (10000·t + p, 0)
    show V c main_v20 (((cfg0.win 2).blk t).view.emb (ix2 (⟨(j 0).val, hp⟩ : Fin 10000) (0 : Fin 1))) = _
    refine congrArg (V c main_v20) (funext fun a => Fin.ext ?_)
    match a with
    | ⟨0, _⟩ => show win0_2.index t (0 : Fin 2) * 10000 + 1 * (j 0).val = win0_3.index t (0 : Fin 2) * 10000 + 1 * (j 0).val; omega
    | ⟨1, _⟩ => show win0_2.index t (1 : Fin 2) * 1 + 1 * 0 = 0; omega

/-- An entry of the output array is in point t's block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v21).slice (win0_3.rect t)).set ↔ _
  rw [View.set_slice_whole, Rect.mem_set_unit]
  exact Iff.rfl

/-- THE TEN BLOCKS TILE THE ARRAY: row r lies in the block of point r / 10000, which writes its block back. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 10000 := ⟨⟨(i 0).val / 10000, (by omega : (i 0).val / 10000 < 10)⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE ARRAY region 0 leaves: node rows times the first weight matrix, each row scaled by its node's normaliser. -/
theorem arr (c : Dev nD) :
    (dat0 (F := Ideal) V c).arrAt 3 cfg0.N = Cert.Spec.linScale (V c main_arg0) (V c main_arg2) (V c main_v20) :=
  (dat0 (F := Ideal) V c).arrAt_eq_of_cover 3 _ (fun t _ => flushed_eq V c t) cover

end Cert.KernelIdeal.Region0

end
-- ==== Proof.Region1.lean ====
/-
  Region 1 of the program (the aggregated rows scaled by the node's normaliser, plus the first bias, through the hyperbolic tangent): what its output array holds when the region ends, as one function of the three
  arrays the region reads, whatever those arrays hold when the region is entered.
-/
import proofs.«423935_j26499948216429_3_alg».proof.Proof.Gen.KernelIdeal.Frame
import proofs.«423935_j26499948216429_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.ShloMosaic.Pipeline
open Cert.KernelIdeal Cert.KernelIdeal.Gen

variable (V : (c : Dev nD) → (b : Ref sig .tc) → Buf (Elt Ideal) ((c : Thread nD τ).loc b))

/-- A whole-buffer access starts at the origin: its offset is zero on both axes. -/
theorem hz : (![0, 0] : Fin 2 → Nat) = fun _ => 0 := funext fun a => by fin_cases a <;> rfl

/-- A column `[a, 1]` broadcast along the rows to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at one element of the block: the aggregated entry times its row's normaliser, plus the
    bias of its column, through the hyperbolic tangent. -/
theorem pay_apply (x0 : Vec Ideal S10000x64 .f32) (x1 : Vec Ideal S10000x1 .f32) (x2 : Vec Ideal S1x64 .f32)
    (p : Fin 10000) (q : Fin 64) :
    k1_pay1 x0 x1 x2 (ix2 p q)
      = Ideal.tanh (x0 (ix2 p q) * x1 (ix2 p (0 : Fin 1)) + x2 (ix2 (0 : Fin 1) q)) := by
  unfold k1_pay1
  simp only [shapeCast_self]
  show Ideal.tanh (x0 (ix2 p q) * broadcastTo S10000x64 x1 broadcasts_S10000x1_S10000x64 (ix2 p q)
      + broadcastTo S10000x64 x2 broadcasts_S1x64_S10000x64 (ix2 p q)) = _
  rw [broadcastTo_a1_ab_apply x1 broadcasts_S10000x1_S10000x64 p q,
    broadcastTo_1b_ab_apply x2 broadcasts_S1x64_S10000x64 p q]

/-- The printed index maps, decided over the ten points of the grid: the aggregated rows' window and the normalisers'
    window sit on the same block of rows as the output's window, which is block `t` at point `t`; the bias row's
    window stays on its one block; no window moves along the columns. -/
theorem idx_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the region's function of the three arrays as the region finds them. -/
theorem flushed_eq (c : Dev nD) (t : Fin cfg1.N) :
    (dat1 (F := Ideal) V c).flushed 3 t
      = ((cfg1.win 3).blk t).view.read (Elt Ideal) (Cert.Spec.biasTanh (V c main_v30) (V c main_v20) (V c main_v31)) := by
  show (cfg1.win 3).cut (grid1.coords t) ((dat1 V c).after 3 t) = _
  rw [after1_3]
  unfold out1_3
  rw [View.canon_unit_zero hz]
  simp only [View.ld_unit_zero (S := S10000x64) hz, View.ld_unit_zero (S := S10000x1) hz, View.ld_unit_zero (S := S1x64) hz]
  obtain ⟨e0, e1, e2, e3, e4, e5, e6, e7⟩ := idx_facts t
  funext j
  obtain ⟨p, q, rfl⟩ : ∃ (p : Fin 10000) (q : Fin 64), j = ix2 p q :=
    ⟨j (0 : Fin 2), j (1 : Fin 2), eq_ix2 (n0 := 10000) (n1 := 64) j⟩
  show k1_pay1 (iblk1 V c 0 t) (iblk1 V c 1 t) (iblk1 V c 2 t) (ix2 p q)
    = Cert.Spec.biasTanh (V c main_v30) (V c main_v20) (V c main_v31) (((cfg1.win 3).blk t).view.emb (ix2 p q))
  refine (pay_apply (iblk1 V c 0 t) (iblk1 V c 1 t) (iblk1 V c 2 t) p q).trans ?_
  have h0 : ((cfg1.win 0).blk t).view.emb (ix2 p q) = ((cfg1.win 3).blk t).view.emb (ix2 p q) := by
    funext a; apply Fin.ext
    match a with
    | ⟨0, _⟩ =>
      show win1_0.index t (0 : Fin 2) * 10000 + 1 * p.val = win1_3.index t (0 : Fin 2) * 10000 + 1 * p.val
      omega
    | ⟨1, _⟩ =>
      show win1_0.index t (1 : Fin 2) * 64 + 1 * q.val = win1_3.index t (1 : Fin 2) * 64 + 1 * q.val
      omega
  have h1 : ((cfg1.win 1).blk t).view.emb (ix2 p (0 : Fin 1))
      = ix2 (((cfg1.win 3).blk t).view.emb (ix2 p q) (0 : Fin 2)) (0 : Fin 1) := by
    funext a; apply Fin.ext
    match a with
    | ⟨0, _⟩ =>
      show win1_1.index t (0 : Fin 2) * 10000 + 1 * p.val = win1_3.index t (0 : Fin 2) * 10000 + 1 * p.val
      omega
    | ⟨1, _⟩ =>
      show win1_1.index t (1 : Fin 2) * 1 + 1 * 0 = 0
      omega
  have h2 : ((cfg1.win 2).blk t).view.emb (ix2 (0 : Fin 1) q)
      = ix2 (0 : Fin 1) (((cfg1.win 3).blk t).view.emb (ix2 p q) (1 : Fin 2)) := by
    funext a; apply Fin.ext
    match a with
    | ⟨0, _⟩ =>
      show win1_2.index t (0 : Fin 2) * 1 + 1 * 0 = 0
      omega
    | ⟨1, _⟩ =>
      show win1_2.index t (1 : Fin 2) * 64 + 1 * q.val = win1_3.index t (1 : Fin 2) * 64 + 1 * q.val
      omega
  have a0 : iblk1 V c 0 t (ix2 p q) = V c main_v30 (((cfg1.win 3).blk t).view.emb (ix2 p q)) :=
    congrArg (V c main_v30) h0
  have a1 : iblk1 V c 1 t (ix2 p (0 : Fin 1))
      = V c main_v20 (ix2 (((cfg1.win 3).blk t).view.emb (ix2 p q) (0 : Fin 2)) (0 : Fin 1)) :=
    congrArg (V c main_v20) h1
  have a2 : iblk1 V c 2 t (ix2 (0 : Fin 1) q)
      = V c main_v31 (ix2 (0 : Fin 1) (((cfg1.win 3).blk t).view.emb (ix2 p q) (1 : Fin 2))) :=
    congrArg (V c main_v31) h2
  rw [a0, a1, a2]
  rfl

/-- An index of the array is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v32).slice (win1_3.rect t)).set ↔ _
  rw [View.set_slice_whole, Rect.mem_set_unit]
  exact Iff.rfl

/-- THE BLOCKS FILL THE ARRAY: row `r` lies in the block of point `r / 10000`, and a block spans all 64 columns. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 10000 < 10 := by omega
  obtain ⟨-, -, -, -, -, -, e6, e7⟩ := idx_facts ⟨(i 0).val / 10000, ht⟩
  have e6' : win1_3.index ⟨(i 0).val / 10000, ht⟩ (0 : Fin 2) = (i 0).val / 10000 := e6
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    omega

/-- THE ARRAY region 1 leaves: the aggregated rows scaled by the node's normaliser, plus the first bias, through the hyperbolic tangent. -/
theorem arr (c : Dev nD) :
    (dat1 (F := Ideal) V c).arrAt 3 cfg1.N = Cert.Spec.biasTanh (V c main_v30) (V c main_v20) (V c main_v31) := by
  exact (dat1 V c).arrAt_eq_of_cover 3 _ (fun t _ => flushed_eq V c t) cover

end Cert.KernelIdeal.Region1

end
-- ==== Proof.Region2.lean ====
/-
  Region 2 of the program (the first layer's rows times the second weight matrix, each row scaled by its node's normaliser): what its output array holds when the region ends, as one function of the three
  arrays the region reads, whatever those arrays hold when the region is entered.
-/
import proofs.«423935_j26499948216429_3_alg».proof.Proof.Gen.KernelIdeal.Frame
import proofs.«423935_j26499948216429_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.ShloMosaic.Pipeline
open Cert.KernelIdeal Cert.KernelIdeal.Gen

variable (V : (c : Dev nD) → (b : Ref sig .tc) → Buf (Elt Ideal) ((c : Thread nD τ).loc b))

/-! ## The pieces of the argument

The region's body computes, on one block of 10000 rows of the first layer's output, the rows times the second 64 by 64 weight
matrix and scales row p by the p-th entry of the normaliser's block. Below: that payload read at one entry (a sum over the contracted axis times one
scalar); where each window's block sits in its array; what one grid point writes back; and that the ten blocks of rows
tile the 100000 rows, so that the output array is the same formula read at every entry. -/

/-- The zero offsets of a whole-block access, as the constant function. -/
theorem hz : (![0, 0] : Fin 2 → Nat) = fun _ => 0 := funext fun a => by
  match a with
  | ⟨0, _⟩ => rfl
  | ⟨1, _⟩ => rfl

/-! ### The contraction: which entries of the two operands meet at output entry (p, q) and contraction index k

The left operand is read at (p, k) and the right one at (k, q): the output's row is the left operand's free axis, the
output's column the right operand's free axis, and the one contracted axis is axis 1 on the left and axis 0 on the right. -/

/-- The left operand's row is the output's row. -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column is the contraction index. -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row is the contraction index. -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- The right operand's column is the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The matrix product into a zero accumulator, at entry (p, q) over the extended reals: the sum over k of a(p, k) · b(k, q).
    The sum over the one-axis contraction index set is re-indexed by its single coordinate. -/
theorem matmul_at (a : FVec Ideal S10000x64 .bf16) (b : FVec Ideal S64x64 .bf16) (p : Fin 10000) (q : Fin 64) :
    matmul (F := Ideal) dot_S10000x64_S64x64_S10000x64_1_0_0_1_n_n none a b (constant (F := Ideal) S10000x64 .f32 0x00000000#32) (ix2 p q)
      = ∑ k : Fin 64, a (ix2 p k) * b (ix2 k q) := by
  refine (Ideal.matmul_constant_zero_apply dot_S10000x64_S64x64_S10000x64_1_0_0_1_n_n none a b (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- A one-column array [a, 1] broadcast along its unit axis to [a, b] reads, at (p, c), the column's entry of row p
    (also when a = 1, where the row coordinate can only be 0). -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE BODY'S RESULT AT ONE ENTRY: at (p, q) of the block it is (∑ₖ x(p, k) · w(k, q)) · d(p, 0). Over the extended reals the
    casts of the rows' block and of the normaliser's block to their own shapes are the identity, the two narrowings of the operands
    change nothing, the product accumulates from zero, and the normaliser's one column is repeated along the 64 columns. -/
theorem pay_apply (x0 : Vec Ideal S10000x64 .f32) (x1 : Vec Ideal S64x64 .f32) (x2 : Vec Ideal S10000x1 .f32) (p : Fin 10000) (q : Fin 64) :
    k2_pay1 x0 x1 x2 (ix2 p q) = (∑ k : Fin 64, x0 (ix2 p k) * x1 (ix2 k q)) * x2 (ix2 p (0 : Fin 1)) := by
  unfold k2_pay1
  rw [shapeCast_self x0, shapeCast_self x2]
  refine (mulf_apply _ _ (ix2 p q)).trans ?_
  exact congrArg₂ (· * ·) ((matmul_at _ _ p q).trans rfl) (broadcastTo_a1_ab_apply x2 _ p q)

/-- WHERE THE BLOCKS SIT, point by point of the ten-point grid: the block of rows of the first layer's output and the block of the
    normaliser move with the output's block of rows (block row t at point t, block column 0), and the weight matrix is its
    one whole block at every point. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = win2_3.index t (0 : Fin 2)
    ∧ win2_2.index t (1 : Fin 2) = 0
    ∧ win2_3.index t (0 : Fin 2) = t.val
    ∧ win2_3.index t (1 : Fin 2) = 0 :=
  (by decide +kernel : ∀ t : Fin grid2.N, _)

/-- WHAT POINT t WRITES BACK is block t of the closed form of the three arrays as the region finds them: entry (p, q) of
    the block is the body's result there, whose operands' entries (p, k), (k, q), (p, 0) of the three input blocks are the
    arrays' entries (10000·t + p, k), (k, q), (10000·t + p, 0) — a block's entry sits in its array at block index × block
    size + the entry's own coordinate, axis by axis. -/
theorem flushed_eq (c : Dev nD) (t : Fin cfg2.N) :
    (dat2 (F := Ideal) V c).flushed 3 t = ((cfg2.win 3).blk t).view.read (Elt Ideal) (Cert.Spec.linScale (V c main_v32) (V c main_arg4) (V c main_v20)) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x64) hz, View.ld_unit_zero (S := S10000x1) hz]
  obtain ⟨e0, e1, e2, e3, e4, e5, e6, e7⟩ := idx_facts t
  funext j
  have hp : (j 0).val < 10000 := (j 0).isLt
  have hq : (j 1).val < 64 := (j 1).isLt
  show k2_pay1 (iblk2 V c 0 t) (iblk2 V c 1 t) (iblk2 V c 2 t) ((win2 3).xinj (grid2.coords t) j) = Cert.Spec.linScale (V c main_v32) (V c main_arg4) (V c main_v20) (((cfg2.win 3).blk t).view.emb j)
  -- the block's entry by its two coordinates
  have hj : (win2 3).xinj (grid2.coords t) j = ix2 (⟨(j 0).val, hp⟩ : Fin 10000) (⟨(j 1).val, hq⟩ : Fin 64) := by
    funext a
    match a with
    | ⟨0, _⟩ => rfl
    | ⟨1, _⟩ => rfl
  refine (congrArg (k2_pay1 (iblk2 V c 0 t) (iblk2 V c 1 t) (iblk2 V c 2 t)) hj).trans ?_
  refine (pay_apply (iblk2 V c 0 t) (iblk2 V c 1 t) (iblk2 V c 2 t) ⟨(j 0).val, hp⟩ ⟨(j 1).val, hq⟩).trans ?_
  unfold Cert.Spec.linScale
  refine congrArg₂ (· * ·) (Finset.sum_congr rfl fun k _ => congrArg₂ (· * ·) ?_ ?_) ?_
  · -- the first layer's rows' block at (p, k) is the array at (10000·t + p, k)
    show V c main_v32 (((cfg2.win 0).blk t).view.emb (ix2 (⟨(j 0).val, hp⟩ : Fin 10000) k)) = _
    refine congrArg (V c main_v32) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * k.val = k.val; omega
  · -- the weights' block is the whole matrix
    show V c main_arg4 (((cfg2.win 1).blk t).view.emb (ix2 k (⟨(j 1).val, hq⟩ : Fin 64))) = _
    refine congrArg (V c main_arg4) (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_3.index t (1 : Fin 2) * 64 + 1 * (j 1).val; omega
  · -- the normaliser's block at (p, 0) is the array at (10000·t + p, 0)
    show V c main_v20 (((cfg2.win 2).blk t).view.emb (ix2 (⟨(j 0).val, hp⟩ : Fin 10000) (0 : Fin 1))) = _
    refine congrArg (V c main_v20) (funext fun a => Fin.ext ?_)
    match a with
    | ⟨0, _⟩ => show win2_2.index t (0 : Fin 2) * 10000 + 1 * (j 0).val = win2_3.index t (0 : Fin 2) * 10000 + 1 * (j 0).val; omega
    | ⟨1, _⟩ => show win2_2.index t (1 : Fin 2) * 1 + 1 * 0 = 0; omega

/-- An entry of the output array is in point t's block iff each coordinate is in the block's range on its axis. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v33).slice (win2_3.rect t)).set ↔ _
  rw [View.set_slice_whole, Rect.mem_set_unit]
  exact Iff.rfl

/-- THE TEN BLOCKS TILE THE ARRAY: row r lies in the block of point r / 10000, which writes its block back. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 10000 := ⟨⟨(i 0).val / 10000, (by omega : (i 0).val / 10000 < 10)⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- THE ARRAY region 2 leaves: the first layer's rows times the second weight matrix, each row scaled by its node's normaliser. -/
theorem arr (c : Dev nD) :
    (dat2 (F := Ideal) V c).arrAt 3 cfg2.N = Cert.Spec.linScale (V c main_v32) (V c main_arg4) (V c main_v20) :=
  (dat2 (F := Ideal) V c).arrAt_eq_of_cover 3 _ (fun t _ => flushed_eq V c t) cover

end Cert.KernelIdeal.Region2

end
-- ==== Proof.Region3.lean ====
/-
  Region 3 of the program (the aggregated rows scaled by the node's normaliser, plus the second bias, through the hyperbolic tangent): what its output array holds when the region ends, as one function of the three
  arrays the region reads, whatever those arrays hold when the region is entered.
-/
import proofs.«423935_j26499948216429_3_alg».proof.Proof.Gen.KernelIdeal.Frame
import proofs.«423935_j26499948216429_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx Idealize.ShloMosaic.Pipeline
open Cert.KernelIdeal Cert.KernelIdeal.Gen

variable (V : (c : Dev nD) → (b : Ref sig .tc) → Buf (Elt Ideal) ((c : Thread nD τ).loc b))

/-- A whole-buffer access starts at the origin: its offset is zero on both axes. -/
theorem hz : (![0, 0] : Fin 2 → Nat) = fun _ => 0 := funext fun a => by fin_cases a <;> rfl

/-- A column `[a, 1]` broadcast along the rows to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at one element of the block: the aggregated entry times its row's normaliser, plus the
    bias of its column, through the hyperbolic tangent. -/
theorem pay_apply (x0 : Vec Ideal S10000x64 .f32) (x1 : Vec Ideal S10000x1 .f32) (x2 : Vec Ideal S1x64 .f32)
    (p : Fin 10000) (q : Fin 64) :
    k3_pay1 x0 x1 x2 (ix2 p q)
      = Ideal.tanh (x0 (ix2 p q) * x1 (ix2 p (0 : Fin 1)) + x2 (ix2 (0 : Fin 1) q)) := by
  unfold k3_pay1
  simp only [shapeCast_self]
  show Ideal.tanh (x0 (ix2 p q) * broadcastTo S10000x64 x1 broadcasts_S10000x1_S10000x64 (ix2 p q)
      + broadcastTo S10000x64 x2 broadcasts_S1x64_S10000x64 (ix2 p q)) = _
  rw [broadcastTo_a1_ab_apply x1 broadcasts_S10000x1_S10000x64 p q,
    broadcastTo_1b_ab_apply x2 broadcasts_S1x64_S10000x64 p q]

/-- The printed index maps, decided over the ten points of the grid: the aggregated rows' window and the normalisers'
    window sit on the same block of rows as the output's window, which is block `t` at point `t`; the bias row's
    window stays on its one block; no window moves along the columns. -/
theorem idx_facts : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- WHAT POINT `t` WRITES BACK is block `t` of the region's function of the three arrays as the region finds them. -/
theorem flushed_eq (c : Dev nD) (t : Fin cfg3.N) :
    (dat3 (F := Ideal) V c).flushed 3 t
      = ((cfg3.win 3).blk t).view.read (Elt Ideal) (Cert.Spec.biasTanh (V c main_v42) (V c main_v20) (V c main_v43)) := by
  show (cfg3.win 3).cut (grid3.coords t) ((dat3 V c).after 3 t) = _
  rw [after3_3]
  unfold out3_3
  rw [View.canon_unit_zero hz]
  simp only [View.ld_unit_zero (S := S10000x64) hz, View.ld_unit_zero (S := S10000x1) hz, View.ld_unit_zero (S := S1x64) hz]
  obtain ⟨e0, e1, e2, e3, e4, e5, e6, e7⟩ := idx_facts t
  funext j
  obtain ⟨p, q, rfl⟩ : ∃ (p : Fin 10000) (q : Fin 64), j = ix2 p q :=
    ⟨j (0 : Fin 2), j (1 : Fin 2), eq_ix2 (n0 := 10000) (n1 := 64) j⟩
  show k3_pay1 (iblk3 V c 0 t) (iblk3 V c 1 t) (iblk3 V c 2 t) (ix2 p q)
    = Cert.Spec.biasTanh (V c main_v42) (V c main_v20) (V c main_v43) (((cfg3.win 3).blk t).view.emb (ix2 p q))
  refine (pay_apply (iblk3 V c 0 t) (iblk3 V c 1 t) (iblk3 V c 2 t) p q).trans ?_
  have h0 : ((cfg3.win 0).blk t).view.emb (ix2 p q) = ((cfg3.win 3).blk t).view.emb (ix2 p q) := by
    funext a; apply Fin.ext
    match a with
    | ⟨0, _⟩ =>
      show win3_0.index t (0 : Fin 2) * 10000 + 1 * p.val = win3_3.index t (0 : Fin 2) * 10000 + 1 * p.val
      omega
    | ⟨1, _⟩ =>
      show win3_0.index t (1 : Fin 2) * 64 + 1 * q.val = win3_3.index t (1 : Fin 2) * 64 + 1 * q.val
      omega
  have h1 : ((cfg3.win 1).blk t).view.emb (ix2 p (0 : Fin 1))
      = ix2 (((cfg3.win 3).blk t).view.emb (ix2 p q) (0 : Fin 2)) (0 : Fin 1) := by
    funext a; apply Fin.ext
    match a with
    | ⟨0, _⟩ =>
      show win3_1.index t (0 : Fin 2) * 10000 + 1 * p.val = win3_3.index t (0 : Fin 2) * 10000 + 1 * p.val
      omega
    | ⟨1, _⟩ =>
      show win3_1.index t (1 : Fin 2) * 1 + 1 * 0 = 0
      omega
  have h2 : ((cfg3.win 2).blk t).view.emb (ix2 (0 : Fin 1) q)
      = ix2 (0 : Fin 1) (((cfg3.win 3).blk t).view.emb (ix2 p q) (1 : Fin 2)) := by
    funext a; apply Fin.ext
    match a with
    | ⟨0, _⟩ =>
      show win3_2.index t (0 : Fin 2) * 1 + 1 * 0 = 0
      omega
    | ⟨1, _⟩ =>
      show win3_2.index t (1 : Fin 2) * 64 + 1 * q.val = win3_3.index t (1 : Fin 2) * 64 + 1 * q.val
      omega
  have a0 : iblk3 V c 0 t (ix2 p q) = V c main_v42 (((cfg3.win 3).blk t).view.emb (ix2 p q)) :=
    congrArg (V c main_v42) h0
  have a1 : iblk3 V c 1 t (ix2 p (0 : Fin 1))
      = V c main_v20 (ix2 (((cfg3.win 3).blk t).view.emb (ix2 p q) (0 : Fin 2)) (0 : Fin 1)) :=
    congrArg (V c main_v20) h1
  have a2 : iblk3 V c 2 t (ix2 (0 : Fin 1) q)
      = V c main_v43 (ix2 (0 : Fin 1) (((cfg3.win 3).blk t).view.emb (ix2 p q) (1 : Fin 2))) :=
    congrArg (V c main_v43) h2
  rw [a0, a1, a2]
  rfl

/-- An index of the array is in point `t`'s block iff each coordinate is in the block's range on its axis. -/
theorem mem_blk (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v44).slice (win3_3.rect t)).set ↔ _
  rw [View.set_slice_whole, Rect.mem_set_unit]
  exact Iff.rfl

/-- THE BLOCKS FILL THE ARRAY: row `r` lies in the block of point `r / 10000`, and a block spans all 64 columns. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have ht : (i 0).val / 10000 < 10 := by omega
  obtain ⟨-, -, -, -, -, -, e6, e7⟩ := idx_facts ⟨(i 0).val / 10000, ht⟩
  have e6' : win3_3.index ⟨(i 0).val / 10000, ht⟩ (0 : Fin 2) = (i 0).val / 10000 := e6
  refine ⟨⟨(i 0).val / 10000, ht⟩, flush3_3 _, ?_⟩
  rw [mem_blk]
  intro a
  match a with
  | ⟨0, _⟩ =>
    show win3_3.index ⟨(i 0).val / 10000, ht⟩ (0 : Fin 2) * 10000 ≤ (i 0).val
      ∧ (i 0).val < win3_3.index ⟨(i 0).val / 10000, ht⟩ (0 : Fin 2) * 10000 + 10000
    omega
  | ⟨1, _⟩ =>
    show win3_3.index ⟨(i 0).val / 10000, ht⟩ (1 : Fin 2) * 64 ≤ (i 1).val
      ∧ (i 1).val < win3_3.index ⟨(i 0).val / 10000, ht⟩ (1 : Fin 2) * 64 + 64
    omega

/-- THE ARRAY region 3 leaves: the aggregated rows scaled by the node's normaliser, plus the second bias, through the hyperbolic tangent. -/
theorem arr (c : Dev nD) :
    (dat3 (F := Ideal) V c).arrAt 3 cfg3.N = Cert.Spec.biasTanh (V c main_v42) (V c main_v20) (V c main_v43) := by
  exact (dat3 V c).arrAt_eq_of_cover 3 _ (fun t _ => flushed_eq V c t) cover

end Cert.KernelIdeal.Region3

end
-- ==== Proof.Region4.lean ====
/-
  Region 4 of the program (the second layer's rows times the classifier's weights plus its bias): what its output array holds when the region ends, as one function of the three
  arrays the region reads, whatever those arrays hold when the region is entered.
-/
import proofs.«423935_j26499948216429_3_alg».proof.Proof.Gen.KernelIdeal.Frame
import proofs.«423935_j26499948216429_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Idealize.ShloMosaic Idealize.ShloMosaic.TcCoe Idealize.ShloMosaic.ValueIdx Idealize.ShloMosaic.Pipeline
open Cert.KernelIdeal Cert.KernelIdeal.Gen

variable (V : (c : Dev nD) → (b : Ref sig .tc) → Buf (Elt Ideal) ((c : Thread nD τ).loc b))

/-! ## The pieces of the argument

The region's body computes, on one block of 10000 rows of the second layer's output, the rows times the classifier's 64 by 32
weight matrix and adds the bias row to every row. Below: that payload read at one entry (a sum over the contracted axis plus
one entry of the bias row); where each window's block sits in its array; what one grid point writes back; and that the ten
blocks of rows tile the 100000 rows, so that the output array is the same formula read at every entry. -/

/-- The zero offsets of a whole-block access, as the constant function. -/
theorem hz : (![0, 0] : Fin 2 → Nat) = fun _ => 0 := funext fun a => by
  match a with
  | ⟨0, _⟩ => rfl
  | ⟨1, _⟩ => rfl

/-! ### The contraction: which entries of the two operands meet at output entry (p, q) and contraction index k

The left operand is read at (p, k) and the right one at (k, q): the output's row is the left operand's free axis, the
output's column the right operand's free axis, and the one contracted axis is axis 1 on the left and axis 0 on the right. -/

/-- The left operand's row is the output's row. -/
theorem lhs_row (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
/-- The left operand's column is the contraction index. -/
theorem lhs_col (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
/-- The right operand's row is the contraction index. -/
theorem rhs_row (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
/-- The right operand's column is the output's column. -/
theorem rhs_col (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The matrix product into a zero accumulator, at entry (p, q) over the extended reals: the sum over k of a(p, k) · b(k, q).
    The sum over the one-axis contraction index set is re-indexed by its single coordinate. -/
theorem matmul_at (a : FVec Ideal S10000x64 .bf16) (b : FVec Ideal S64x32 .bf16) (p : Fin 10000) (q : Fin 32) :
    matmul (F := Ideal) dot_S10000x64_S64x32_S10000x32_1_0_0_1_n_n none a b (constant (F := Ideal) S10000x32 .f32 0x00000000#32) (ix2 p q)
      = ∑ k : Fin 64, a (ix2 p k) * b (ix2 k q) := by
  refine (Ideal.matmul_constant_zero_apply dot_S10000x64_S64x32_S10000x32_1_0_0_1_n_n none a b (ix2 p q)).trans ?_
  rw [← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p q) ((contrEquiv1 dot_S10000x64_S64x32_S10000x32_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x32_S10000x32_1_0_0_1_n_n.rhsIdx (ix2 p q) ((contrEquiv1 dot_S10000x64_S64x32_S10000x32_1_0_0_1_n_n 64 rfl rfl).symm k) = ix2 k q := funext fun a => Fin.ext (by
    match a with
    | ⟨0, _⟩ => exact (rhs_row _ _).trans hk
    | ⟨1, _⟩ => exact rhs_col _ _)
  rw [el, er]

/-- THE BODY'S RESULT AT ONE ENTRY: at (p, q) of the block it is (∑ₖ x(p, k) · w(k, q)) + b(0, q). Over the extended reals the
    casts of the rows' block and of the bias row to their own shapes are the identity, the two narrowings of the operands change
    nothing, the product accumulates from zero, and the one bias row is repeated down the 10000 rows. -/
theorem pay_apply (x0 : Vec Ideal S10000x64 .f32) (x1 : Vec Ideal S64x32 .f32) (x2 : Vec Ideal S1x32 .f32) (p : Fin 10000) (q : Fin 32) :
    k4_pay1 x0 x1 x2 (ix2 p q) = (∑ k : Fin 64, x0 (ix2 p k) * x1 (ix2 k q)) + x2 (ix2 (0 : Fin 1) q) := by
  unfold k4_pay1
  rw [shapeCast_self x0, shapeCast_self x2]
  refine (addf_apply _ _ (ix2 p q)).trans ?_
  exact congrArg₂ (· + ·) ((matmul_at _ _ p q).trans rfl) (broadcastTo_1b_ab_apply x2 _ p q)

/-- WHERE THE BLOCKS SIT, point by point of the ten-point grid: the block of rows of the second layer's output moves with
    the output's block of rows (block row t at point t, block column 0), and the classifier's weight matrix and its bias row
    are each their one whole block at every point. -/
theorem idx_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- WHAT POINT t WRITES BACK is block t of the closed form of the three arrays as the region finds them: entry (p, q) of
    the block is the body's result there, whose operands' entries (p, k), (k, q), (0, q) of the three input blocks are the
    arrays' entries (10000·t + p, k), (k, q), (0, q) — a block's entry sits in its array at block index × block size + the
    entry's own coordinate, axis by axis. -/
theorem flushed_eq (c : Dev nD) (t : Fin cfg4.N) :
    (dat4 (F := Ideal) V c).flushed 3 t = ((cfg4.win 3).blk t).view.read (Elt Ideal) (Cert.Spec.linBias (V c main_v44) (V c main_arg6) (V c main_v45)) := by
  show (cfg4.win 3).cut (grid4.coords t) ((dat4 V c).after 3 t) = _
  rw [after4_3]
  unfold out4_3
  rw [View.canon_unit_zero hz]
  simp only [View.ld_unit_zero (S := S10000x64) hz, View.ld_unit_zero (S := S64x32) hz, View.ld_unit_zero (S := S1x32) hz]
  obtain ⟨e0, e1, e2, e3, e4, e5, e6, e7⟩ := idx_facts t
  funext j
  have hp : (j 0).val < 10000 := (j 0).isLt
  have hq : (j 1).val < 32 := (j 1).isLt
  show k4_pay1 (iblk4 V c 0 t) (iblk4 V c 1 t) (iblk4 V c 2 t) ((win4 3).xinj (grid4.coords t) j) = Cert.Spec.linBias (V c main_v44) (V c main_arg6) (V c main_v45) (((cfg4.win 3).blk t).view.emb j)
  -- the block's entry by its two coordinates
  have hj : (win4 3).xinj (grid4.coords t) j = ix2 (⟨(j 0).val, hp⟩ : Fin 10000) (⟨(j 1).val, hq⟩ : Fin 32) := by
    funext a
    match a with
    | ⟨0, _⟩ => rfl
    | ⟨1, _⟩ => rfl
  refine (congrArg (k4_pay1 (iblk4 V c 0 t) (iblk4 V c 1 t) (iblk4 V c 2 t)) hj).trans ?_
  refine (pay_apply (iblk4 V c 0 t) (iblk4 V c 1 t) (iblk4 V c 2 t) ⟨(j 0).val, hp⟩ ⟨(j 1).val, hq⟩).trans ?_
  unfold Cert.Spec.linBias
  refine congrArg₂ (· + ·) (Finset.sum_congr rfl fun k _ => congrArg₂ (· * ·) ?_ ?_) ?_
  · -- the second layer's rows' block at (p, k) is the array at (10000·t + p, k)
    show V c main_v44 (((cfg4.win 0).blk t).view.emb (ix2 (⟨(j 0).val, hp⟩ : Fin 10000) k)) = _
    refine congrArg (V c main_v44) (funext fun a => Fin.ext ?_)
    match a with
    | ⟨0, _⟩ => show win4_0.index t (0 : Fin 2) * 10000 + 1 * (j 0).val = win4_3.index t (0 : Fin 2) * 10000 + 1 * (j 0).val; omega
    | ⟨1, _⟩ => show win4_0.index t (1 : Fin 2) * 64 + 1 * k.val = k.val; omega
  · -- the weights' block is the whole matrix
    show V c main_arg6 (((cfg4.win 1).blk t).view.emb (ix2 k (⟨(j 1).val, hq⟩ : Fin 32))) = _
    refine congrArg (V c main_arg6) (funext fun a => Fin.ext ?_)
    match a with
    | ⟨0, _⟩ => show win4_1.index t (0 : Fin 2) * 64 + 1 * k.val = k.val; omega
    | ⟨1, _⟩ => show win4_1.index t (1 : Fin 2) * 32 + 1 * (j 1).val = win4_3.index t (1 : Fin 2) * 32 + 1 * (j 1).val; omega
  · -- the bias' block is the whole row
    show V c main_v45 (((cfg4.win 2).blk t).view.emb (ix2 (0 : Fin 1) (⟨(j 1).val, hq⟩ : Fin 32))) = _
    refine congrArg (V c main_v45) (funext fun a => Fin.ext ?_)
    match a with
    | ⟨0, _⟩ => show win4_2.index t (0 : Fin 2) * 1 + 1 * 0 = 0; omega
    | ⟨1, _⟩ => show win4_2.index t (1 : Fin 2) * 32 + 1 * (j 1).val = win4_3.index t (1 : Fin 2) * 32 + 1 * (j 1).val; omega

/-- An entry of the output array is in point t's block iff each coordinate is in the block's range on its axis. -/
theorem mem_blk (t : Fin cfg4.N) (i : S100000x32.Idx) :
    i ∈ ((cfg4.win 3).blk t).view.set ↔ ∀ a : Fin 2, win4_3.index t a * S10000x32.size a ≤ (i a).val ∧ (i a).val < win4_3.index t a * S10000x32.size a + S10000x32.size a := by
  show i ∈ ((View.whole main_v46).slice (win4_3.rect t)).set ↔ _
  rw [View.set_slice_whole, Rect.mem_set_unit]
  exact Iff.rfl

/-- THE TEN BLOCKS TILE THE ARRAY: row r lies in the block of point r / 10000, which writes its block back. -/
theorem cover (i : S100000x32.Idx) : ∃ t : Fin cfg4.N, (cfg4.win 3).flush t = true ∧ i ∈ ((cfg4.win 3).blk t).view.set := by
  have hi0 : (i 0).val < 100000 := (i 0).isLt
  have hi1 : (i 1).val < 32 := (i 1).isLt
  obtain ⟨t, ht⟩ : ∃ t : Fin cfg4.N, t.val = (i 0).val / 10000 := ⟨⟨(i 0).val / 10000, (by omega : (i 0).val / 10000 < 10)⟩, rfl⟩
  obtain ⟨-, -, -, -, -, -, e6, e7⟩ := idx_facts t
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 32 ≤ (i 1).val ∧ (i 1).val < win4_3.index t (1 : Fin 2) * 32 + 32; omega

/-- THE ARRAY region 4 leaves: the second layer's rows times the classifier's weights plus its bias. -/
theorem arr (c : Dev nD) :
    (dat4 (F := Ideal) V c).arrAt 3 cfg4.N = Cert.Spec.linBias (V c main_v44) (V c main_arg6) (V c main_v45) :=
  (dat4 (F := Ideal) V c).arrAt_eq_of_cover 3 _ (fun t _ => flushed_eq V c t) cover

end Cert.KernelIdeal.Region4

end
-- ==== Proof.LibScatterRows.lean ====
/-
  The host's accumulating scatter and its row gather, read at one index, over the extended reals.

  An accumulating scatter adds to each element of its operand the sum of the update elements that land on it. An update
  element lands on the element whose coordinate, on every axis, is the update's start (an entry of the index array read
  as a SIGNED integer, and not clamped) plus its window coordinate; when that point is outside the operand on some axis
  the update is dropped. `resultIdx?_eq_some_iff` says this for any dimension numbers: landing on `i` is the system of
  equations "start + window = coordinate of `i`", one per axis, the range conditions being `i`'s own.

  Two shapes of dimension numbers are then solved, for sizes that are variables.
  * POINTS: updates `[N]`, index pairs `[N, 2]`, operand `[A, B]`. Update `j` lands on `(p, q)` iff its pair is
    `(p, q)`, so element `(p, q)` of the result is `x (p, q) + ∑ {j | pair j = (p, q)} upd j`
    (`scatterAdd_point_apply`).
  * ROWS: updates `[N, C]`, row indices `[N, 1]`, operand `[A, C]`. Element `(j, b')` of the updates lands on
    `(p, b)` iff row `j`'s index is `p` and `b' = b`, so element `(p, b)` of the result is
    `x (p, b) + ∑ {j | index j = p} upd (j, b)` (`scatterAdd_rows_apply`): the sum over update elements collapses
    onto column `b`.
  Last, the gather that takes rows of a table `[A, C]` at indices `[N, 1]`: element `(j, b)` of the result is the table
  at row `min (index j)⁺ (A − 1)` and column `b`, the index read signed and clamped into the table (`gather_rows_apply`).
-/
import Idealize.ShloMosaic.PureOps.Ideal
import Idealize.ShloMosaic.Lib.ValueIdx

noncomputable section

open scoped BigOperators

namespace Cert.ScatterRows

open Idealize.ShloMosaic Idealize.ShloMosaic.ValueIdx

/-- An update lands on element `i` exactly when, on every axis, its signed start plus its window coordinate
    is `i`'s coordinate: the range conditions are then `i`'s own. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hr
      have hi := congrFun (Option.some.inj h) a
      have hv := congrArg Fin.val hi
      simp only at hv
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    have := h a
    simp only
    omega

/-! ## One scalar update per index pair -/

/-- one scalar update per index pair: updates [N], indices [N,2] (index vector on axis 1), operand [A,B] -/
abbrev pointDims (A B N : Nat) (wf : ScatterDims.WF ⟨2, ![A, B]⟩ ⟨2, ![N, 2]⟩ ⟨1, ![N]⟩ [] [0, 1] [0, 1] 1) :
    ScatterDims ⟨2, ![A, B]⟩ ⟨2, ![N, 2]⟩ ⟨1, ![N]⟩ := ⟨[], [0, 1], [0, 1], 1, wf⟩

section Point
variable {A B N w : Nat} (wf : ScatterDims.WF ⟨2, ![A, B]⟩ ⟨2, ![N, 2]⟩ ⟨1, ![N]⟩ [] [0, 1] [0, 1] 1)

/-- Update `j` reads component `k` of its index pair at position `(j, k)` of the index array. -/
theorem point_siIdx (j : Fin N) (c : Fin (pointDims A B N wf).scatterDimsToOperandDims.length) (k : Fin 2)
    (hc : c.val = k.val) : (pointDims A B N wf).siIdx (ix1 j) c = ix2 j k := by
  funext b; refine Fin.ext ?_
  match b with
  | ⟨0, _⟩ => rfl
  | ⟨1, _⟩ => exact hc

/-- On the operand's first axis the start is the pair's first component, read signed. -/
theorem point_start0 (idx : IVec ⟨2, ![N, 2]⟩ w) (j : Fin N) :
    (pointDims A B N wf).start (ix1 j) idx (0 : Fin 2) = (idx (ix2 j (0 : Fin 2))).toInt := by
  unfold ScatterDims.start
  rw [dif_pos (show (0 : Fin 2) ∈ (pointDims A B N wf).scatterDimsToOperandDims from List.mem_cons_self)]
  rw [point_siIdx wf j _ (0 : Fin 2)]
  rfl

/-- On the operand's second axis the start is the pair's second component, read signed. -/
theorem point_start1 (idx : IVec ⟨2, ![N, 2]⟩ w) (j : Fin N) :
    (pointDims A B N wf).start (ix1 j) idx (1 : Fin 2) = (idx (ix2 j (1 : Fin 2))).toInt := by
  unfold ScatterDims.start
  rw [dif_pos (show (1 : Fin 2) ∈ (pointDims A B N wf).scatterDimsToOperandDims from List.mem_cons_of_mem _ List.mem_cons_self)]
  rw [point_siIdx wf j _ (1 : Fin 2)]
  rfl

/-- Both operand axes are inserted: a scalar update has no window coordinate. -/
theorem point_window (j : (⟨1, ![N]⟩ : Shape).Idx) (a : Fin 2) : (pointDims A B N wf).window j a = 0 := by
  unfold ScatterDims.window
  rw [dif_neg (show a ∉ (pointDims A B N wf).sKept from by
    have : (pointDims A B N wf).sKept = [] := rfl
    rw [this]; exact List.not_mem_nil)]

/-- Update `j` lands on `(p, q)` exactly when its index pair, read signed, is `(p, q)`. -/
theorem point_resultIdx?_iff (idx : IVec ⟨2, ![N, 2]⟩ w) (j : Fin N) (p : Fin A) (q : Fin B) :
    (pointDims A B N wf).resultIdx? (ix1 j) idx = some (ix2 p q)
      ↔ (idx (ix2 j (0 : Fin 2))).toInt = (p.val : Int) ∧ (idx (ix2 j (1 : Fin 2))).toInt = (q.val : Int) := by
  rw [resultIdx?_eq_some_iff, Fin.forall_fin_two, point_start0, point_start1, point_window, point_window]
  simp only [Nat.cast_zero, add_zero]

end Point

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE POINT SCATTER READ AT `(p, q)`: the operand's element plus the sum of the updates whose index pair, read
    signed, is `(p, q)`; an update whose pair is outside the operand is in no such sum. -/
theorem scatterAdd_point_apply {A B N w : Nat} {φ : FTy} (wf : ScatterDims.WF ⟨2, ![A, B]⟩ ⟨2, ![N, 2]⟩ ⟨1, ![N]⟩ [] [0, 1] [0, 1] 1)
    (x : FVec Ideal ⟨2, ![A, B]⟩ φ) (idx : IVec ⟨2, ![N, 2]⟩ w) (upd : FVec Ideal ⟨1, ![N]⟩ φ) (p : Fin A) (q : Fin B) :
    Host.scatterAdd (pointDims A B N wf) x idx upd (ix2 p q)
      = x (ix2 p q) + ∑ j ∈ Finset.univ.filter (fun j : Fin N => (idx (ix2 j (0 : Fin 2))).toInt = (p.val : Int) ∧ (idx (ix2 j (1 : Fin 2))).toInt = (q.val : Int)), upd (ix1 j) := by
  show Ideal.hostScatterAdd (pointDims A B N wf) x idx upd (ix2 p q) = _
  unfold Ideal.hostScatterAdd
  congr 1
  refine Finset.sum_equiv idxEquiv1 ?_ ?_
  · intro j'
    obtain ⟨j, rfl⟩ : ∃ j, j' = ix1 j := ⟨j' 0, eq_ix1 j'⟩
    simp only [Finset.mem_filter, Finset.mem_univ, true_and]
    exact point_resultIdx?_iff wf idx j p q
  · intro j' _
    exact congrArg upd (eq_ix1 j')

/-! ## One row update per index -/

/-- one row update per index: updates [N,C] (window axis 1), indices [N,1] (index vector on axis 1), operand [A,C], rows inserted on axis 0 -/
abbrev rowDims (A C N : Nat) (wf : ScatterDims.WF ⟨2, ![A, C]⟩ ⟨2, ![N, 1]⟩ ⟨2, ![N, C]⟩ [1] [0] [0] 1) :
    ScatterDims ⟨2, ![A, C]⟩ ⟨2, ![N, 1]⟩ ⟨2, ![N, C]⟩ := ⟨[1], [0], [0], 1, wf⟩

section Rows
variable {A C N w : Nat} (wf : ScatterDims.WF ⟨2, ![A, C]⟩ ⟨2, ![N, 1]⟩ ⟨2, ![N, C]⟩ [1] [0] [0] 1)

/-- Every element of update row `j` reads its one start component at position `(j, 0)` of the index array. -/
theorem rows_siIdx (j : Fin N) (b : Fin C) (c : Fin (rowDims A C N wf).scatterDimsToOperandDims.length) :
    (rowDims A C N wf).siIdx (ix2 j b) c = ix2 j (0 : Fin 1) := by
  funext k; refine Fin.ext ?_
  match k with
  | ⟨0, _⟩ => rfl
  | ⟨1, _⟩ =>
    show c.val = 0
    have : c.val < 1 := c.isLt
    omega

/-- On the row axis the start is the row index, read signed. -/
theorem rows_start0 (idx : IVec ⟨2, ![N, 1]⟩ w) (j : Fin N) (b : Fin C) :
    (rowDims A C N wf).start (ix2 j b) idx (0 : Fin 2) = (idx (ix2 j (0 : Fin 1))).toInt := by
  unfold ScatterDims.start
  rw [dif_pos (show (0 : Fin 2) ∈ (rowDims A C N wf).scatterDimsToOperandDims from List.mem_cons_self)]
  rw [rows_siIdx]

/-- The column axis is not indexed: its start is zero. -/
theorem rows_start1 (idx : IVec ⟨2, ![N, 1]⟩ w) (j : Fin N) (b : Fin C) :
    (rowDims A C N wf).start (ix2 j b) idx (1 : Fin 2) = 0 := by
  unfold ScatterDims.start
  rw [dif_neg (show (1 : Fin 2) ∉ (rowDims A C N wf).scatterDimsToOperandDims from by
    show (1 : Fin 2) ∉ ([0] : List (Fin 2))
    decide)]

/-- The row axis is inserted: no window coordinate there. -/
theorem rows_window0 (j : Fin N) (b : Fin C) : (rowDims A C N wf).window (ix2 j b) (0 : Fin 2) = 0 := by
  unfold ScatterDims.window
  rw [dif_neg (show (0 : Fin 2) ∉ (rowDims A C N wf).sKept from by
    show (0 : Fin 2) ∉ ([1] : List (Fin 2))
    decide)]

/-- On the column axis the window coordinate is the update's column. -/
theorem rows_window1 (j : Fin N) (b : Fin C) : (rowDims A C N wf).window (ix2 j b) (1 : Fin 2) = b.val := by
  unfold ScatterDims.window
  rw [dif_pos (show (1 : Fin 2) ∈ (rowDims A C N wf).sKept from by
    have : (rowDims A C N wf).sKept = [1] := rfl
    rw [this]; exact List.mem_cons_self)]
  rfl

/-- An update element lands on `(p, b)` exactly when its row's index, read signed, is `p` and its column is `b`. -/
theorem rows_resultIdx?_iff (idx : IVec ⟨2, ![N, 1]⟩ w) (j' : (⟨2, ![N, C]⟩ : Shape).Idx) (p : Fin A) (b : Fin C) :
    (rowDims A C N wf).resultIdx? j' idx = some (ix2 p b)
      ↔ (idx (ix2 (j' 0) (0 : Fin 1))).toInt = (p.val : Int) ∧ j' 1 = b := by
  obtain ⟨j, b', rfl⟩ : ∃ j b', j' = ix2 j b' := ⟨j' 0, j' 1, eq_ix2 j'⟩
  show _ ↔ (idx (ix2 j (0 : Fin 1))).toInt = (p.val : Int) ∧ b' = b
  rw [resultIdx?_eq_some_iff, Fin.forall_fin_two, rows_start0, rows_start1, rows_window0, rows_window1]
  simp only [Nat.cast_zero, add_zero, zero_add]
  constructor
  · rintro ⟨h0, h1⟩
    exact ⟨h0, Fin.ext (Int.ofNat_inj.mp h1)⟩
  · rintro ⟨h0, rfl⟩
    exact ⟨h0, rfl⟩

end Rows

/-- THE ROW SCATTER READ AT `(p, b)`: the operand's element plus the sum, over the update rows whose index read
    signed is `p`, of that row's element in column `b`; a row whose index is outside the operand is in no such sum. -/
theorem scatterAdd_rows_apply {A C N w : Nat} {φ : FTy} (wf : ScatterDims.WF ⟨2, ![A, C]⟩ ⟨2, ![N, 1]⟩ ⟨2, ![N, C]⟩ [1] [0] [0] 1)
    (x : FVec Ideal ⟨2, ![A, C]⟩ φ) (idx : IVec ⟨2, ![N, 1]⟩ w) (upd : FVec Ideal ⟨2, ![N, C]⟩ φ) (p : Fin A) (b : Fin C) :
    Host.scatterAdd (rowDims A C N wf) x idx upd (ix2 p b)
      = x (ix2 p b) + ∑ j ∈ Finset.univ.filter (fun j : Fin N => (idx (ix2 j (0 : Fin 1))).toInt = (p.val : Int)), upd (ix2 j b) := by
  show Ideal.hostScatterAdd (rowDims A C N wf) x idx upd (ix2 p b) = _
  unfold Ideal.hostScatterAdd
  congr 1
  have hcol : ∀ j' ∈ Finset.univ.filter (fun j' => (rowDims A C N wf).resultIdx? j' idx = some (ix2 p b)),
      ix2 (j' 0) b = j' := by
    intro j' hj'
    rw [Finset.mem_filter] at hj'
    have h := ((rows_resultIdx?_iff wf idx j' p b).mp hj'.2).2
    rw [← h]
    exact (eq_ix2 j').symm
  refine Finset.sum_nbij' (fun j' => j' 0) (fun j => ix2 j b) ?_ ?_ ?_ ?_ ?_
  · intro j' hj'
    rw [Finset.mem_filter] at hj'
    exact Finset.mem_filter.mpr ⟨Finset.mem_univ _, ((rows_resultIdx?_iff wf idx j' p b).mp hj'.2).1⟩
  · intro j hj
    rw [Finset.mem_filter] at hj
    exact Finset.mem_filter.mpr ⟨Finset.mem_univ _, (rows_resultIdx?_iff wf idx (ix2 j b) p b).mpr ⟨hj.2, rfl⟩⟩
  · exact hcol
  · intro j _
    rfl
  · intro j' hj'
    exact congrArg upd (hcol j' hj').symm

/-! ## Taking rows of a table -/

/-- take rows of a table [A,C] at indices [N,1]: result [N,C]; offset_dims [1], collapsed [0], start_index_map [0], index vector on axis 1, slice sizes [1, C] -/
abbrev rowGather (A C N : Nat) (wf : GatherDims.WF ⟨2, ![A, C]⟩ ⟨2, ![N, 1]⟩ ⟨2, ![N, C]⟩ [1] [0] [] [0] [] 1 ![1, C]) :
    GatherDims ⟨2, ![A, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

section Gather
variable {A C N w : Nat} (wf : GatherDims.WF ⟨2, ![A, C]⟩ ⟨2, ![N, 1]⟩ ⟨2, ![N, C]⟩ [1] [0] [] [0] [] 1 ![1, C])

/-- Every element of result row `j` reads its one start component at position `(j, 0)` of the index array. -/
theorem gather_siIdx (j : Fin N) (b : Fin C) (c : Fin (rowGather A C N wf).startIndexMap.length) :
    (rowGather A C N wf).siIdx (ix2 j b) c = ix2 j (0 : Fin 1) := by
  funext k; refine Fin.ext ?_
  match k with
  | ⟨0, _⟩ => rfl
  | ⟨1, _⟩ =>
    show c.val = 0
    have : c.val < 1 := c.isLt
    omega

/-- On the row axis the operand coordinate is the row index, read signed and clamped into `[0, A − 1]`. -/
theorem gather_coord0 (idx : IVec ⟨2, ![N, 1]⟩ w) (j : Fin N) (b : Fin C) :
    (rowGather A C N wf).start (ix2 j b) idx (0 : Fin 2) + (rowGather A C N wf).batchCoord (ix2 j b) (0 : Fin 2)
        + (rowGather A C N wf).offCoord (ix2 j b) (0 : Fin 2)
      = min (idx (ix2 j (0 : Fin 1))).toInt.toNat (A - 1) := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (rowGather A C N wf).startIndexMap from List.mem_cons_self)]
  rw [gather_siIdx]
  rfl

/-- On the column axis the operand coordinate is the result's column. -/
theorem gather_coord1 (idx : IVec ⟨2, ![N, 1]⟩ w) (j : Fin N) (b : Fin C) :
    (rowGather A C N wf).start (ix2 j b) idx (1 : Fin 2) + (rowGather A C N wf).batchCoord (ix2 j b) (1 : Fin 2)
        + (rowGather A C N wf).offCoord (ix2 j b) (1 : Fin 2)
      = b.val := by
  have hs : (rowGather A C N wf).start (ix2 j b) idx (1 : Fin 2) = 0 := by
    unfold GatherDims.start
    rw [dif_neg (show (1 : Fin 2) ∉ (rowGather A C N wf).startIndexMap from by
      show (1 : Fin 2) ∉ ([0] : List (Fin 2))
      decide)]
  rw [hs, GatherDims.batchCoord_eq_zero _ _ _ List.not_mem_nil]
  simp only [Nat.add_zero, Nat.zero_add]
  unfold GatherDims.offCoord
  rw [dif_pos (show (1 : Fin 2) ∈ (rowGather A C N wf).sKept from by
    rw [GatherDims.mem_sKept]
    exact ⟨by show (1 : Fin 2) ∉ ([0] : List (Fin 2)); decide, List.not_mem_nil⟩)]
  rfl

end Gather

/-- THE ROW GATHER READ AT `(j, b)`: the table's element in column `b` of the row whose number is index `j`, read
    signed and clamped into `[0, A − 1]`. -/
theorem gather_rows_apply {α : Type} {A C N w : Nat} (hA : 0 < A) (wf : GatherDims.WF ⟨2, ![A, C]⟩ ⟨2, ![N, 1]⟩ ⟨2, ![N, C]⟩ [1] [0] [] [0] [] 1 ![1, C])
    (x : (⟨2, ![A, C]⟩ : Shape).Idx → α) (idx : IVec ⟨2, ![N, 1]⟩ w) (j : Fin N) (b : Fin C) :
    Host.gather (rowGather A C N wf) x idx (ix2 j b)
      = x (ix2 ⟨min (idx (ix2 j (0 : Fin 1))).toInt.toNat (A - 1), by omega⟩ b) := by
  unfold Host.gather
  congr 1
  funext a
  refine Fin.ext ?_
  match a with
  | ⟨0, _⟩ => exact gather_coord0 wf idx j b
  | ⟨1, _⟩ => exact gather_coord1 wf idx j b

end Cert.ScatterRows

end
-- ==== Proof.LibGather.lean ====
/-
  The host's gather along one axis and the concatenation of two vectors, read at one index, for sizes that are
  variables.

  A gather reads, for each element of its result, one element of its table: on every table axis the coordinate is a
  start (an entry of the index array read as a SIGNED integer, its non-negative part clamped so that the slice stays
  inside the table; zero on an axis the index array does not address) plus a batching coordinate (none here) plus an
  offset coordinate (the result's coordinate on the offset axis standing for that table axis; zero on a collapsed axis).
  * ONE AXIS: table [A], indices [N, 1], result [N]. Entry j of the result is the table's entry
    min (index j)⁺ (A − 1) (gather_vec_apply).
  * COLUMNS: table [B, A], indices [N, 1], result [B, N]. Element (b, j) of the result is the table's element in
    row b and column min (index j)⁺ (A − 1) (gather_cols_apply).
  Last, two vectors [M] and [K] laid end to end along their only axis: entry i < M of the result is the first
  vector's entry i, and entry M + k is the second vector's entry k (concat_vec_lo, concat_vec_hi).
-/
import Idealize.ShloMosaic.PureOps.Ideal
import Idealize.ShloMosaic.Lib.ValueIdx
import Idealize.ShloMosaic.Lib.Pipeline.Value

noncomputable section

namespace Cert.Gather

open Idealize.ShloMosaic Idealize.ShloMosaic.ValueIdx

/-! ## Taking entries of a vector -/

/-- take entries of a table [A] at indices [N,1]: result [N]; no offset axis, the table's only axis collapsed and
    addressed by the one index component, index vector on axis 1, slice size 1 -/
abbrev vecGather (A N : Nat) (wf : GatherDims.WF ⟨1, ![A]⟩ ⟨2, ![N, 1]⟩ ⟨1, ![N]⟩ [] [0] [] [0] [] 1 ![1]) :
    GatherDims ⟨1, ![A]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

section Vec
variable {A N w : Nat} (wf : GatherDims.WF ⟨1, ![A]⟩ ⟨2, ![N, 1]⟩ ⟨1, ![N]⟩ [] [0] [] [0] [] 1 ![1])

/-- Result entry j reads its one start component at position (j, 0) of the index array. -/
theorem vec_siIdx (j : Fin N) (c : Fin (vecGather A N wf).startIndexMap.length) :
    (vecGather A N wf).siIdx (ix1 j) c = ix2 j (0 : Fin 1) := by
  funext k; refine Fin.ext ?_
  match k with
  | ⟨0, _⟩ => rfl
  | ⟨1, _⟩ =>
    show c.val = 0
    have : c.val < 1 := c.isLt
    omega

/-- On the table's only axis the coordinate is the index, read signed and clamped into [0, A − 1]. -/
theorem vec_coord (idx : IVec ⟨2, ![N, 1]⟩ w) (j : Fin N) :
    (vecGather A N wf).start (ix1 j) idx (0 : Fin 1) + (vecGather A N wf).batchCoord (ix1 j) (0 : Fin 1)
        + (vecGather A N wf).offCoord (ix1 j) (0 : Fin 1)
      = min (idx (ix2 j (0 : Fin 1))).toInt.toNat (A - 1) := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 1) ∈ (vecGather A N wf).startIndexMap from List.mem_cons_self)]
  rw [vec_siIdx]
  rfl

end Vec

/-- THE ONE-AXIS GATHER READ AT j: the table's entry whose number is index j, read signed and clamped into
    [0, A − 1]. -/
theorem gather_vec_apply {α : Type} {A N w : Nat} (hA : 0 < A)
    (wf : GatherDims.WF ⟨1, ![A]⟩ ⟨2, ![N, 1]⟩ ⟨1, ![N]⟩ [] [0] [] [0] [] 1 ![1])
    (x : (⟨1, ![A]⟩ : Shape).Idx → α) (idx : IVec ⟨2, ![N, 1]⟩ w) (j : Fin N) :
    Host.gather (vecGather A N wf) x idx (ix1 j)
      = x (ix1 ⟨min (idx (ix2 j (0 : Fin 1))).toInt.toNat (A - 1), by omega⟩) := by
  unfold Host.gather
  congr 1
  funext a
  refine Fin.ext ?_
  match a with
  | ⟨0, _⟩ => exact vec_coord wf idx j

/-! ## Taking columns of a table -/

/-- take columns of a table [B,A] at indices [N,1]: result [B,N]; offset axis 0 (the table's rows, whole), the column
    axis collapsed and addressed by the one index component, index vector on axis 1, slice sizes [B, 1] -/
abbrev colGather (B A N : Nat) (wf : GatherDims.WF ⟨2, ![B, A]⟩ ⟨2, ![N, 1]⟩ ⟨2, ![B, N]⟩ [0] [1] [] [1] [] 1 ![B, 1]) :
    GatherDims ⟨2, ![B, A]⟩ ⟨2, ![N, 1]⟩ ⟨2, ![B, N]⟩ where
  offsetDims := [0]
  collapsedSliceDims := [1]
  operandBatchingDims := []
  startIndicesBatchingDims := []
  startIndexMap := [1]
  indexVectorDim := 1
  sliceSizes := ![B, 1]
  wf := wf

section Cols
variable {B A N w : Nat} (wf : GatherDims.WF ⟨2, ![B, A]⟩ ⟨2, ![N, 1]⟩ ⟨2, ![B, N]⟩ [0] [1] [] [1] [] 1 ![B, 1])

/-- Every element of result column j reads its one start component at position (j, 0) of the index array. -/
theorem cols_siIdx (b : Fin B) (j : Fin N) (c : Fin (colGather B A N wf).startIndexMap.length) :
    (colGather B A N wf).siIdx (ix2 b j) c = ix2 j (0 : Fin 1) := by
  funext k; refine Fin.ext ?_
  match k with
  | ⟨0, _⟩ => rfl
  | ⟨1, _⟩ =>
    show c.val = 0
    have : c.val < 1 := c.isLt
    omega

/-- On the row axis the table coordinate is the result's row. -/
theorem cols_coord0 (idx : IVec ⟨2, ![N, 1]⟩ w) (b : Fin B) (j : Fin N) :
    (colGather B A N wf).start (ix2 b j) idx (0 : Fin 2) + (colGather B A N wf).batchCoord (ix2 b j) (0 : Fin 2)
        + (colGather B A N wf).offCoord (ix2 b j) (0 : Fin 2)
      = b.val := by
  have hs : (colGather B A N wf).start (ix2 b j) idx (0 : Fin 2) = 0 := by
    unfold GatherDims.start
    rw [dif_neg (show (0 : Fin 2) ∉ (colGather B A N wf).startIndexMap from by
      show (0 : Fin 2) ∉ ([1] : List (Fin 2))
      decide)]
  rw [hs, GatherDims.batchCoord_eq_zero _ _ _ List.not_mem_nil]
  simp only [Nat.add_zero, Nat.zero_add]
  unfold GatherDims.offCoord
  rw [dif_pos (show (0 : Fin 2) ∈ (colGather B A N wf).sKept from by
    rw [GatherDims.mem_sKept]
    exact ⟨by show (0 : Fin 2) ∉ ([1] : List (Fin 2)); decide, List.not_mem_nil⟩)]
  rfl

/-- On the column axis the table coordinate is the index, read signed and clamped into [0, A − 1]. -/
theorem cols_coord1 (idx : IVec ⟨2, ![N, 1]⟩ w) (b : Fin B) (j : Fin N) :
    (colGather B A N wf).start (ix2 b j) idx (1 : Fin 2) + (colGather B A N wf).batchCoord (ix2 b j) (1 : Fin 2)
        + (colGather B A N wf).offCoord (ix2 b j) (1 : Fin 2)
      = min (idx (ix2 j (0 : Fin 1))).toInt.toNat (A - 1) := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (1 : Fin 2) ∈ (colGather B A N wf).startIndexMap from List.mem_cons_self)]
  rw [cols_siIdx]
  rfl

end Cols

/-- THE COLUMN GATHER READ AT (b, j): the table's element in row b of the column whose number is index j, read
    signed and clamped into [0, A − 1]. -/
theorem gather_cols_apply {α : Type} {B A N w : Nat} (hA : 0 < A)
    (wf : GatherDims.WF ⟨2, ![B, A]⟩ ⟨2, ![N, 1]⟩ ⟨2, ![B, N]⟩ [0] [1] [] [1] [] 1 ![B, 1])
    (x : (⟨2, ![B, A]⟩ : Shape).Idx → α) (idx : IVec ⟨2, ![N, 1]⟩ w) (b : Fin B) (j : Fin N) :
    Host.gather (colGather B A N wf) x idx (ix2 b j)
      = x (ix2 b ⟨min (idx (ix2 j (0 : Fin 1))).toInt.toNat (A - 1), by omega⟩) := by
  unfold Host.gather
  congr 1
  funext a
  refine Fin.ext ?_
  match a with
  | ⟨0, _⟩ => exact cols_coord0 wf idx b j
  | ⟨1, _⟩ => exact cols_coord1 wf idx b j

/-! ## Two vectors end to end -/

section Concat
variable {α : Type} {M K T : Nat}

/-- Entry i < M of the vectors [M] and [K] laid end to end is the first vector's entry i. -/
theorem concat_vec_lo (h : Shape.Concatenates [(⟨1, ![M]⟩ : Shape), ⟨1, ![K]⟩] ⟨1, ![T]⟩ 0)
    (a : (⟨1, ![M]⟩ : Shape).Idx → α) (b : (⟨1, ![K]⟩ : Shape).Idx → α) (i : Fin M) (hi : i.val < T) :
    concatenate (⟨1, ![T]⟩ : Shape) 0 [⟨⟨1, ![M]⟩, a⟩, ⟨⟨1, ![K]⟩, b⟩] h (ix1 (⟨i.val, hi⟩ : Fin T)) = a (ix1 i) := by
  refine concatenate_pair_apply_left (0 : Fin 1) a b h (ix1 (⟨i.val, hi⟩ : Fin T)) rfl (ix1 i) ?_
  intro c
  match c with
  | ⟨0, _⟩ => rfl

/-- Entry M + k of the vectors [M] and [K] laid end to end is the second vector's entry k. -/
theorem concat_vec_hi (h : Shape.Concatenates [(⟨1, ![M]⟩ : Shape), ⟨1, ![K]⟩] ⟨1, ![T]⟩ 0)
    (a : (⟨1, ![M]⟩ : Shape).Idx → α) (b : (⟨1, ![K]⟩ : Shape).Idx → α) (k : Fin K) (hk : M + k.val < T) :
    concatenate (⟨1, ![T]⟩ : Shape) 0 [⟨⟨1, ![M]⟩, a⟩, ⟨⟨1, ![K]⟩, b⟩] h (ix1 (⟨M + k.val, hk⟩ : Fin T)) = b (ix1 k) := by
  refine concatenate_pair_apply_right (0 : Fin 1) a b h (ix1 (⟨M + k.val, hk⟩ : Fin T)) rfl rfl (ix1 k) ?_ ?_
  · intro c hc
    exact absurd (Subsingleton.elim _ _) hc
  · show k.val + M = M + k.val
    omega

end Concat

end Cert.Gather

end
-- ==== Proof.LibScatterVec.lean ====
/-
  The host's accumulating scatter along one axis, read at one entry, over the extended reals.

  Updates `[N]`, one-component indices `[N, 1]`, operand `[A]`, for sizes that are variables. Update `j` lands on the
  entry whose number is its index, read as a SIGNED integer and not clamped; when that number is outside the operand
  the update is dropped. So entry `p` of the result is `x p + ∑ {j | index j = p} upd j` (`scatterAdd_vec_apply`): the
  operand's entry plus the sum of the updates whose index, read signed, is `p`; an update whose index is outside the
  operand is in no such sum. The general fact used is `Cert.ScatterRows.resultIdx?_eq_some_iff`: landing on an element is
  the equation "start + window = coordinate" on every axis; here there is one axis, the start is the index and the
  window coordinate is zero.
-/
import Idealize.ShloMosaic.PureOps.Ideal
import Idealize.ShloMosaic.Lib.ValueIdx
import proofs.«423935_j26499948216429_3_alg».proof.Proof.LibScatterRows

noncomputable section

open scoped BigOperators

namespace Cert.ScatterVec

open Idealize.ShloMosaic Idealize.ShloMosaic.ValueIdx

/-- one scalar update per index: updates [N], indices [N,1] (index vector on axis 1), operand [A] -/
abbrev vecDims (A N : Nat) (wf : ScatterDims.WF ⟨1, ![A]⟩ ⟨2, ![N, 1]⟩ ⟨1, ![N]⟩ [] [0] [0] 1) :
    ScatterDims ⟨1, ![A]⟩ ⟨2, ![N, 1]⟩ ⟨1, ![N]⟩ := ⟨[], [0], [0], 1, wf⟩

section Vec
variable {A N w : Nat} (wf : ScatterDims.WF ⟨1, ![A]⟩ ⟨2, ![N, 1]⟩ ⟨1, ![N]⟩ [] [0] [0] 1)

/-- Update `j` reads its one start component at position `(j, 0)` of the index array. -/
theorem vec_siIdx (j : Fin N) (c : Fin (vecDims A N wf).scatterDimsToOperandDims.length) :
    (vecDims A N wf).siIdx (ix1 j) c = ix2 j (0 : Fin 1) := by
  funext b; refine Fin.ext ?_
  match b with
  | ⟨0, _⟩ => rfl
  | ⟨1, _⟩ =>
    show c.val = 0
    have : c.val < 1 := c.isLt
    omega

/-- On the operand's only axis the start is that component, read signed. -/
theorem vec_start (idx : IVec ⟨2, ![N, 1]⟩ w) (j : Fin N) :
    (vecDims A N wf).start (ix1 j) idx (0 : Fin 1) = (idx (ix2 j (0 : Fin 1))).toInt := by
  unfold ScatterDims.start
  rw [dif_pos (show (0 : Fin 1) ∈ (vecDims A N wf).scatterDimsToOperandDims from List.mem_cons_self)]
  rw [vec_siIdx]

/-- The operand's only axis is inserted: a scalar update has no window coordinate. -/
theorem vec_window (j : (⟨1, ![N]⟩ : Shape).Idx) : (vecDims A N wf).window j (0 : Fin 1) = 0 := by
  unfold ScatterDims.window
  rw [dif_neg (show (0 : Fin 1) ∉ (vecDims A N wf).sKept from by
    have : (vecDims A N wf).sKept = [] := rfl
    rw [this]; exact List.not_mem_nil)]

/-- Update `j` lands on entry `p` exactly when its index, read signed, is `p`. -/
theorem vec_resultIdx?_iff (idx : IVec ⟨2, ![N, 1]⟩ w) (j : Fin N) (p : Fin A) :
    (vecDims A N wf).resultIdx? (ix1 j) idx = some (ix1 p) ↔ (idx (ix2 j (0 : Fin 1))).toInt = (p.val : Int) := by
  rw [Cert.ScatterRows.resultIdx?_eq_some_iff, Fin.forall_fin_one, vec_start, vec_window]
  simp only [Nat.cast_zero, add_zero]

end Vec

/-- THE ONE-AXIS SCATTER READ AT `p`: the operand's entry plus the sum of the updates whose index, read signed, is
    `p`; an update whose index is outside the operand is in no such sum. -/
theorem scatterAdd_vec_apply {A N w : Nat} {φ : FTy} (wf : ScatterDims.WF ⟨1, ![A]⟩ ⟨2, ![N, 1]⟩ ⟨1, ![N]⟩ [] [0] [0] 1)
    (x : FVec Ideal ⟨1, ![A]⟩ φ) (idx : IVec ⟨2, ![N, 1]⟩ w) (upd : FVec Ideal ⟨1, ![N]⟩ φ) (p : Fin A) :
    Host.scatterAdd (vecDims A N wf) x idx upd (ix1 p)
      = x (ix1 p) + ∑ j ∈ Finset.univ.filter (fun j : Fin N => (idx (ix2 j (0 : Fin 1))).toInt = (p.val : Int)), upd (ix1 j) := by
  -- the sum over update indices is the sum over their one coordinate
  show Ideal.hostScatterAdd (vecDims A N wf) x idx upd (ix1 p) = _
  unfold Ideal.hostScatterAdd
  congr 1
  refine Finset.sum_equiv Cert.ScatterRows.idxEquiv1 ?_ ?_
  · intro j'
    obtain ⟨j, rfl⟩ : ∃ j, j' = ix1 j := ⟨j' 0, eq_ix1 j'⟩
    simp only [Finset.mem_filter, Finset.mem_univ, true_and]
    exact vec_resultIdx?_iff wf idx j p
  · intro j' _
    exact congrArg upd (eq_ix1 j')

end Cert.ScatterVec

end
-- ==== Proof.HostRead.lean ====
/-
  The host operations both programs apply to the edge array and to the degree vector, read at one index.

  Both programs build each edge's two ends the same way: row r of the [2, 1200000] edge array, flattened, followed by the
  nodes 0 … 99999 in order (one self loop per node). Both wrap a negative index by adding the number of nodes; an index
  that is not negative is unchanged by that. Both count, for every node, the edges that end at it, by scattering ones,
  and turn the count into the node's normaliser by a reciprocal square root guarded by "the count is positive".
-/
import proofs.«423935_j26499948216429_3_alg».proof.Proof.Spec
import proofs.«423935_j26499948216429_3_alg».proof.Proof.LibScatterRows
import proofs.«423935_j26499948216429_3_alg».proof.Proof.LibGather
import proofs.«423935_j26499948216429_3_alg».proof.Proof.LibScatterVec
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.HostRead

open Idealize.ShloMosaic Idealize.ShloMosaic.ValueIdx

abbrev SE : Shape := ⟨2, ![2, 1200000]⟩
abbrev S1E : Shape := ⟨2, ![1, 1200000]⟩
abbrev SEv : Shape := ⟨1, ![1200000]⟩
abbrev SNv : Shape := ⟨1, ![100000]⟩
abbrev SMv : Shape := ⟨1, ![1300000]⟩
abbrev SM1 : Shape := ⟨2, ![1300000, 1]⟩
abbrev S0 : Shape := ⟨0, ![]⟩

/-- THE EDGE ENDS: entry e of "row r of the edge array, flattened, then the nodes in order" is the word Spec.endWord
    names. -/
theorem ends_apply (r : Nat) (hr : r < 2) (E : IVec SE 32) (hsl : SE.Slices ![r, 0] S1E) (hsc : S1E.ShapeCasts SEv)
    (hcc : Shape.Concatenates [SEv, SNv] SMv 0) (e : Fin 1300000) :
    concatenate SMv 0 [⟨SEv, shapeCast SEv (extractStridedSlice S1E ![r, 0] E hsl) hsc⟩, ⟨SNv, iotaInDim SNv 32 0⟩] hcc (ix1 e)
      = Cert.Spec.endWord E ⟨r, hr⟩ e := by
  unfold Cert.Spec.endWord
  split
  · -- one of the given edges: the flattened row keeps the column, and the slice starts at row r
    rename_i h
    have hlo := Cert.Gather.concat_vec_lo (M := 1200000) (K := 100000) (T := 1300000) hcc
      (shapeCast SEv (extractStridedSlice S1E ![r, 0] E hsl) hsc) (iotaInDim SNv 32 0) ⟨e.val, h⟩ e.isLt
    refine hlo.trans ?_
    refine (shapeCast_apply _ hsc (ix1 (⟨e.val, h⟩ : Fin 1200000)) (ix2 (0 : Fin 1) (⟨e.val, h⟩ : Fin 1200000)) ?_).trans ?_
    · rw [Shape.rowMajor_val_two, Shape.rowMajor_val_one]
      show 0 * 1200000 + e.val = e.val
      omega
    · refine extractStridedSlice_apply _ E hsl _ (ix2 (⟨r, hr⟩ : Fin 2) (⟨e.val, h⟩ : Fin 1200000)) ?_
      intro a
      match a with
      | ⟨0, _⟩ => show r = r + 0; omega
      | ⟨1, _⟩ => show e.val = 0 + e.val; omega
  · -- a self loop: entry 1200000 + k of the two vectors laid end to end is node k
    rename_i h
    have hk : e.val - 1200000 < 100000 := by have := e.isLt; omega
    have hk2 : 1200000 + (⟨e.val - 1200000, hk⟩ : Fin 100000).val < 1300000 := by
      show 1200000 + (e.val - 1200000) < 1300000
      have := e.isLt; omega
    have hhi := Cert.Gather.concat_vec_hi (M := 1200000) (K := 100000) (T := 1300000) hcc
      (shapeCast SEv (extractStridedSlice S1E ![r, 0] E hsl) hsc) (iotaInDim SNv 32 0) ⟨e.val - 1200000, hk⟩ hk2
    have he : e = ⟨1200000 + (e.val - 1200000), hk2⟩ := Fin.ext (by show e.val = 1200000 + (e.val - 1200000); omega)
    have hix : (ix1 e : SMv.Idx) = ix1 (⟨1200000 + (e.val - 1200000), hk2⟩ : Fin 1300000) := congrArg (fun z : Fin 1300000 => (ix1 z : SMv.Idx)) he
    rw [hix]
    exact hhi

/-- The word of a node number below 2^31 reads back, signed, as that number. -/
theorem toInt_ofNat_node (n : Nat) (hn : n < 100000) : (BitVec.ofNat 32 n).toInt = (n : Int) := by
  have h1 : (BitVec.ofNat 32 n).toNat = n := by
    rw [BitVec.toNat_ofNat]
    exact Nat.mod_eq_of_lt (by omega)
  rw [BitVec.toInt_eq_toNat_of_lt (by rw [h1]; omega), h1]

/-- WRAPPING A NEGATIVE INDEX leaves an index that is not negative as it is. -/
theorem wrap_apply (v : IVec SMv 32) (hz : S0.BroadcastsInDim SMv (![] : Fin 0 → Fin SMv.rank)) (e : Fin 1300000)
    (h : 0 ≤ (v (ix1 e)).toInt) :
    select (cmpi .slt v (broadcastInDim SMv ![] hz (constantI S0 32 0#32)))
        (addi v (broadcastInDim SMv ![] hz (constantI S0 32 100000#32))) v (ix1 e) = v (ix1 e) := by
  rw [select_apply]
  -- a word that is not negative, read signed, is not below zero: the comparison's bit is 0
  have hc : cmpi .slt v (broadcastInDim SMv ![] hz (constantI S0 32 0#32)) (ix1 e) = 0#1 := by
    show IntOp.cmpi .slt (v (ix1 e)) 0#32 = 0#1
    unfold IntOp.cmpi
    have hs : (v (ix1 e)).slt 0#32 = false := by
      rw [Bool.eq_false_iff]
      intro hlt
      rw [BitVec.slt_iff_toInt_lt] at hlt
      have : (0#32 : BitVec 32).toInt = 0 := by decide
      omega
    simp only [hs]
    rfl
  rw [hc]
  exact select_zero _ _

/-- An index vector laid out as a column reads, at (e, 0), its entry e. -/
theorem column_apply {α : Type} (v : SMv.Idx → α) (hb : SMv.BroadcastsInDim SM1 (![0] : Fin 1 → Fin SM1.rank)) (e : Fin 1300000) :
    broadcastInDim SM1 ![0] hb v (ix2 e (0 : Fin 1)) = v (ix1 e) := by
  refine broadcastInDim_apply ![0] hb v (ix2 e (0 : Fin 1)) (ix1 e) ?_
  intro a
  match a with
  | ⟨0, _⟩ => rfl

/-- one scalar update per index: updates [N], indices [N,1] (index vector on axis 1), operand [A] -/
abbrev vecDims (A N : Nat) (wf : ScatterDims.WF ⟨1, ![A]⟩ ⟨2, ![N, 1]⟩ ⟨1, ![N]⟩ [] [0] [0] 1) :
    ScatterDims ⟨1, ![A]⟩ ⟨2, ![N, 1]⟩ ⟨1, ![N]⟩ := Cert.ScatterVec.vecDims A N wf

/-- THE ONE-AXIS SCATTER READ AT p: the operand's entry plus the sum of the updates whose index, read signed, is p; an
    update whose index is outside the operand is in no such sum. -/
theorem scatterAdd_vec_apply {A N w : Nat} {φ : FTy} (wf : ScatterDims.WF ⟨1, ![A]⟩ ⟨2, ![N, 1]⟩ ⟨1, ![N]⟩ [] [0] [0] 1)
    (x : FVec Ideal ⟨1, ![A]⟩ φ) (idx : IVec ⟨2, ![N, 1]⟩ w) (upd : FVec Ideal ⟨1, ![N]⟩ φ) (p : Fin A) :
    Host.scatterAdd (vecDims A N wf) x idx upd (ix1 p)
      = x (ix1 p) + ∑ j ∈ Finset.univ.filter (fun j : Fin N => (idx (ix2 j (0 : Fin 1))).toInt = (p.val : Int)), upd (ix1 j) :=
  Cert.ScatterVec.scatterAdd_vec_apply wf x idx upd p

/-- THE DEGREES: scattering a one per edge, from zero, at the edges' ends t, leaves at node p the degree of p. -/
theorem deg_apply (t : Fin 1300000 → Fin 100000) (idx : IVec SM1 32)
    (hidx : ∀ e : Fin 1300000, (idx (ix2 e (0 : Fin 1))).toInt = ((t e).val : Int))
    (wf : ScatterDims.WF SNv SM1 SMv [] [0] [0] 1)
    (hbN : S0.BroadcastsInDim SNv (![] : Fin 0 → Fin SNv.rank)) (hbM : S0.BroadcastsInDim SMv (![] : Fin 0 → Fin SMv.rank))
    (p : Fin 100000) :
    Host.scatterAdd (F := Ideal) (vecDims 100000 1300000 wf) (broadcastInDim SNv ![] hbN (constant S0 .f32 0x00000000#32)) idx
        (broadcastInDim SMv ![] hbM (constant S0 .f32 0x3F800000#32)) (ix1 p) = Cert.Spec.deg t p := by
  rw [scatterAdd_vec_apply]
  unfold Cert.Spec.deg
  -- the operand is zero everywhere and every update is one
  have h0 : broadcastInDim SNv ![] hbN (constant (F := Ideal) S0 .f32 0x00000000#32) (ix1 p) = 0 := by
    show Ideal.ofBits .f32 0x00000000#32 = 0
    exact Ideal.ofBits_zero_f32
  have h1 : ∀ j : Fin 1300000, broadcastInDim SMv ![] hbM (constant (F := Ideal) S0 .f32 0x3F800000#32) (ix1 j) = 1 := by
    intro j
    show Ideal.ofBits .f32 0x3F800000#32 = 1
    exact Ideal.ofBits_one_f32
  -- the index of edge e, read signed, is the node t e: the two sets of edges are one set
  have hfilt : Finset.univ.filter (fun j : Fin 1300000 => (idx (ix2 j (0 : Fin 1))).toInt = (p.val : Int))
      = Finset.univ.filter (fun e : Fin 1300000 => t e = p) := by
    apply Finset.filter_congr
    intro e _
    rw [hidx e]
    constructor
    · intro h; exact Fin.ext (Int.ofNat_inj.mp h)
    · intro h; rw [h]
  rw [h0, hfilt, Finset.sum_congr rfl (fun j _ => h1 j)]

/-- THE NORMALISERS: the reciprocal square root of the degree where the degree is positive, zero elsewhere. -/
theorem dinv_apply (t : Fin 1300000 → Fin 100000) (D : FVec Ideal SNv .f32) (hD : ∀ p, D (ix1 p) = Cert.Spec.deg t p)
    (hbN : S0.BroadcastsInDim SNv (![] : Fin 0 → Fin SNv.rank)) (p : Fin 100000) :
    select (cmpf .ogt D (broadcastInDim SNv ![] hbN (constant S0 .f32 0x00000000#32))) (Host.rsqrt D)
        (broadcastInDim SNv ![] hbN (id (constant S0 .f32 0x00000000#32))) (ix1 p) = Cert.Spec.dinv t p := by
  rw [select_apply, cmpf_apply]
  show Scalar.select (Ideal.cmp .ogt (D (ix1 p)) (Ideal.ofBits .f32 0x00000000#32)) (Ideal.rsqrt (D (ix1 p)))
    (Ideal.ofBits .f32 0x00000000#32) = _
  rw [Ideal.ofBits_zero_f32, hD p]
  unfold Cert.Spec.dinv Ideal.cmp
  -- the comparison's bit is 1 exactly when the degree is positive
  by_cases h : 0 < Cert.Spec.deg t p
  · rw [if_pos h]
    simp only [h, decide_true, BitVec.ofBool_true]
    exact select_one _ _
  · rw [if_neg h]
    simp only [h, decide_false, BitVec.ofBool_false]
    exact select_zero _ _

end Cert.HostRead

end
-- ==== Proof.KLayer.lean ====
/-
  One layer of the kernel program at an index: the product with the weights scaled by each node's normaliser, the rows
  gathered at the edges' sources and added at their destinations, the sum scaled by the destination's normaliser, the
  bias and the hyperbolic tangent — as the plain function Spec.layerK of the node features, the weights and the bias.
  With every edge end a node, no gathered row is undefined and the wrap of negative indices changes nothing.
-/
import proofs.«423935_j26499948216429_3_alg».proof.Proof.KTerms
import proofs.«423935_j26499948216429_3_alg».proof.Proof.Spec
import proofs.«423935_j26499948216429_3_alg».proof.Proof.HostRead
import proofs.«423935_j26499948216429_3_alg».proof.Proof.LibScatterRows
import proofs.«423935_j26499948216429_3_alg».proof.Proof.LibGather
import Idealize.ShloMosaic.Lib.Pipeline.Value
import Idealize.ShloMosaic.Lib.ValueIdx
import Idealize.ShloMosaic.Lib.ValueLayout
import Idealize.ShloMosaic.Lib.ReduceAll
import Idealize.ShloMosaic.PureOps.Ideal.Laws

set_option maxRecDepth 16384

noncomputable section

open scoped BigOperators

namespace Cert.KernelIdeal.KLayer

open Idealize.ShloMosaic Idealize.ShloMosaic.ValueIdx
open Cert.KernelIdeal Cert.KernelIdeal.Gen Cert.Spec

/-! ## A reduction by "and" of bits that are all 1 -/

/-- A left fold by "and" over one-bit words that are all 1, started at 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    have h11 : IntOp.andi (1#1 : BitVec 1) 1#1 = 1#1 := by decide
    rw [h11]
    exact foldl_andi_one f l (fun n hn => h n (List.mem_cons_of_mem _ hn))

/-- A reduction by "and", from 1, of one-bit words that are all 1 is 1 at every index. -/
theorem reduce_andi_one {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_one x _ (fun i _ => hx i)

/-! ## The index vectors -/

/-- the sources: row 0 of the edge array, then the nodes in order -/
theorem ends0_apply (E : IVec S2x1200000 32) (e : Fin 1300000) : KT.ends0 E (ix1 e) = endWord E 0 e := by
  unfold KT.ends0
  exact Cert.HostRead.ends_apply 0 (by decide) E _ _ _ e

/-- the destinations: row 1 of the edge array, then the nodes in order -/
theorem ends1_apply (E : IVec S2x1200000 32) (e : Fin 1300000) : KT.ends1 E (ix1 e) = endWord E 1 e := by
  unfold KT.ends1
  exact Cert.HostRead.ends_apply 1 (by decide) E _ _ _ e

/-- The column of wrapped indices reads, at (e, 0), the index e itself when that index is not negative. -/
theorem colwrap_apply (v : IVec S1300000 32) (e : Fin 1300000) (h : 0 ≤ (v (ix1 e)).toInt) :
    KT.col (KT.wrap v) (ix2 e (0 : Fin 1)) = v (ix1 e) := by
  unfold KT.col
  refine (Cert.HostRead.column_apply (KT.wrap v) _ e).trans ?_
  unfold KT.wrap
  exact Cert.HostRead.wrap_apply v _ e h

/-- When every index names a node, the column of wrapped indices reads, signed, that node. -/
theorem colwrap_toInt (v : IVec S1300000 32) (n : Fin 1300000 → Fin 100000)
    (hv : ∀ e, (v (ix1 e)).toInt = ((n e).val : Int)) (e : Fin 1300000) :
    (KT.col (KT.wrap v) (ix2 e (0 : Fin 1))).toInt = ((n e).val : Int) := by
  rw [colwrap_apply v e (by rw [hv e]; omega), hv e]

/-! ## Degrees and normalisers -/

theorem deg_apply (v : IVec S1300000 32) (t : Fin 1300000 → Fin 100000)
    (hv : ∀ e, (v (ix1 e)).toInt = ((t e).val : Int)) (p : Fin 100000) : KT.deg (F := Ideal) v (ix1 p) = Cert.Spec.deg t p := by
  unfold KT.deg
  exact Cert.HostRead.deg_apply t (KT.col (KT.wrap v)) (colwrap_toInt v t hv)
    scatter_S100000_S1300000x1_S1300000_n_0_0_1_wf bcast_S_S100000 bcast_S_S1300000 p

theorem dinv_apply (v : IVec S1300000 32) (t : Fin 1300000 → Fin 100000)
    (hv : ∀ e, (v (ix1 e)).toInt = ((t e).val : Int)) (p : Fin 100000) : KT.dinv (F := Ideal) v (ix1 p) = Cert.Spec.dinv t p := by
  unfold KT.dinv
  exact Cert.HostRead.dinv_apply t (KT.deg (F := Ideal) v) (deg_apply v t hv) bcast_S_S100000 p

/-- the normalisers as a column: entry (p, 0) is the normaliser of p -/
theorem dinv2_apply (v : IVec S1300000 32) (p : Fin 100000) :
    KT.dinv2 (F := Ideal) v (ix2 p (0 : Fin 1)) = KT.dinv (F := Ideal) v (ix1 p) := by
  unfold KT.dinv2
  refine shapeCast_apply _ _ (ix2 p (0 : Fin 1)) (ix1 p) ?_
  rw [Shape.rowMajor_val_one, Shape.rowMajor_val_two]
  show p.val = p.val * 1 + 0
  omega

/-- a bias as a one-row matrix: entry (0, q) is entry q -/
theorem row64_apply (b : FVec Ideal S64 .f32) (q : Fin 64) : KT.row64 b (ix2 (0 : Fin 1) q) = b (ix1 q) := by
  unfold KT.row64
  refine shapeCast_apply _ _ (ix2 (0 : Fin 1) q) (ix1 q) ?_
  rw [Shape.rowMajor_val_one, Shape.rowMajor_val_two]
  show q.val = 0 * 64 + q.val
  omega

theorem row32_apply (b : FVec Ideal S32 .f32) (q : Fin 32) : KT.row32 b (ix2 (0 : Fin 1) q) = b (ix1 q) := by
  unfold KT.row32
  refine shapeCast_apply _ _ (ix2 (0 : Fin 1) q) (ix1 q) ?_
  rw [Shape.rowMajor_val_one, Shape.rowMajor_val_two]
  show q.val = 0 * 32 + q.val
  omega

/-! ## The gathered rows -/

/-- An index column whose entries, read signed, are all in [0, 99999] passes both range tests everywhere. -/
theorem inrange_one (I : IVec S1300000x1 32)
    (hI : ∀ e : Fin 1300000, 0 ≤ (I (ix2 e (0 : Fin 1))).toInt ∧ (I (ix2 e (0 : Fin 1))).toInt ≤ 99999) (i : S1300000x1.Idx) :
    andi (cmpi .sge I (broadcastInDim S1300000x1 ![] bcast_S_S1300000x1 (constantI S_ 32 0#32)))
      (cmpi .sle I (broadcastInDim S1300000x1 ![0, 1] bcast_S1x1_S1300000x1_0_1
        (broadcastInDim S1x1 ![1] bcast_S1_S1x1_1 (constantI S1 32 99999#32)))) i = 1#1 := by
  obtain ⟨e, z, rfl⟩ : ∃ e z, i = ix2 e z := ⟨i 0, i 1, eq_ix2 i⟩
  have hz : z = 0 := Subsingleton.elim _ _
  subst hz
  show IntOp.andi (IntOp.cmpi .sge (I (ix2 e (0 : Fin 1))) 0#32) (IntOp.cmpi .sle (I (ix2 e (0 : Fin 1))) 99999#32) = 1#1
  rw [IntOp.andi_eq_one, IntOp.cmpi_sge, IntOp.cmpi_sle]
  have h0 : (0#32 : BitVec 32).toInt = 0 := by decide
  have h9 : (99999#32 : BitVec 32).toInt = 99999 := by decide
  rw [h0, h9]
  exact hI e

/-- A select on a row mask that is 1 at row e picks the first operand on that row. -/
theorem select_rowmask_one {α : Type} (m : IVec S1300000 1) (a b : S1300000x64.Idx → α) (e : Fin 1300000) (q : Fin 64)
    (hm : m (ix1 e) = 1#1) :
    select (broadcastInDim S1300000x64 ![0] bcast_S1300000_S1300000x64_0 m) a b (ix2 e q) = a (ix2 e q) := by
  rw [select_apply]
  have hb : broadcastInDim S1300000x64 ![0] bcast_S1300000_S1300000x64_0 m (ix2 e q) = m (ix1 e) :=
    broadcastInDim_apply ![0] bcast_S1300000_S1300000x64_0 m (ix2 e q) (ix1 e) (fun a => match a with | ⟨0, _⟩ => rfl)
  rw [hb, hm, select_one]

/-- When every index names a node, the row taken for edge e is the row of that node: no row is filled. -/
theorem take_apply (hs : FVec Ideal S100000x64 .f32) (v : IVec S1300000 32) (n : Fin 1300000 → Fin 100000)
    (hv : ∀ e, (v (ix1 e)).toInt = ((n e).val : Int)) (e : Fin 1300000) (q : Fin 64) :
    KT.take hs v (ix2 e q) = hs (ix2 (n e) q) := by
  unfold KT.take
  have hI : ∀ e : Fin 1300000, 0 ≤ (KT.col (KT.wrap v) (ix2 e (0 : Fin 1))).toInt
      ∧ (KT.col (KT.wrap v) (ix2 e (0 : Fin 1))).toInt ≤ 99999 := by
    intro e'
    rw [colwrap_toInt v n hv e']
    have := (n e').isLt
    omega
  refine (select_rowmask_one _ _ _ e q
    (reduce_andi_one _ _ _ _ _ (fun _ => rfl) (inrange_one (KT.col (KT.wrap v)) hI))).trans ?_
  refine (Cert.ScatterRows.gather_rows_apply (by decide) gather_S100000x64_S1300000x1_S1300000x64_1_0_n_n_0_1_164_wf hs
    (KT.col (KT.wrap v)) e q).trans (congrArg (fun r : Fin 100000 => hs (ix2 r q)) (Fin.ext ?_))
  show min (KT.col (KT.wrap v) (ix2 e (0 : Fin 1))).toInt.toNat (100000 - 1) = (n e).val
  rw [colwrap_toInt v n hv e]
  have := (n e).isLt
  omega

/-! ## The rows added at their destinations -/

/-- Entry (p, q) of the aggregate: from zero, the sum over the edges whose destination index reads p of the row taken
    for the edge, in column q. -/
theorem agg_apply (hs : FVec Ideal S100000x64 .f32) (src dst : IVec S1300000 32) (p : Fin 100000) (q : Fin 64) :
    KT.agg hs src dst (ix2 p q)
      = 0 + ∑ e ∈ Finset.univ.filter (fun e : Fin 1300000 => (KT.col (KT.wrap dst) (ix2 e (0 : Fin 1))).toInt = (p.val : Int)),
          KT.take hs src (ix2 e q) := by
  unfold KT.agg
  refine (Cert.ScatterRows.scatterAdd_rows_apply scatter_S100000x64_S1300000x1_S1300000x64_1_0_0_1_wf _
    (KT.col (KT.wrap dst)) (KT.take hs src) p q).trans ?_
  have h0 : broadcastInDim S100000x64 ![] bcast_S_S100000x64 (constant (F := Ideal) S_ .f32 0x00000000#32) (ix2 p q) = 0 := by
    show Ideal.ofBits .f32 0x00000000#32 = 0
    exact Ideal.ofBits_zero_f32
  rw [h0]

/-! ## The plain functions read at an index -/

theorem biasTanh_apply (A : (⟨2, ![100000, 64]⟩ : Shape).Idx → EReal) (D : (⟨2, ![100000, 1]⟩ : Shape).Idx → EReal)
    (B : (⟨2, ![1, 64]⟩ : Shape).Idx → EReal) (p : Fin 100000) (q : Fin 64) :
    biasTanh A D B (ix2 p q) = Ideal.tanh (A (ix2 p q) * D (ix2 p (0 : Fin 1)) + B (ix2 (0 : Fin 1) q)) := rfl

theorem linScale_apply (x : (⟨2, ![100000, 64]⟩ : Shape).Idx → EReal) (W : (⟨2, ![64, 64]⟩ : Shape).Idx → EReal)
    (D : (⟨2, ![100000, 1]⟩ : Shape).Idx → EReal) (p : Fin 100000) (q : Fin 64) :
    linScale x W D (ix2 p q) = (∑ k : Fin 64, x (ix2 p k) * W (ix2 k q)) * D (ix2 p (0 : Fin 1)) := rfl

theorem linBias_apply (x : (⟨2, ![100000, 64]⟩ : Shape).Idx → EReal) (W : (⟨2, ![64, 32]⟩ : Shape).Idx → EReal)
    (B : (⟨2, ![1, 32]⟩ : Shape).Idx → EReal) (p : Fin 100000) (q : Fin 32) :
    linBias x W B (ix2 p q) = (∑ k : Fin 64, x (ix2 p k) * W (ix2 k q)) + B (ix2 (0 : Fin 1) q) := rfl

theorem arr2_apply {A B : Nat} (f : Fin A → Fin B → EReal) (p : Fin A) (q : Fin B) : arr2 f (ix2 p q) = f p q := rfl

theorem layerK_apply (s t : Fin 1300000 → Fin 100000) (x : Fin 100000 → Fin 64 → EReal) (W : Fin 64 → Fin 64 → EReal)
    (b : Fin 64 → EReal) (p : Fin 100000) (q : Fin 64) :
    layerK s t x W b p q
      = Ideal.tanh ((0 + ∑ e ∈ Finset.univ.filter (fun e : Fin 1300000 => t e = p), mm x W (s e) q * Cert.Spec.dinv t (s e))
          * Cert.Spec.dinv t p + b q) := rfl

/-! ## One layer, and the classifier -/

/-- ONE LAYER of the kernel program is Spec.layerK, when the edges' ends are the nodes s and t. -/
theorem layer_eq (E : IVec S2x1200000 32) (s t : Fin 1300000 → Fin 100000) (hst : EndsAre E s t)
    (h : FVec Ideal S100000x64 .f32) (W : FVec Ideal S64x64 .f32) (b : FVec Ideal S64 .f32) :
    biasTanh (KT.agg (F := Ideal) (linScale h W (KT.dinv2 (F := Ideal) (KT.ends1 E))) (KT.ends0 E) (KT.ends1 E)) (KT.dinv2 (F := Ideal) (KT.ends1 E)) (KT.row64 (F := Ideal) b)
      = arr2 (layerK s t (mat h) (mat W) (vec b)) := by
  -- the two index vectors name the edges' ends
  have hs0 : ∀ e, (KT.ends0 E (ix1 e)).toInt = ((s e).val : Int) := fun e => by rw [ends0_apply]; exact hst.1 e
  have ht1 : ∀ e, (KT.ends1 E (ix1 e)).toInt = ((t e).val : Int) := fun e => by rw [ends1_apply]; exact hst.2 e
  -- the normaliser column reads the normaliser of its row's node
  have hD : ∀ p : Fin 100000, KT.dinv2 (F := Ideal) (KT.ends1 E) (ix2 p (0 : Fin 1)) = Cert.Spec.dinv t p := fun p => by
    rw [dinv2_apply, dinv_apply _ t ht1]
  funext i
  obtain ⟨p, q, rfl⟩ : ∃ p q, i = ix2 p q := ⟨i 0, i 1, eq_ix2 i⟩
  rw [biasTanh_apply, arr2_apply, layerK_apply, hD p, row64_apply, agg_apply]
  -- the edges whose destination index reads p are the edges that end at p
  have hfilt : Finset.univ.filter (fun e : Fin 1300000 => (KT.col (KT.wrap (KT.ends1 E)) (ix2 e (0 : Fin 1))).toInt = (p.val : Int))
      = Finset.univ.filter (fun e : Fin 1300000 => t e = p) := by
    apply Finset.filter_congr
    intro e _
    rw [colwrap_toInt _ t ht1 e]
    constructor
    · intro h'; exact Fin.ext (Int.ofNat_inj.mp h')
    · intro h'; rw [h']
  -- the row taken for edge e is the source's row of the product, scaled by the source's normaliser
  have hterm : ∀ e : Fin 1300000, KT.take (F := Ideal) (linScale h W (KT.dinv2 (F := Ideal) (KT.ends1 E))) (KT.ends0 E) (ix2 e q)
      = mm (mat h) (mat W) (s e) q * Cert.Spec.dinv t (s e) := by
    intro e
    rw [take_apply _ _ s hs0 e q, linScale_apply, hD (s e)]
    rfl
  rw [hfilt, Finset.sum_congr rfl (fun e _ => hterm e)]
  rfl

/-- THE CLASSIFIER on top of the second layer is Spec.outOf. -/
theorem out_eq (h : FVec Ideal S100000x64 .f32) (Wc : FVec Ideal S64x32 .f32) (bc : FVec Ideal S32 .f32) :
    linBias h Wc (KT.row32 (F := Ideal) bc) = arr2 (outOf (mat h) (mat Wc) (vec bc)) := by
  funext i
  obtain ⟨p, q, rfl⟩ : ∃ p q, i = ix2 p q := ⟨i 0, i 1, eq_ix2 i⟩
  rw [linBias_apply, arr2_apply, row32_apply]
  rfl

end Cert.KernelIdeal.KLayer

end
-- ==== Proof.KValue.lean ====
/-
  The kernel program's two results as functions of its arguments: the contents of the two result buffers at the last
  boundary of the run, read back through the five regions and the host operations between them. Each region's output
  array is a dense pass of the arrays it reads (the region theorems); between the regions the rows are gathered at the
  edges' sources and added at their destinations; the normalisers' column, the edges' ends and the arguments pass
  through every stage unchanged. Two layers of Spec.layerK, then the classifier.
-/
import proofs.«423935_j26499948216429_3_alg».proof.Proof.KFoldA
import proofs.«423935_j26499948216429_3_alg».proof.Proof.KFoldB
import proofs.«423935_j26499948216429_3_alg».proof.Proof.KFoldC
import proofs.«423935_j26499948216429_3_alg».proof.Proof.Region0
import proofs.«423935_j26499948216429_3_alg».proof.Proof.Region1
import proofs.«423935_j26499948216429_3_alg».proof.Proof.Region2
import proofs.«423935_j26499948216429_3_alg».proof.Proof.Region3
import proofs.«423935_j26499948216429_3_alg».proof.Proof.Region4
import proofs.«423935_j26499948216429_3_alg».proof.Proof.KLayer

set_option maxRecDepth 16384

noncomputable section

namespace Cert.KernelIdeal.KValue

open Idealize.ShloMosaic Idealize.ShloMosaic.TcCoe Idealize.ShloMosaic.ValueIdx
open Cert.KernelIdeal Cert.KernelIdeal.Gen Cert.Spec

variable (m : (ℓ : Loc nD τ sig) → Buf (Elt Ideal) ℓ) (ρ : Dev nD → PrngReg)

/-- reading a function of row and column back from its array gives the function -/
theorem mat_arr2 {A B : Nat} (f : Fin A → Fin B → EReal) : mat (arr2 f) = f := rfl

/-- the normalisers' column, as every region finds it -/
abbrev dcol (c : Dev nD) : FVec Ideal S100000x1 .f32 := KT.dinv2 (F := Ideal) (KT.ends1 (m ((c.tc : Thread nD τ).loc main_arg1)))

/-- REGION 0's output: the features times the first weights, rows scaled by the normalisers. -/
theorem hs1_eq (c : Dev nD) :
    W4 (F := Ideal) m ρ c (Proc.devRef .tc main_v21)
      = linScale (m ((c.tc : Thread nD τ).loc main_arg0)) (m ((c.tc : Thread nD τ).loc main_arg2)) (dcol m c) := by
  rw [KFoldA.w4_v21 m ρ c, Region0.arr (V3 m ρ) c]
  show linScale (W3 m ρ c (Proc.devRef .tc main_arg0)) (W3 m ρ c (Proc.devRef .tc main_arg2)) (W3 m ρ c (Proc.devRef .tc main_v20)) = _
  rw [KFoldA.w3_arg0 m ρ c, KFoldA.w3_arg2 m ρ c, KFoldA.w3_v20 m ρ c]

/-- REGION 1's output: the first layer. -/
theorem h1_eq (c : Dev nD) (s t : Fin 1300000 → Fin 100000)
    (hst : EndsAre (m ((c.tc : Thread nD τ).loc main_arg1)) s t) :
    W7 (F := Ideal) m ρ c (Proc.devRef .tc main_v32)
      = arr2 (layerK s t (mat (m ((c.tc : Thread nD τ).loc main_arg0))) (mat (m ((c.tc : Thread nD τ).loc main_arg2)))
          (vec (m ((c.tc : Thread nD τ).loc main_arg3)))) := by
  rw [KFoldB.w7_v32 m ρ c, Region1.arr (V6 m ρ) c]
  show biasTanh (W6 m ρ c (Proc.devRef .tc main_v30)) (W6 m ρ c (Proc.devRef .tc main_v20)) (W6 m ρ c (Proc.devRef .tc main_v31)) = _
  rw [KFoldB.w6_v30 m ρ c, KFoldB.w6_v20 m ρ c, KFoldB.w6_v31 m ρ c, KFoldA.w4_v20 m ρ c, hs1_eq m ρ c, KFoldA.w4_v3 m ρ c,
    KFoldA.w4_v6 m ρ c, KFoldA.w4_arg3 m ρ c]
  exact KLayer.layer_eq (m ((c.tc : Thread nD τ).loc main_arg1)) s t hst (m ((c.tc : Thread nD τ).loc main_arg0)) (m ((c.tc : Thread nD τ).loc main_arg2)) (m ((c.tc : Thread nD τ).loc main_arg3))

/-- the normalisers' column reaches region 2 and region 3 unchanged -/
theorem w7_dcol (c : Dev nD) : W7 (F := Ideal) m ρ c (Proc.devRef .tc main_v20) = dcol m c := by
  rw [KFoldB.w7_v20 m ρ c, KFoldB.w6_v20 m ρ c, KFoldA.w4_v20 m ρ c]
theorem w10_dcol (c : Dev nD) : W10 (F := Ideal) m ρ c (Proc.devRef .tc main_v20) = dcol m c := by
  rw [KFoldC.w10_v20 m ρ c, KFoldB.w8_v20 m ρ c, w7_dcol m ρ c]

/-- the edges' ends reach the second aggregation unchanged -/
theorem w8_src (c : Dev nD) : W8 (F := Ideal) m ρ c (Proc.devRef .tc main_v3) = KT.ends0 (m ((c.tc : Thread nD τ).loc main_arg1)) := by
  rw [KFoldB.w8_v3 m ρ c, KFoldB.w7_v3 m ρ c, KFoldB.w6_v3 m ρ c, KFoldA.w4_v3 m ρ c]
theorem w8_dst (c : Dev nD) : W8 (F := Ideal) m ρ c (Proc.devRef .tc main_v6) = KT.ends1 (m ((c.tc : Thread nD τ).loc main_arg1)) := by
  rw [KFoldB.w8_v6 m ρ c, KFoldB.w7_v6 m ρ c, KFoldB.w6_v6 m ρ c, KFoldA.w4_v6 m ρ c]

/-- the later arguments reach the stage that reads them unchanged -/
theorem w7_arg4 (c : Dev nD) : W7 (F := Ideal) m ρ c (Proc.devRef .tc main_arg4) = m ((c.tc : Thread nD τ).loc main_arg4) := by
  rw [KFoldB.w7_arg4 m ρ c, KFoldB.w6_arg4 m ρ c, KFoldA.w4_arg4 m ρ c]
theorem w8_arg5 (c : Dev nD) : W8 (F := Ideal) m ρ c (Proc.devRef .tc main_arg5) = m ((c.tc : Thread nD τ).loc main_arg5) := by
  rw [KFoldB.w8_arg5 m ρ c, KFoldB.w7_arg5 m ρ c, KFoldB.w6_arg5 m ρ c, KFoldA.w4_arg5 m ρ c]
theorem w8_arg6 (c : Dev nD) : W8 (F := Ideal) m ρ c (Proc.devRef .tc main_arg6) = m ((c.tc : Thread nD τ).loc main_arg6) := by
  rw [KFoldB.w8_arg6 m ρ c, KFoldB.w7_arg6 m ρ c, KFoldB.w6_arg6 m ρ c, KFoldA.w4_arg6 m ρ c]
theorem w8_arg7 (c : Dev nD) : W8 (F := Ideal) m ρ c (Proc.devRef .tc main_arg7) = m ((c.tc : Thread nD τ).loc main_arg7) := by
  rw [KFoldB.w8_arg7 m ρ c, KFoldB.w7_arg7 m ρ c, KFoldB.w6_arg7 m ρ c, KFoldA.w4_arg7 m ρ c]

/-- REGION 3's output: the second layer on top of the first. -/
theorem w11_h2 (c : Dev nD) (s t : Fin 1300000 → Fin 100000)
    (hst : EndsAre (m ((c.tc : Thread nD τ).loc main_arg1)) s t) :
    W11 (F := Ideal) m ρ c (Proc.devRef .tc main_v44)
      = arr2 (layerK s t (layerK s t (mat (m ((c.tc : Thread nD τ).loc main_arg0))) (mat (m ((c.tc : Thread nD τ).loc main_arg2)))
            (vec (m ((c.tc : Thread nD τ).loc main_arg3)))) (mat (m ((c.tc : Thread nD τ).loc main_arg4)))
          (vec (m ((c.tc : Thread nD τ).loc main_arg5)))) := by
  rw [KFoldC.w11_v44 m ρ c, Region3.arr (V10 m ρ) c]
  show biasTanh (W10 m ρ c (Proc.devRef .tc main_v42)) (W10 m ρ c (Proc.devRef .tc main_v20)) (W10 m ρ c (Proc.devRef .tc main_v43)) = _
  rw [KFoldC.w10_v42 m ρ c, w10_dcol m ρ c, KFoldC.w10_v43 m ρ c, w8_src m ρ c, w8_dst m ρ c, w8_arg5 m ρ c,
    KFoldB.w8_v33 m ρ c, Region2.arr (V7 m ρ) c]
  show biasTanh (KT.agg (F := Ideal) (linScale (W7 m ρ c (Proc.devRef .tc main_v32)) (W7 m ρ c (Proc.devRef .tc main_arg4)) (W7 m ρ c (Proc.devRef .tc main_v20))) _ _) _ _ = _
  rw [h1_eq m ρ c s t hst, w7_arg4 m ρ c, w7_dcol m ρ c]
  refine (KLayer.layer_eq (m ((c.tc : Thread nD τ).loc main_arg1)) s t hst
    (arr2 (layerK s t (mat (m ((c.tc : Thread nD τ).loc main_arg0))) (mat (m ((c.tc : Thread nD τ).loc main_arg2))) (vec (m ((c.tc : Thread nD τ).loc main_arg3))))) (m ((c.tc : Thread nD τ).loc main_arg4)) (m ((c.tc : Thread nD τ).loc main_arg5))).trans ?_
  rw [mat_arr2]

/-- the second layer's output, in the kernel's arrangement of the scaling -/
theorem h2_eq (c : Dev nD) (s t : Fin 1300000 → Fin 100000)
    (hst : EndsAre (m ((c.tc : Thread nD τ).loc main_arg1)) s t) :
    W13 (F := Ideal) m ρ c (Proc.devRef .tc main_v44)
      = arr2 (layerK s t (layerK s t (mat (m ((c.tc : Thread nD τ).loc main_arg0))) (mat (m ((c.tc : Thread nD τ).loc main_arg2)))
            (vec (m ((c.tc : Thread nD τ).loc main_arg3)))) (mat (m ((c.tc : Thread nD τ).loc main_arg4)))
          (vec (m ((c.tc : Thread nD τ).loc main_arg5)))) := by
  rw [KFoldC.w13_v44 m ρ c, KFoldC.w12_v44 m ρ c]
  exact w11_h2 m ρ c s t hst

/-- the classifier's output on top of it -/
theorem out_eq (c : Dev nD) (s t : Fin 1300000 → Fin 100000)
    (hst : EndsAre (m ((c.tc : Thread nD τ).loc main_arg1)) s t) :
    W13 (F := Ideal) m ρ c (Proc.devRef .tc main_v46)
      = arr2 (outOf (layerK s t (layerK s t (mat (m ((c.tc : Thread nD τ).loc main_arg0))) (mat (m ((c.tc : Thread nD τ).loc main_arg2)))
            (vec (m ((c.tc : Thread nD τ).loc main_arg3)))) (mat (m ((c.tc : Thread nD τ).loc main_arg4)))
          (vec (m ((c.tc : Thread nD τ).loc main_arg5)))) (mat (m ((c.tc : Thread nD τ).loc main_arg6)))
          (vec (m ((c.tc : Thread nD τ).loc main_arg7)))) := by
  rw [KFoldC.w13_v46 m ρ c, Region4.arr (V12 m ρ) c]
  show linBias (W12 m ρ c (Proc.devRef .tc main_v44)) (W12 m ρ c (Proc.devRef .tc main_arg6)) (W12 m ρ c (Proc.devRef .tc main_v45)) = _
  rw [KFoldC.w12_v44 m ρ c, KFoldC.w12_arg6 m ρ c, KFoldC.w12_v45 m ρ c, KFoldC.w11_arg6 m ρ c, KFoldC.w11_arg7 m ρ c,
    KFoldC.w10_arg6 m ρ c, KFoldC.w10_arg7 m ρ c, w8_arg6 m ρ c, w8_arg7 m ρ c, w11_h2 m ρ c s t hst]
  refine (KLayer.out_eq
    (arr2 (layerK s t (layerK s t (mat (m ((c.tc : Thread nD τ).loc main_arg0))) (mat (m ((c.tc : Thread nD τ).loc main_arg2))) (vec (m ((c.tc : Thread nD τ).loc main_arg3)))) (mat (m ((c.tc : Thread nD τ).loc main_arg4))) (vec (m ((c.tc : Thread nD τ).loc main_arg5)))))
    (m ((c.tc : Thread nD τ).loc main_arg6)) (m ((c.tc : Thread nD τ).loc main_arg7))).trans ?_
  rw [mat_arr2]

end Cert.KernelIdeal.KValue

end
-- ==== Proof.RefLayer.lean ====
/-
  One layer of the reference program as a function of whole arrays, and the classifier on top of two layers, read at an
  index.

  The reference lays each edge's two ends out as vectors of 1300000 words (SRC, DST: row 0, row 1 of the edge array,
  then the nodes in order), wraps a negative index by the number of nodes, counts the edges that end at each node by
  scattering ones from zero (DEG), guards the reciprocal square root by "the count is positive" (DINV), and gives every
  edge the product of its two ends' normalisers, copied along the 64 columns (NORM). A layer multiplies the node rows by
  a weight matrix, takes for every edge its source's row of the product, scales it by the edge's product of normalisers,
  adds the rows that arrive at each node from zero, adds the bias row and takes the hyperbolic tangent.

  When s and t name the edges' ends as nodes, each of these arrays is, index by index, the function Spec names for it:
  an end below 100000 is not negative, so wrapping leaves it, and clamping it into the table leaves it; the rows that
  arrive at node p are those of the edges e with t e = p. So one layer is Spec.layerR (refLayer_eq), and the classifier
  is Spec.outOf (refOut_eq).
-/
import proofs.«423935_j26499948216429_3_alg».proof.Proof.Gen.ReferenceIdeal
import proofs.«423935_j26499948216429_3_alg».proof.Proof.Spec
import proofs.«423935_j26499948216429_3_alg».proof.Proof.HostRead
import proofs.«423935_j26499948216429_3_alg».proof.Proof.LibScatterRows
import proofs.«423935_j26499948216429_3_alg».proof.Proof.LibGather
import Idealize.ShloMosaic.Lib.Pipeline.Value
import Idealize.ShloMosaic.Lib.ValueIdx
import Idealize.ShloMosaic.Lib.StackMember
import Idealize.ShloMosaic.PureOps.Ideal.Laws

set_option maxRecDepth 16384

noncomputable section

open scoped BigOperators

namespace Cert.ReferenceIdeal.RefLayer

open Idealize.ShloMosaic Idealize.ShloMosaic.TcCoe Idealize.ShloMosaic.ValueIdx
open Cert.ReferenceIdeal Cert.ReferenceIdeal.Gen Cert.Spec

/-! ## The arrays the reference builds from the edge array -/

/-- every edge's first end: row 0 of the edge array, then the nodes in order -/
def SRC (E : IVec S2x1200000 32) : IVec S1300000 32 :=
  concatenate S1300000 0 [⟨S1200000, (shapeCast _ (extractStridedSlice S1x1200000 ![0, 0] E slices_S2x1200000_S1x1200000_0_0) shapeCasts_S1x1200000_S1200000)⟩, ⟨S100000, (iotaInDim S100000 32 0)⟩] concatenates_S1200000_S100000_S1300000_d0

/-- every edge's second end: row 1 of the edge array, then the nodes in order -/
def DST (E : IVec S2x1200000 32) : IVec S1300000 32 :=
  concatenate S1300000 0 [⟨S1200000, (shapeCast _ (extractStridedSlice S1x1200000 ![1, 0] E slices_S2x1200000_S1x1200000_1_0) shapeCasts_S1x1200000_S1200000)⟩, ⟨S100000, (iotaInDim S100000 32 0)⟩] concatenates_S1200000_S100000_S1300000_d0

/-- a negative index moved up by the number of nodes -/
def wrapN (v : IVec S1300000 32) : IVec S1300000 32 :=
  select (cmpi .slt v (broadcastInDim S1300000 ![] bcast_S_S1300000 (constantI S_ 32 0#32))) (addi v (broadcastInDim S1300000 ![] bcast_S_S1300000 (constantI S_ 32 100000#32))) v

/-- a vector of 1300000 entries as a column -/
def col {α : Type} (v : S1300000.Idx → α) : S1300000x1.Idx → α :=
  broadcastInDim S1300000x1 ![0] bcast_S1300000_S1300000x1_0 v

/-- the number of edges that end at each node: ones scattered, from zero, at the wrapped second ends -/
def DEG (E : IVec S2x1200000 32) : FVec Ideal S100000 .f32 :=
  Host.scatterAdd scatter_S100000_S1300000x1_S1300000_n_0_0_1 (broadcastInDim S100000 ![] bcast_S_S100000 (constant S_ .f32 0x00000000#32)) (col (wrapN (DST E))) (broadcastInDim S1300000 ![] bcast_S_S1300000 (constant S_ .f32 0x3F800000#32))

/-- each node's normaliser: the reciprocal square root of its count where the count is positive, zero elsewhere -/
def DINV (E : IVec S2x1200000 32) : FVec Ideal S100000 .f32 :=
  select (cmpf .ogt (DEG E) (broadcastInDim S100000 ![] bcast_S_S100000 (constant S_ .f32 0x00000000#32))) (Host.rsqrt (DEG E)) (broadcastInDim S100000 ![] bcast_S_S100000 (id (constant S_ .f32 0x00000000#32)))

/-- each edge's product of its two ends' normalisers, copied along the 64 columns -/
def NORM (E : IVec S2x1200000 32) : FVec Ideal S1300000x64 .f32 :=
  broadcastInDim S1300000x64 ![0, 1] bcast_S1300000x1_S1300000x64_0_1 (col (mulf (Host.gather gather_S100000_S1300000x1_S1300000_n_0_n_n_0_1_1 (DINV E) (col (wrapN (SRC E)))) (Host.gather gather_S100000_S1300000x1_S1300000_n_0_n_n_0_1_1 (DINV E) (col (wrapN (DST E))))))

/-- one layer: the rows times the weights, taken at every edge's first end, scaled, added at the second ends from zero,
    plus the bias row, through the hyperbolic tangent -/
def refLayer (E : IVec S2x1200000 32) (h : FVec Ideal S100000x64 .f32) (W : FVec Ideal S64x64 .f32) (b : FVec Ideal S64 .f32) :
    FVec Ideal S100000x64 .f32 :=
  Host.tanh (addf (Host.scatterAdd scatter_S100000x64_S1300000x1_S1300000x64_1_0_0_1 (broadcastInDim S100000x64 ![] bcast_S_S100000x64 (constant S_ .f32 0x00000000#32)) (col (DST E)) (mulf (Host.gather gather_S100000x64_S1300000x1_S1300000x64_1_0_n_n_0_1_164 (Host.dotGeneral dot_S100000x64_S64x64_S100000x64_1_0_0_1_n_n none h W) (col (wrapN (SRC E)))) (NORM E))) (broadcastInDim S100000x64 ![0, 1] bcast_S1x64_S100000x64_0_1 (broadcastInDim S1x64 ![1] bcast_S64_S1x64_1 b)))

/-- the classifier: the rows times its weights plus its bias row -/
def refOut (h : FVec Ideal S100000x64 .f32) (Wc : FVec Ideal S64x32 .f32) (bc : FVec Ideal S32 .f32) : FVec Ideal S100000x32 .f32 :=
  addf (Host.dotGeneral dot_S100000x64_S64x32_S100000x32_1_0_0_1_n_n none h Wc) (broadcastInDim S100000x32 ![0, 1] bcast_S1x32_S100000x32_0_1 (broadcastInDim S1x32 ![1] bcast_S32_S1x32_1 bc))

/-! ## Layout operations at an index -/

/-- a column read at (e, 0) is the vector's entry e -/
theorem col_apply {α : Type} (v : S1300000.Idx → α) (e : Fin 1300000) : col v (ix2 e (0 : Fin 1)) = v (ix1 e) :=
  Cert.HostRead.column_apply v bcast_S1300000_S1300000x1_0 e

/-- a column copied along 64 columns reads, at (e, q), the column's entry (e, 0) -/
theorem cols_apply {α : Type} (X : S1300000x1.Idx → α) (e : Fin 1300000) (q : Fin 64) :
    broadcastInDim S1300000x64 ![0, 1] bcast_S1300000x1_S1300000x64_0_1 X (ix2 e q) = X (ix2 e (0 : Fin 1)) := by
  refine broadcastInDim_apply _ _ X (ix2 e q) (ix2 e (0 : Fin 1)) fun a => ?_
  match a with
  | ⟨0, _⟩ =>
    show e.val = if (1300000 : ℕ) = 1 then 0 else e.val
    rw [if_neg (by decide)]
  | ⟨1, _⟩ => rfl

/-- a bias row copied down the 100000 rows reads, at (p, q), the bias's entry q -/
theorem bias64_apply {α : Type} (b : S64.Idx → α) (p : Fin 100000) (q : Fin 64) :
    broadcastInDim S100000x64 ![0, 1] bcast_S1x64_S100000x64_0_1 (broadcastInDim S1x64 ![1] bcast_S64_S1x64_1 b) (ix2 p q) = b (ix1 q) := by
  refine (broadcastInDim_apply _ _ _ (ix2 p q) (ix2 (0 : Fin 1) q) fun a => ?_).trans
    (broadcastInDim_apply _ _ b (ix2 (0 : Fin 1) q) (ix1 q) fun a => ?_)
  · match a with
    | ⟨0, _⟩ => rfl
    | ⟨1, _⟩ =>
      show q.val = if (64 : ℕ) = 1 then 0 else q.val
      rw [if_neg (by decide)]
  · match a with
    | ⟨0, _⟩ =>
      show q.val = if (64 : ℕ) = 1 then 0 else q.val
      rw [if_neg (by decide)]

/-- the classifier's bias row copied down the 100000 rows reads, at (p, q), the bias's entry q -/
theorem bias32_apply {α : Type} (b : S32.Idx → α) (p : Fin 100000) (q : Fin 32) :
    broadcastInDim S100000x32 ![0, 1] bcast_S1x32_S100000x32_0_1 (broadcastInDim S1x32 ![1] bcast_S32_S1x32_1 b) (ix2 p q) = b (ix1 q) := by
  refine (broadcastInDim_apply _ _ _ (ix2 p q) (ix2 (0 : Fin 1) q) fun a => ?_).trans
    (broadcastInDim_apply _ _ b (ix2 (0 : Fin 1) q) (ix1 q) fun a => ?_)
  · match a with
    | ⟨0, _⟩ => rfl
    | ⟨1, _⟩ =>
      show q.val = if (32 : ℕ) = 1 then 0 else q.val
      rw [if_neg (by decide)]
  · match a with
    | ⟨0, _⟩ =>
      show q.val = if (32 : ℕ) = 1 then 0 else q.val
      rw [if_neg (by decide)]

/-- the splat of the zero pattern is zero everywhere -/
theorem zeros64_apply (i : S100000x64.Idx) :
    broadcastInDim S100000x64 ![] bcast_S_S100000x64 (constant (F := Ideal) S_ .f32 0x00000000#32) i = 0 :=
  Ideal.ofBits_zero_f32

/-! ## The edges' ends -/

section Ends
variable (E : IVec S2x1200000 32) (s t : Fin 1300000 → Fin 100000) (hst : EndsAre E s t)

/-- entry e of SRC is the word that names edge e's first end -/
theorem SRC_apply (e : Fin 1300000) : SRC E (ix1 e) = endWord E 0 e :=
  Cert.HostRead.ends_apply 0 (by decide) E slices_S2x1200000_S1x1200000_0_0 shapeCasts_S1x1200000_S1200000
    concatenates_S1200000_S100000_S1300000_d0 e

/-- entry e of DST is the word that names edge e's second end -/
theorem DST_apply (e : Fin 1300000) : DST E (ix1 e) = endWord E 1 e :=
  Cert.HostRead.ends_apply 1 (by decide) E slices_S2x1200000_S1x1200000_1_0 shapeCasts_S1x1200000_S1200000
    concatenates_S1200000_S100000_S1300000_d0 e

include hst

/-- read signed, entry e of SRC is the node s e -/
theorem SRC_toInt (e : Fin 1300000) : (SRC E (ix1 e)).toInt = ((s e).val : Int) := by
  rw [SRC_apply]; exact hst.1 e

/-- read signed, entry e of DST is the node t e -/
theorem DST_toInt (e : Fin 1300000) : (DST E (ix1 e)).toInt = ((t e).val : Int) := by
  rw [DST_apply]; exact hst.2 e

/-- a node is not negative: wrapping leaves SRC's entry -/
theorem wrapSRC_apply (e : Fin 1300000) : wrapN (SRC E) (ix1 e) = SRC E (ix1 e) :=
  Cert.HostRead.wrap_apply (SRC E) bcast_S_S1300000 e (by rw [SRC_toInt E s t hst]; exact Int.natCast_nonneg _)

/-- a node is not negative: wrapping leaves DST's entry -/
theorem wrapDST_apply (e : Fin 1300000) : wrapN (DST E) (ix1 e) = DST E (ix1 e) :=
  Cert.HostRead.wrap_apply (DST E) bcast_S_S1300000 e (by rw [DST_toInt E s t hst]; exact Int.natCast_nonneg _)

/-- the wrapped first ends as a column: at (e, 0), read signed, the node s e -/
theorem colWrapSRC_toInt (e : Fin 1300000) : (col (wrapN (SRC E)) (ix2 e (0 : Fin 1))).toInt = ((s e).val : Int) := by
  rw [col_apply, wrapSRC_apply E s t hst, SRC_toInt E s t hst]

/-- the wrapped second ends as a column: at (e, 0), read signed, the node t e -/
theorem colWrapDST_toInt (e : Fin 1300000) : (col (wrapN (DST E)) (ix2 e (0 : Fin 1))).toInt = ((t e).val : Int) := by
  rw [col_apply, wrapDST_apply E s t hst, DST_toInt E s t hst]

/-- the second ends as a column: at (e, 0), read signed, the node t e -/
theorem colDST_toInt (e : Fin 1300000) : (col (DST E) (ix2 e (0 : Fin 1))).toInt = ((t e).val : Int) := by
  rw [col_apply, DST_toInt E s t hst]

/-! ## Degrees and normalisers -/

/-- the count at node p is the degree of p -/
theorem DEG_apply (p : Fin 100000) : DEG E (ix1 p) = deg t p :=
  Cert.HostRead.deg_apply t (col (wrapN (DST E))) (colWrapDST_toInt E s t hst) scatter_S100000_S1300000x1_S1300000_n_0_0_1_wf
    bcast_S_S100000 bcast_S_S1300000 p

/-- the normaliser at node p is Spec's -/
theorem DINV_apply (p : Fin 100000) : DINV E (ix1 p) = dinv t p :=
  Cert.HostRead.dinv_apply t (DEG E) (DEG_apply E s t hst) bcast_S_S100000 p

/-- the normalisers taken at a column of indices: where the index at (e, 0), read signed, is the node n, entry e is the
    normaliser of n (a node is inside the table, so clamping leaves it) -/
theorem gatherDINV_apply (idx : IVec S1300000x1 32) (e : Fin 1300000) (n : Fin 100000)
    (h : (idx (ix2 e (0 : Fin 1))).toInt = (n.val : Int)) :
    Host.gather gather_S100000_S1300000x1_S1300000_n_0_n_n_0_1_1 (DINV E) idx (ix1 e) = dinv t n := by
  refine (Cert.Gather.gather_vec_apply (by decide) gather_S100000_S1300000x1_S1300000_n_0_n_n_0_1_1_wf (DINV E) idx e).trans ?_
  have hn : min (idx (ix2 e (0 : Fin 1))).toInt.toNat (100000 - 1) = n.val := by
    rw [h, Int.toNat_natCast]
    have := n.isLt
    omega
  rw [← DINV_apply E s t hst n]
  exact congrArg (DINV E) (congrArg ix1 (Fin.ext hn))

/-- every edge's product of normalisers: at (e, q), the normaliser of s e times the normaliser of t e -/
theorem NORM_apply (e : Fin 1300000) (q : Fin 64) : NORM E (ix2 e q) = dinv t (s e) * dinv t (t e) := by
  unfold NORM
  rw [cols_apply, col_apply, mulf_apply, gatherDINV_apply E s t hst _ e (s e) (colWrapSRC_toInt E s t hst e),
    gatherDINV_apply E s t hst _ e (t e) (colWrapDST_toInt E s t hst e)]

end Ends

/-! ## Products, row gather, row scatter -/

/-- the rows times the weights, at (p, q): row p of h times column q of W -/
theorem dot64_apply (h : FVec Ideal S100000x64 .f32) (W : FVec Ideal S64x64 .f32) (p : Fin 100000) (q : Fin 64) :
    Host.dotGeneral dot_S100000x64_S64x64_S100000x64_1_0_0_1_n_n none h W (ix2 p q) = mm (mat h) (mat W) p q :=
  StackMember.dotGeneral_plain_apply none h W p q

/-- the rows times the classifier's weights, at (p, q): row p of h times column q of Wc -/
theorem dot32_apply (h : FVec Ideal S100000x64 .f32) (Wc : FVec Ideal S64x32 .f32) (p : Fin 100000) (q : Fin 32) :
    Host.dotGeneral dot_S100000x64_S64x32_S100000x32_1_0_0_1_n_n none h Wc (ix2 p q) = mm (mat h) (mat Wc) p q :=
  StackMember.dotGeneral_plain_apply none h Wc p q

/-- rows of a table taken at a column of indices: where the index at (e, 0), read signed, is the node n, row e is the
    table's row n (a node is inside the table, so clamping leaves it) -/
theorem gatherRows_apply (X : FVec Ideal S100000x64 .f32) (idx : IVec S1300000x1 32) (e : Fin 1300000) (q : Fin 64) (n : Fin 100000)
    (h : (idx (ix2 e (0 : Fin 1))).toInt = (n.val : Int)) :
    Host.gather gather_S100000x64_S1300000x1_S1300000x64_1_0_n_n_0_1_164 X idx (ix2 e q) = X (ix2 n q) := by
  refine (Cert.ScatterRows.gather_rows_apply (by decide) gather_S100000x64_S1300000x1_S1300000x64_1_0_n_n_0_1_164_wf X idx e q).trans ?_
  have hn : min (idx (ix2 e (0 : Fin 1))).toInt.toNat (100000 - 1) = n.val := by
    rw [h, Int.toNat_natCast]
    have := n.isLt
    omega
  exact congrArg X (congrArg (fun a => ix2 a q) (Fin.ext hn))

/-- rows added, from zero, at a column of indices: element (p, q) is zero plus the sum, over the rows whose index read
    signed is p, of the row's element in column q -/
theorem scatter64_apply (idx : IVec S1300000x1 32) (upd : FVec Ideal S1300000x64 .f32) (p : Fin 100000) (q : Fin 64) :
    Host.scatterAdd scatter_S100000x64_S1300000x1_S1300000x64_1_0_0_1
        (broadcastInDim S100000x64 ![] bcast_S_S100000x64 (constant S_ .f32 0x00000000#32)) idx upd (ix2 p q)
      = 0 + ∑ j ∈ Finset.univ.filter (fun j : Fin 1300000 => (idx (ix2 j (0 : Fin 1))).toInt = (p.val : Int)), upd (ix2 j q) := by
  refine (Cert.ScatterRows.scatterAdd_rows_apply scatter_S100000x64_S1300000x1_S1300000x64_1_0_0_1_wf _ idx upd p q).trans ?_
  rw [zeros64_apply]

/-! ## One layer, and the classifier -/

/-- the host's hyperbolic tangent of an array, at an index -/
theorem hostTanh_apply {S : Shape} (v : FVec Ideal S .f32) (i : S.Idx) : Host.tanh v i = Ideal.tanh (v i) := rfl

/-- an array made from a function of row and column, read at (a, b) -/
theorem arr2_apply {A B : Nat} (f : Fin A → Fin B → EReal) (a : Fin A) (b : Fin B) : arr2 f (ix2 a b) = f a b := rfl

section Layer
variable (E : IVec S2x1200000 32) (s t : Fin 1300000 → Fin 100000) (hst : EndsAre E s t)
include hst

/-- ONE LAYER AT (p, q) -/
theorem refLayer_apply (h : FVec Ideal S100000x64 .f32) (W : FVec Ideal S64x64 .f32) (b : FVec Ideal S64 .f32)
    (p : Fin 100000) (q : Fin 64) :
    refLayer E h W b (ix2 p q) = layerR s t (mat h) (mat W) (vec b) p q := by
  unfold refLayer layerR
  rw [hostTanh_apply, addf_apply, scatter64_apply, bias64_apply]
  refine congrArg (fun z => Ideal.tanh (0 + z + b (ix1 q))) ?_
  have hf : (Finset.univ.filter fun j : Fin 1300000 => (col (DST E) (ix2 j (0 : Fin 1))).toInt = (p.val : Int))
      = Finset.univ.filter fun e : Fin 1300000 => t e = p := by
    refine Finset.filter_congr fun e _ => ?_
    rw [colDST_toInt E s t hst]
    exact ⟨fun h => Fin.ext (Int.ofNat_inj.mp h), fun h => by rw [h]⟩
  rw [hf]
  refine Finset.sum_congr rfl fun e he => ?_
  have hte : t e = p := (Finset.mem_filter.mp he).2
  rw [mulf_apply, gatherRows_apply _ _ e q (s e) (colWrapSRC_toInt E s t hst e), dot64_apply, NORM_apply E s t hst, hte]

/-- ONE LAYER: with s and t naming the edges' ends, the reference's layer is Spec's, as an array -/
theorem refLayer_eq (h : FVec Ideal S100000x64 .f32) (W : FVec Ideal S64x64 .f32) (b : FVec Ideal S64 .f32) :
    refLayer E h W b = arr2 (layerR s t (mat h) (mat W) (vec b)) := by
  funext i
  obtain ⟨p, q, rfl⟩ : ∃ (p : Fin 100000) (q : Fin 64), i = ix2 p q := ⟨i 0, i 1, eq_ix2 i⟩
  exact (refLayer_apply E s t hst h W b p q).trans (arr2_apply _ p q).symm

end Layer

/-- reading an array made from a function of row and column gives the function back -/
theorem mat_arr2 {A B : Nat} (f : Fin A → Fin B → EReal) : mat (arr2 f) = f := rfl

/-- THE CLASSIFIER: a matrix product plus a bias row is Spec's, as an array -/
theorem refOut_eq (h : FVec Ideal S100000x64 .f32) (Wc : FVec Ideal S64x32 .f32) (bc : FVec Ideal S32 .f32) :
    refOut h Wc bc = arr2 (outOf (mat h) (mat Wc) (vec bc)) := by
  funext i
  obtain ⟨p, q, rfl⟩ : ∃ (p : Fin 100000) (q : Fin 32), i = ix2 p q := ⟨i 0, i 1, eq_ix2 i⟩
  unfold refOut
  rw [addf_apply, dot32_apply, bias32_apply, arr2_apply]
  rfl

end Cert.ReferenceIdeal.RefLayer

end
-- ==== Proof.RValue.lean ====
/-
  The reference program's two results as functions of its arguments: the composed term of its host operations read at an
  index, layer by layer.

  The second layer's output is the reference's one layer (RefLayer.refLayer: the same tree of operations, over any
  rows, weights and bias) applied to the first layer's output, which is that layer applied to the inputs; the
  classifier's output is a matrix product plus a bias row on top (RefLayer.refOut). Both identities hold by unfolding.
  With s and t naming the edges' ends, each layer is Spec.layerR and the classifier is Spec.outOf.
-/
import proofs.«423935_j26499948216429_3_alg».proof.Proof.RefRun
import proofs.«423935_j26499948216429_3_alg».proof.Proof.Spec
import proofs.«423935_j26499948216429_3_alg».proof.Proof.HostRead
import proofs.«423935_j26499948216429_3_alg».proof.Proof.LibScatterRows
import proofs.«423935_j26499948216429_3_alg».proof.Proof.LibGather
import proofs.«423935_j26499948216429_3_alg».proof.Proof.RefLayer
import Idealize.ShloMosaic.Lib.Pipeline.Value
import Idealize.ShloMosaic.Lib.ValueIdx
import Idealize.ShloMosaic.PureOps.Ideal.Laws

set_option maxRecDepth 16384

noncomputable section

namespace Cert.ReferenceIdeal.RValue

open Idealize.ShloMosaic Idealize.ShloMosaic.TcCoe Idealize.ShloMosaic.ValueIdx
open Cert.ReferenceIdeal Cert.ReferenceIdeal.Gen Cert.Spec Cert.ReferenceIdeal.RefLayer

variable (m : (ℓ : Loc nD τ sig) → Buf (Elt Ideal) ℓ)

/-- the second layer's output is the reference's layer applied twice -/
theorem res105 (c : Dev nD) :
    Cert.ReferenceIdeal.Value.res_main_v105 (F := Ideal) m c
      = refLayer (m ((c.tc : Thread nD τ).loc main_arg1)) (refLayer (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) := by
  unfold Cert.ReferenceIdeal.Value.res_main_v105
  rfl

/-- the classifier's output is the reference's classifier on top of the layer applied twice -/
theorem res109 (c : Dev nD) :
    Cert.ReferenceIdeal.Value.res_main_v109 (F := Ideal) m c
      = refOut (refLayer (m ((c.tc : Thread nD τ).loc main_arg1)) (refLayer (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) (m ((c.tc : Thread nD τ).loc main_arg6)) (m ((c.tc : Thread nD τ).loc main_arg7)) := by
  unfold Cert.ReferenceIdeal.Value.res_main_v109
  rfl

/-- the second layer's output, in the reference's arrangement of the scaling -/
theorem h2_eq (c : Dev nD) (s t : Fin 1300000 → Fin 100000)
    (hst : EndsAre (m ((c.tc : Thread nD τ).loc main_arg1)) s t) :
    Cert.ReferenceIdeal.Value.res_out1 (F := Ideal) m c
      = arr2 (layerR s t (layerR s t (mat (m ((c.tc : Thread nD τ).loc main_arg0))) (mat (m ((c.tc : Thread nD τ).loc main_arg2)))
            (vec (m ((c.tc : Thread nD τ).loc main_arg3)))) (mat (m ((c.tc : Thread nD τ).loc main_arg4)))
          (vec (m ((c.tc : Thread nD τ).loc main_arg5)))) := by
  refine (res105 m c).trans ?_
  rw [refLayer_eq _ s t hst, refLayer_eq _ s t hst, mat_arr2]

/-- the classifier's output on top of it -/
theorem out_eq (c : Dev nD) (s t : Fin 1300000 → Fin 100000)
    (hst : EndsAre (m ((c.tc : Thread nD τ).loc main_arg1)) s t) :
    Cert.ReferenceIdeal.Value.res_out0 (F := Ideal) m c
      = arr2 (outOf (layerR s t (layerR s t (mat (m ((c.tc : Thread nD τ).loc main_arg0))) (mat (m ((c.tc : Thread nD τ).loc main_arg2)))
            (vec (m ((c.tc : Thread nD τ).loc main_arg3)))) (mat (m ((c.tc : Thread nD τ).loc main_arg4)))
          (vec (m ((c.tc : Thread nD τ).loc main_arg5)))) (mat (m ((c.tc : Thread nD τ).loc main_arg6)))
          (vec (m ((c.tc : Thread nD τ).loc main_arg7)))) := by
  refine (res109 m c).trans ?_
  rw [refLayer_eq _ s t hst, refLayer_eq _ s t hst, mat_arr2, refOut_eq, mat_arr2]

end Cert.ReferenceIdeal.RValue

end
-- ==== Proof.lean ====
/-
  A two-layer graph convolution with a hyperbolic tangent after each layer, and a linear classifier on top, over 100000
  nodes with 64 features and 1300000 directed edges (the 1200000 given ones, then one self loop per node). Each layer
  multiplies the node features by a weight matrix, sends every edge's source row to its destination scaled by the two
  endpoints' normalisers (the reciprocal square roots of their in-degrees), adds what arrives, adds a bias and takes the
  hyperbolic tangent; the classifier is one more matrix product plus a bias.

  The kernel scales each row by its own node's normaliser before the rows travel and scales the sum by the receiving
  node's normaliser afterwards; the reference scales each travelling row by the product of the two normalisers. Over the
  extended reals the two agree because the features, the weights and the normalisers are real numbers: multiplication by
  a real distributes over a finite sum of reals. The precondition gives exactly this: every float input is finite, and
  every entry of the edge array is a node number, so the edges' ends are nodes and every in-degree is a finite count.
-/
import proofs.«423935_j26499948216429_3_alg».proof.Defs
import proofs.«423935_j26499948216429_3_alg».proof.Proof.Gen.Kernel
import proofs.«423935_j26499948216429_3_alg».proof.Proof.Gen.Kernel.Skeleton
import proofs.«423935_j26499948216429_3_alg».proof.Proof.Gen.Kernel.Launch
import proofs.«423935_j26499948216429_3_alg».proof.Proof.Gen.Kernel.Points
import proofs.«423935_j26499948216429_3_alg».proof.Proof.Gen.Kernel.Frame
import proofs.«423935_j26499948216429_3_alg».proof.Proof.Gen.KernelIdeal
import proofs.«423935_j26499948216429_3_alg».proof.Proof.Gen.KernelIdeal.Skeleton
import proofs.«423935_j26499948216429_3_alg».proof.Proof.Gen.KernelIdeal.Launch
import proofs.«423935_j26499948216429_3_alg».proof.Proof.Gen.KernelIdeal.Points
import proofs.«423935_j26499948216429_3_alg».proof.Proof.Gen.KernelIdeal.Frame
import proofs.«423935_j26499948216429_3_alg».proof.Proof.Gen.ReferenceIdeal
import proofs.«423935_j26499948216429_3_alg».proof.Proof.Gen.Pre_finite_inputs
import proofs.«423935_j26499948216429_3_alg».proof.Proof.Spec
import proofs.«423935_j26499948216429_3_alg».proof.Proof.PreFacts
import proofs.«423935_j26499948216429_3_alg».proof.Proof.KRun
import proofs.«423935_j26499948216429_3_alg».proof.Proof.KValue
import proofs.«423935_j26499948216429_3_alg».proof.Proof.RefRun
import proofs.«423935_j26499948216429_3_alg».proof.Proof.RValue
import Idealize.ShloMosaic.Adequacy
import Idealize.ShloMosaic.Init

noncomputable section

namespace Cert.Proof

open Idealize.ShloMosaic Idealize.SL.Sem Idealize.ShloMosaic.TcCoe Cert.Spec

/-- THE TWO RESULTS AGREE. With the features and the two layers' weights real-valued, the two arrangements of the scaling
    give one second-layer output (two_layers_eq), hence one classifier output on top of it; the primed arrays are the
    reference's copies of the arguments, equal to the kernel's. -/
theorem results_agree (s t : Fin 1300000 → Fin 100000)
    (x x' : (⟨2, ![100000, 64]⟩ : Shape).Idx → EReal) (w1 w1' w2 w2' : (⟨2, ![64, 64]⟩ : Shape).Idx → EReal)
    (b1 b1' b2 b2' : (⟨1, ![64]⟩ : Shape).Idx → EReal) (wc wc' : (⟨2, ![64, 32]⟩ : Shape).Idx → EReal)
    (bc bc' : (⟨1, ![32]⟩ : Shape).Idx → EReal)
    (ex : x' = x) (ew1 : w1' = w1) (eb1 : b1' = b1) (ew2 : w2' = w2) (eb2 : b2' = b2) (ewc : wc' = wc) (ebc : bc' = bc)
    (hx : ∀ i, IsReal (x i)) (hw1 : ∀ i, IsReal (w1 i)) (hw2 : ∀ i, IsReal (w2 i)) :
    arr2 (layerR s t (layerR s t (mat x') (mat w1') (vec b1')) (mat w2') (vec b2'))
        = arr2 (layerK s t (layerK s t (mat x) (mat w1) (vec b1)) (mat w2) (vec b2))
      ∧ arr2 (outOf (layerR s t (layerR s t (mat x') (mat w1') (vec b1')) (mat w2') (vec b2')) (mat wc') (vec bc'))
        = arr2 (outOf (layerK s t (layerK s t (mat x) (mat w1) (vec b1)) (mat w2) (vec b2)) (mat wc) (vec bc)) := by
  rw [ex, ew1, eb1, ew2, eb2, ewc, ebc,
    two_layers_eq s t (mat x) (mat w1) (mat w2) (vec b1) (vec b2) (fun i k => hx _) (fun k j => hw1 _) (fun k j => hw2 _)]
  exact ⟨rfl, rfl⟩

/-- The edges' ends read from the reference's copy of the edge array are the same ends. -/
theorem ends_transport {E E' : (⟨2, ![2, 1200000]⟩ : Shape).Idx → BitVec 32} {s t : Fin 1300000 → Fin 100000}
    (e : E' = E) (h : EndsAre E s t) : EndsAre E' s t := by
  rw [e]; exact h

theorem frame_k : Cert.frame_Kernel := fun m ρ _ => Cert.Kernel.Gen.frame m ρ

theorem frame_ki : Cert.frame_KernelIdeal := fun m ρ _ => Cert.KernelIdeal.Gen.frame m ρ

/-- The reference runs and leaves its arguments as they were: its run read back, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs run; on every device the kernel's two result arrays are the classifier's output and the second
    layer's output in its arrangement of the scaling, the reference's are the same two in its arrangement, and the two
    arrangements agree (results_agree) on arguments that agree, under the precondition. -/
theorem algebraic : Cert.algebraic_KernelIdeal_ReferenceIdeal := by
  intro m ρ m' ρ' hpre hagree
  -- on each device: the precondition decoded, and the edges' two ends as nodes
  have hP := fun c => Cert.PreFacts.of_pre _ _ _ _ _ _ _ _ (hpre c)
  choose S T hST using fun c => Cert.PreFacts.ends_of_range _ (hP c).2.2.2
  refine ⟨_, _, Cert.KernelIdeal.KRun.run_vals (F := Ideal) m ρ, ?_⟩
  refine (θ_run Cert.ReferenceIdeal.defs _ _).mono (fun _ h c => ?_) (Cert.ReferenceIdeal.Value.run (F := Ideal) m' ρ')
  obtain ⟨e0, e1, e2, e3, e4, e5, e6, e7⟩ := hagree c
  have hst' := ends_transport e1 (hST c)
  have hag := results_agree (S c) (T c) _ _ _ _ _ _ _ _ _ _ _ _ _ _ e0 e2 e3 e4 e5 e6 e7 (hP c).1 (hP c).2.1 (hP c).2.2.1
  exact ⟨(h c).1.trans (((Cert.ReferenceIdeal.RValue.out_eq m' c (S c) (T c) hst').trans hag.2).trans
      (Cert.KernelIdeal.KValue.out_eq m ρ c (S c) (T c) (hST c)).symm),
    (h c).2.1.trans (((Cert.ReferenceIdeal.RValue.h2_eq m' c (S c) (T c) hst').trans hag.1).trans
      (Cert.KernelIdeal.KValue.h2_eq m ρ c (S c) (T c) (hST c)).symm),
    (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
